-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "fold_c_1073741824_5368709" .f32 0x43480000#32 ((1073741824 / 5368709 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v95)) (v2 : (c : Dev Cert.KernelIdeal.nD) → Buf (Elt Ideal) ((c.tc : Thread Cert.KernelIdeal.nD Cert.KernelIdeal.τ).loc Cert.KernelIdeal.main_v89)) (v3 : (c : Dev Cert.KernelIdeal.nD) → Buf (Elt Ideal) ((c.tc : Thread Cert.KernelIdeal.nD Cert.KernelIdeal.τ).loc Cert.KernelIdeal.main_v86)) (v4 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v95) = v1 c
          ∧ r.2.mem ((c.tc : Thread Cert.KernelIdeal.nD Cert.KernelIdeal.τ).loc Cert.KernelIdeal.main_v89) = v2 c
          ∧ r.2.mem ((c.tc : Thread Cert.KernelIdeal.nD Cert.KernelIdeal.τ).loc Cert.KernelIdeal.main_v86) = v3 c
          ∧ r.2.mem ((c.tc : Thread Cert.KernelIdeal.nD Cert.KernelIdeal.τ).loc Cert.KernelIdeal.main_v92) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_v111) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x14 : Shape := ⟨3, ![8, 1024, 14]⟩
abbrev S_ : Shape := ⟨0, ![]⟩

class Facts : Prop where
  bcast_S_S8x1024x14 : S_.BroadcastsInDim S8x1024x14 (![] : Fin 0 → Fin S8x1024x14.rank)
  reducesTo_S8x1024x14_S_d0_1_2 : S8x1024x14.ReducesTo [0, 1, 2] S_
  h_S_ : 0 < S_.numel

variable [Facts]

def fn {F : FTy → Type} [FloatOps F] (main_arg0 : FVec F S8x1024x14 .f32) : IVec S_ 1 :=
  let main_v0 : FVec F S8x1024x14 .f32 := Host.absf main_arg0
  let main_cst : FVec F S_ .f32 := constant S_ .f32 0x7F800000#32
  let main_v1 : FVec F S8x1024x14 .f32 := broadcastInDim S8x1024x14 ![] bcast_S_S8x1024x14 main_cst
  let main_v2 : IVec S8x1024x14 1 := cmpf .olt main_v0 main_v1
  let main_c : IVec S_ 1 := constantI S_ 1 1#1
  let main_v3 : IVec S_ 1 := (fun x v => Host.reduce IntOp.andi x v reducesTo_S8x1024x14_S_d0_1_2 h_S_) main_v2 main_c
  main_v3
-- ==== Kernel.lean ====
abbrev S8x1024x14 : Shape := ⟨3, ![8, 1024, 14]⟩
abbrev S8192x14 : Shape := ⟨2, ![8192, 14]⟩
abbrev S16384 : Shape := ⟨1, ![16384]⟩
abbrev S14 : Shape := ⟨1, ![14]⟩
abbrev S_ : Shape := ⟨0, ![]⟩
abbrev S16384x1 : Shape := ⟨2, ![16384, 1]⟩
abbrev S1x14 : Shape := ⟨2, ![1, 14]⟩
abbrev S16384x14 : Shape := ⟨2, ![16384, 14]⟩
abbrev S14x16384 : Shape := ⟨2, ![14, 16384]⟩
abbrev S16x16384 : Shape := ⟨2, ![16, 16384]⟩
abbrev S16x128 : Shape := ⟨2, ![16, 128]⟩
abbrev S256x14 : Shape := ⟨2, ![256, 14]⟩
abbrev S8x16384 : Shape := ⟨2, ![8, 16384]⟩
abbrev S8x128 : Shape := ⟨2, ![8, 128]⟩
abbrev S1x256x14 : Shape := ⟨3, ![1, 256, 14]⟩
abbrev S1 : Shape := ⟨1, ![1]⟩
abbrev S1x1x1 : Shape := ⟨3, ![1, 1, 1]⟩
abbrev S256 : Shape := ⟨1, ![256]⟩
abbrev S256x1 : Shape := ⟨2, ![256, 1]⟩
abbrev S256x16384 : Shape := ⟨2, ![256, 16384]⟩
abbrev S1x16384 : Shape := ⟨2, ![1, 16384]⟩
abbrev S1x256x1 : Shape := ⟨3, ![1, 256, 1]⟩
abbrev S1x1 : Shape := ⟨2, ![1, 1]⟩
abbrev S1x126 : Shape := ⟨2, ![1, 126]⟩
abbrev S1x128 : Shape := ⟨2, ![1, 128]⟩
abbrev S2x8x16384 : Shape := ⟨3, ![2, 8, 16384]⟩
abbrev S2x1x16384 : Shape := ⟨3, ![2, 1, 16384]⟩
abbrev S2x16384 : Shape := ⟨2, ![2, 16384]⟩
abbrev S2x8x128 : Shape := ⟨3, ![2, 8, 128]⟩
abbrev S2x1x128 : Shape := ⟨3, ![2, 1, 128]⟩
abbrev S2x128 : Shape := ⟨2, ![2, 128]⟩
abbrev S128 : Shape := ⟨1, ![128]⟩

abbrev nBuf : Space → Nat
  | .hbm => 152
  | .vmem => 9
  | .smem => 0
  | _ => 0

abbrev hbmTy0_0 (i : Nat) : BufTy := match i % 128 with
  | 0 => ⟨S8x1024x14, .f32⟩
  | 1 => ⟨S8192x14, .f32⟩
  | 2 => ⟨S16384, .i32⟩
  | 3 => ⟨S14, .i32⟩
  | 4 => ⟨S_, .i32⟩
  | 5 => ⟨S_, .i32⟩
  | 6 => ⟨S_, .i1⟩
  | 7 => ⟨S_, .i32⟩
  | 8 => ⟨S14, .i32⟩
  | 9 => ⟨S14, .i1⟩
  | 10 => ⟨S14, .i1⟩
  | 11 => ⟨S14, .i1⟩
  | 12 => ⟨S_, .i32⟩
  | 13 => ⟨S_, .i32⟩
  | 14 => ⟨S14, .i32⟩
  | 15 => ⟨S14, .i32⟩
  | 16 => ⟨S14, .i32⟩
  | 17 => ⟨S_, .i32⟩
  | 18 => ⟨S14, .i32⟩
  | 19 => ⟨S14, .i32⟩
  | 20 => ⟨S_, .i32⟩
  | 21 => ⟨S14, .i32⟩
  | 22 => ⟨S14, .i32⟩
  | 23 => ⟨S_, .i32⟩
  | 24 => ⟨S14, .i32⟩
  | 25 => ⟨S14, .i1⟩
  | 26 => ⟨S14, .i32⟩
  | 27 => ⟨S_, .i32⟩
  | 28 => ⟨S_, .i32⟩
  | 29 => ⟨S_, .i32⟩
  | 30 => ⟨S_, .i32⟩
  | 31 => ⟨S14, .i32⟩
  | 32 => ⟨S14, .i32⟩
  | 33 => ⟨S_, .i32⟩
  | 34 => ⟨S14, .i32⟩
  | 35 => ⟨S14, .i32⟩
  | 36 => ⟨S14, .i32⟩
  | 37 => ⟨S14, .i32⟩
  | 38 => ⟨S_, .i32⟩
  | 39 => ⟨S14, .i32⟩
  | 40 => ⟨S14, .i1⟩
  | 41 => ⟨S14, .i32⟩
  | 42 => ⟨S_, .i32⟩
  | 43 => ⟨S_, .i32⟩
  | 44 => ⟨S14, .i32⟩
  | 45 => ⟨S14, .i32⟩
  | 46 => ⟨S_, .i32⟩
  | 47 => ⟨S14, .i32⟩
  | 48 => ⟨S14, .i32⟩
  | 49 => ⟨S14, .i32⟩
  | 50 => ⟨S14, .i32⟩
  | 51 => ⟨S_, .i32⟩
  | 52 => ⟨S14, .i32⟩
  | 53 => ⟨S14, .i1⟩
  | 54 => ⟨S14, .i32⟩
  | 55 => ⟨S_, .i32⟩
  | 56 => ⟨S_, .i32⟩
  | 57 => ⟨S14, .i32⟩
  | 58 => ⟨S14, .i32⟩
  | 59 => ⟨S_, .i32⟩
  | 60 => ⟨S14, .i32⟩
  | 61 => ⟨S14, .i32⟩
  | 62 => ⟨S14, .i32⟩
  | 63 => ⟨S14, .i32⟩
  | 64 => ⟨S_, .i32⟩
  | 65 => ⟨S14, .i32⟩
  | 66 => ⟨S14, .i1⟩
  | 67 => ⟨S14, .i32⟩
  | 68 => ⟨S_, .i32⟩
  | 69 => ⟨S_, .i32⟩
  | 70 => ⟨S14, .i32⟩
  | 71 => ⟨S14, .i32⟩
  | 72 => ⟨S_, .i32⟩
  | 73 => ⟨S14, .i32⟩
  | 74 => ⟨S14, .i32⟩
  | 75 => ⟨S14, .i32⟩
  | 76 => ⟨S14, .i32⟩
  | 77 => ⟨S_, .i32⟩
  | 78 => ⟨S14, .i32⟩
  | 79 => ⟨S14, .i1⟩
  | 80 => ⟨S14, .i32⟩
  | 81 => ⟨S_, .i32⟩
  | 82 => ⟨S_, .i32⟩
  | 83 => ⟨S14, .i32⟩
  | 84 => ⟨S14, .i32⟩
  | 85 => ⟨S_, .i32⟩
  | 86 => ⟨S14, .i32⟩
  | 87 => ⟨S14, .i32⟩
  | 88 => ⟨S14, .i32⟩
  | 89 => ⟨S14, .i32⟩
  | 90 => ⟨S_, .i32⟩
  | 91 => ⟨S14, .i32⟩
  | 92 => ⟨S14, .i1⟩
  | 93 => ⟨S14, .i32⟩
  | 94 => ⟨S_, .i32⟩
  | 95 => ⟨S_, .i32⟩
  | 96 => ⟨S14, .i32⟩
  | 97 => ⟨S14, .i32⟩
  | 98 => ⟨S16384x1, .i32⟩
  | 99 => ⟨S1x14, .i32⟩
  | 100 => ⟨S16384x14, .i32⟩
  | 101 => ⟨S16384x14, .i32⟩
  | 102 => ⟨S16384x14, .i32⟩
  | 103 => ⟨S_, .i32⟩
  | 104 => ⟨S16384x14, .i32⟩
  | 105 => ⟨S16384x14, .i1⟩
  | 106 => ⟨S16384x14, .f32⟩
  | 107 => ⟨S_, .f32⟩
  | 108 => ⟨S16384x14, .f32⟩
  | 109 => ⟨S16384x14, .f32⟩
  | 110 => ⟨S_, .f32⟩
  | 111 => ⟨S16384x14, .f32⟩
  | 112 => ⟨S16384x14, .f32⟩
  | 113 => ⟨S14x16384, .f32⟩
  | 114 => ⟨S8192x14, .f32⟩
  | 115 => ⟨S16x16384, .f32⟩
  | 116 => ⟨S16x128, .f32⟩
  | 117 => ⟨S2x8x16384, .f32⟩
  | 118 => ⟨S2x1x16384, .f32⟩
  | 119 => ⟨S2x16384, .f32⟩
  | 120 => ⟨S_, .f32⟩
  | 121 => ⟨S16384, .f32⟩
  | 122 => ⟨S2x8x128, .f32⟩
  | 123 => ⟨S2x1x128, .f32⟩
  | 124 => ⟨S2x128, .f32⟩
  | 125 => ⟨S_, .f32⟩
  | 126 => ⟨S128, .f32⟩
  | 127 => ⟨S_, .f32⟩
  | _ => ⟨S8x1024x14, .f32⟩

abbrev hbmTy0_1 (i : Nat) : BufTy := match i % 128 with
  | 0 => ⟨S16384, .f32⟩
  | 1 => ⟨S16384, .f32⟩
  | 2 => ⟨S_, .f32⟩
  | 3 => ⟨S16384, .f32⟩
  | 4 => ⟨S16384, .f32⟩
  | 5 => ⟨S16384, .f32⟩
  | 6 => ⟨S16384, .f32⟩
  | 7 => ⟨S_, .f32⟩
  | 8 => ⟨S_, .f32⟩
  | 9 => ⟨S_, .f32⟩
  | 10 => ⟨S1, .f32⟩
  | 11 => ⟨S_, .f32⟩
  | 12 => ⟨S_, .f32⟩
  | 13 => ⟨S_, .f32⟩
  | 14 => ⟨S1, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S8x1024x14, .f32⟩
  | _ => ⟨S8x1024x14, .f32⟩

abbrev hbmTy (i : Nat) : BufTy := match i / 128 with
  | 0 => hbmTy0_0 i
  | 1 => hbmTy0_1 i
  | _ => ⟨S8x1024x14, .f32⟩

abbrev bufTy : (tb : Table) → Fin (tcTables nBuf tb) → BufTy
  | .hbm, ⟨i, _⟩ => hbmTy i
  | .local _ .vmem, ⟨0, _⟩ => ⟨S256x14, .f32⟩
  | .local _ .vmem, ⟨1, _⟩ => ⟨S256x14, .f32⟩
  | .local _ .vmem, ⟨2, _⟩ => ⟨S14x16384, .f32⟩
  | .local _ .vmem, ⟨3, _⟩ => ⟨S256x14, .f32⟩
  | .local _ .vmem, ⟨4, _⟩ => ⟨S256x14, .f32⟩
  | .local _ .vmem, ⟨5, _⟩ => ⟨S8x16384, .f32⟩
  | .local _ .vmem, ⟨6, _⟩ => ⟨S8x16384, .f32⟩
  | .local _ .vmem, ⟨7, _⟩ => ⟨S8x128, .f32⟩
  | .local _ .vmem, ⟨8, _⟩ => ⟨S8x128, .f32⟩
  | _, _ => ⟨S8x1024x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_c_0 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_c_3 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_c_4 : Ref sig .tc := ⟨.hbm, 17, rfl⟩
abbrev main_v9 : Ref sig .tc := ⟨.hbm, 18, rfl⟩
abbrev main_v10 : Ref sig .tc := ⟨.hbm, 19, rfl⟩
abbrev main_c_5 : Ref sig .tc := ⟨.hbm, 20, rfl⟩
abbrev main_v11 : Ref sig .tc := ⟨.hbm, 21, rfl⟩
abbrev main_v12 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_v13 : Ref sig .tc := ⟨.hbm, 26, rfl⟩
abbrev main_c_6 : Ref sig .tc := ⟨.hbm, 27, rfl⟩
abbrev main_c_7 : Ref sig .tc := ⟨.hbm, 28, rfl⟩
abbrev main_v14 : Ref sig .tc := ⟨.hbm, 29, rfl⟩
abbrev main_c_8 : Ref sig .tc := ⟨.hbm, 30, rfl⟩
abbrev main_v15 : Ref sig .tc := ⟨.hbm, 31, rfl⟩
abbrev main_v16 : Ref sig .tc := ⟨.hbm, 32, rfl⟩
abbrev main_c_9 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call2_c : Ref sig .tc := ⟨.hbm, 38, rfl⟩
abbrev main_call2_v0 : Ref sig .tc := ⟨.hbm, 39, rfl⟩
abbrev main_call2_v1 : Ref sig .tc := ⟨.hbm, 40, rfl⟩
abbrev main_v21 : Ref sig .tc := ⟨.hbm, 41, rfl⟩
abbrev main_v22 : Ref sig .tc := ⟨.hbm, 42, rfl⟩
abbrev main_c_10 : Ref sig .tc := ⟨.hbm, 43, rfl⟩
abbrev main_v23 : Ref sig .tc := ⟨.hbm, 44, rfl⟩
abbrev main_v24 : Ref sig .tc := ⟨.hbm, 45, rfl⟩
abbrev main_c_11 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call3_c : Ref sig .tc := ⟨.hbm, 51, rfl⟩
abbrev main_call3_v0 : Ref sig .tc := ⟨.hbm, 52, rfl⟩
abbrev main_call3_v1 : Ref sig .tc := ⟨.hbm, 53, rfl⟩
abbrev main_v29 : Ref sig .tc := ⟨.hbm, 54, rfl⟩
abbrev main_v30 : Ref sig .tc := ⟨.hbm, 55, rfl⟩
abbrev main_c_12 : Ref sig .tc := ⟨.hbm, 56, rfl⟩
abbrev main_v31 : Ref sig .tc := ⟨.hbm, 57, rfl⟩
abbrev main_v32 : Ref sig .tc := ⟨.hbm, 58, rfl⟩
abbrev main_c_13 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call4_c : Ref sig .tc := ⟨.hbm, 64, rfl⟩
abbrev main_call4_v0 : Ref sig .tc := ⟨.hbm, 65, rfl⟩
abbrev main_call4_v1 : Ref sig .tc := ⟨.hbm, 66, rfl⟩
abbrev main_v37 : Ref sig .tc := ⟨.hbm, 67, rfl⟩
abbrev main_v38 : Ref sig .tc := ⟨.hbm, 68, rfl⟩
abbrev main_c_14 : Ref sig .tc := ⟨.hbm, 69, rfl⟩
abbrev main_v39 : Ref sig .tc := ⟨.hbm, 70, rfl⟩
abbrev main_v40 : Ref sig .tc := ⟨.hbm, 71, rfl⟩
abbrev main_c_15 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_call5_c : Ref sig .tc := ⟨.hbm, 77, rfl⟩
abbrev main_call5_v0 : Ref sig .tc := ⟨.hbm, 78, rfl⟩
abbrev main_call5_v1 : Ref sig .tc := ⟨.hbm, 79, rfl⟩
abbrev main_v45 : Ref sig .tc := ⟨.hbm, 80, rfl⟩
abbrev main_v46 : Ref sig .tc := ⟨.hbm, 81, rfl⟩
abbrev main_c_16 : Ref sig .tc := ⟨.hbm, 82, rfl⟩
abbrev main_v47 : Ref sig .tc := ⟨.hbm, 83, rfl⟩
abbrev main_v48 : Ref sig .tc := ⟨.hbm, 84, rfl⟩
abbrev main_c_17 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_call6_c : Ref sig .tc := ⟨.hbm, 90, rfl⟩
abbrev main_call6_v0 : Ref sig .tc := ⟨.hbm, 91, rfl⟩
abbrev main_call6_v1 : Ref sig .tc := ⟨.hbm, 92, rfl⟩
abbrev main_v53 : Ref sig .tc := ⟨.hbm, 93, rfl⟩
abbrev main_v54 : Ref sig .tc := ⟨.hbm, 94, rfl⟩
abbrev main_c_18 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_c_19 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst : Ref sig .tc := ⟨.hbm, 107, rfl⟩
abbrev main_v65 : Ref sig .tc := ⟨.hbm, 108, rfl⟩
abbrev main_v66 : Ref sig .tc := ⟨.hbm, 109, rfl⟩
abbrev main_cst_20 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70_0 : Ref sig .tc := ⟨.hbm, 114, rfl⟩
abbrev main_v70_1 : Ref sig .tc := ⟨.hbm, 115, rfl⟩
abbrev main_v70_2 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_21 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_22 : Ref sig .tc := ⟨.hbm, 125, rfl⟩
abbrev main_v78 : Ref sig .tc := ⟨.hbm, 126, rfl⟩
abbrev main_cst_23 : Ref sig .tc := ⟨.hbm, 127, rfl⟩
abbrev main_v79 : Ref sig .tc := ⟨.hbm, 128, rfl⟩
abbrev main_v80 : Ref sig .tc := ⟨.hbm, 129, rfl⟩
abbrev main_cst_24 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_25 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_cst_26 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_27 : Ref sig .tc := ⟨.hbm, 144, rfl⟩
abbrev main_v92 : Ref sig .tc := ⟨.hbm, 145, rfl⟩
abbrev main_cst_28 : Ref sig .tc := ⟨.hbm, 146, rfl⟩
abbrev main_v93 : Ref sig .tc := ⟨.hbm, 147, rfl⟩
abbrev main_cst_29 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S14x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x14 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8x1024x14_S8192x14 : S8x1024x14.ShapeCasts S8192x14
  bcast_S_S14 : S_.BroadcastsInDim S14 (![] : Fin 0 → Fin S14.rank)
  bcast_S16384_S16384x1_0 : S16384.BroadcastsInDim S16384x1 (![0] : Fin 1 → Fin S16384x1.rank)
  bcast_S14_S1x14_1 : S14.BroadcastsInDim S1x14 (![1] : Fin 1 → Fin S1x14.rank)
  bcast_S16384x1_S16384x14_0_1 : S16384x1.BroadcastsInDim S16384x14 (![0, 1] : Fin 2 → Fin S16384x14.rank)
  bcast_S1x14_S16384x14_0_1 : S1x14.BroadcastsInDim S16384x14 (![0, 1] : Fin 2 → Fin S16384x14.rank)
  bcast_S_S16384x14 : S_.BroadcastsInDim S16384x14 (![] : Fin 0 → Fin S16384x14.rank)
  transposes_S16384x14_S14x16384_1_0 : S16384x14.Transposes [1, 0] S14x16384
  inb_S8x16384_S8x16384_0_0 : ∀ a, (![0, 0] : Fin 2 → Nat) a + S8x16384.size a ≤ S8x16384.size a
  h_S8x16384 : 0 < S8x16384.numel
  inb_S8x128_S8x128_0_0 : ∀ a, (![0, 0] : Fin 2 → Nat) a + S8x128.size a ≤ S8x128.size a
  h_S8x128 : 0 < S8x128.numel
  inb_S256x14_S256x14_0_0 : ∀ a, (![0, 0] : Fin 2 → Nat) a + S256x14.size a ≤ S256x14.size a
  h_S256x14 : 0 < S256x14.numel
  shapeCasts_S256x14_S256x14 : S256x14.ShapeCasts S256x14
  shapeCasts_S256x14_S1x256x14 : S256x14.ShapeCasts S1x256x14
  reduces_S1x256x14_S1 : S1x256x14.Reduces [1, 2] S1
  shapeCasts_S1_S1x1x1 : S1.ShapeCasts S1x1x1
  inpos_S1x1x1_p0_0_0 : ∀ a, (![0, 0, 0] : Fin 3 → Nat) a < S1x1x1.size a
  inb_S14x16384_S14x16384_0_0 : ∀ a, (![0, 0] : Fin 2 → Nat) a + S14x16384.size a ≤ S14x16384.size a
  h_S14x16384 : 0 < S14x16384.numel
  shapeCasts_S14x16384_S14x16384 : S14x16384.ShapeCasts S14x16384
  reduces_S256x14_S256 : S256x14.Reduces [1] S256
  shapeCasts_S256_S256x1 : S256.ShapeCasts S256x1
  broadcasts_S256x1_S256x16384 : S256x1.Broadcasts S256x16384
  reduces_S256x16384_S16384 : S256x16384.Reduces [0] S16384
  shapeCasts_S16384_S1x16384 : S16384.ShapeCasts S1x16384
  shapeCasts_S8x16384_S8x16384 : S8x16384.ShapeCasts S8x16384
  shapeCasts_S1x16384_S1x16384 : S1x16384.ShapeCasts S1x16384
  broadcasts_S1x16384_S8x16384 : S1x16384.Broadcasts S8x16384
  shapeCasts_S256x1_S1x256x1 : S256x1.ShapeCasts S1x256x1
  reduces_S1x256x1_S1 : S1x256x1.Reduces [1, 2] S1
  concatenates_S1x1_S1x1_S1x126_S1x128_d1 : Shape.Concatenates [S1x1, S1x1, S1x126] S1x128 1
  shapeCasts_S8x128_S8x128 : S8x128.ShapeCasts S8x128
  shapeCasts_S1x128_S1x128 : S1x128.ShapeCasts S1x128
  broadcasts_S1x128_S8x128 : S1x128.Broadcasts S8x128
  shapeCasts_S16x16384_S2x8x16384 : S16x16384.ShapeCasts S2x8x16384
  slices_S2x8x16384_S2x1x16384_0_0_0 : S2x8x16384.Slices ![0, 0, 0] S2x1x16384
  shapeCasts_S2x1x16384_S2x16384 : S2x1x16384.ShapeCasts S2x16384
  reducesTo_S2x16384_S16384_d0 : S2x16384.ReducesTo [0] S16384
  h_S_ : 0 < S_.numel
  shapeCasts_S16x128_S2x8x128 : S16x128.ShapeCasts S2x8x128
  slices_S2x8x128_S2x1x128_0_0_0 : S2x8x128.Slices ![0, 0, 0] S2x1x128
  shapeCasts_S2x1x128_S2x128 : S2x1x128.ShapeCasts S2x128
  reducesTo_S2x128_S128_d0 : S2x128.ReducesTo [0] S128
  bcast_S_S16384 : S_.BroadcastsInDim S16384 (![] : Fin 0 → Fin S16384.rank)
  reducesTo_S16384_S_d0 : S16384.ReducesTo [0] S_
  slices_S128_S1_0 : S128.Slices ![0] S1
  shapeCasts_S1_S_ : S1.ShapeCasts S_
  slices_S128_S1_1 : S128.Slices ![1] S1
  shapeCasts_S8192x14_S8x1024x14 : S8192x14.ShapeCasts S8x1024x14
  dot_S256x14_S14x16384_S256x16384_1_0_0_1_n_n_wf : DotDims.WF S256x14 S14x16384 S256x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x14.size a ≤ S8192x14.size a
  hwx0_0 : ∀ i : grid0.Coords, EltTy.bits .f32 = 32 ∨ (Rect.block (s := S8192x14) S256x14.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S14x16384.size a ≤ S14x16384.size a
  hwx0_1 : ∀ i : grid0.Coords, EltTy.bits .f32 = 32 ∨ (Rect.block (s := S14x16384) S14x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x14.size a ≤ S8192x14.size a
  hwx0_2 : ∀ i : grid0.Coords, EltTy.bits .f32 = 32 ∨ (Rect.block (s := S8192x14) S256x14.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16384.size a ≤ S16x16384.size a
  hwx0_3 : ∀ i : grid0.Coords, EltTy.bits .f32 = 32 ∨ (Rect.block (s := S16x16384) S8x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

def dot_S256x14_S14x16384_S256x16384_1_0_0_1_n_n : DotDims S256x14 S14x16384 S256x16384 where
  lhsContracting := [1]
  rhsContracting := [0]
  lhsNonContracting := [0]
  rhsNonContracting := [1]
  lhsBatch := []
  rhsBatch := []
  wf := dot_S256x14_S14x16384_S256x16384_1_0_0_1_n_n_wf

abbrev win0_0 : Pipeline.Window sig grid0 :=
  Pipeline.Window.ofSpec (Memref.whole main_v0) S256x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v69) S14x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v70_0) S256x14.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v70_1) S8x16384.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v70_2) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x1024x14 : Shape := ⟨3, ![8, 1024, 14]⟩
abbrev S8x1024x1x14 : Shape := ⟨4, ![8, 1024, 1, 14]⟩
abbrev S_ : Shape := ⟨0, ![]⟩
abbrev S16384 : Shape := ⟨1, ![16384]⟩
abbrev S14 : Shape := ⟨1, ![14]⟩
abbrev S16384x1 : Shape := ⟨2, ![16384, 1]⟩
abbrev S1x14 : Shape := ⟨2, ![1, 14]⟩
abbrev S16384x14 : Shape := ⟨2, ![16384, 14]⟩
abbrev S8x1024x1x16384 : Shape := ⟨4, ![8, 1024, 1, 16384]⟩
abbrev S8x1024x1 : Shape := ⟨3, ![8, 1024, 1]⟩
abbrev S8x1024x1x1 : Shape := ⟨4, ![8, 1024, 1, 1]⟩

abbrev nBuf : Space → Nat
  | .hbm => 195
  | .vmem => 0
  | .smem => 0
  | _ => 0

abbrev hbmTy0_0 (i : Nat) : BufTy := match i % 128 with
  | 0 => ⟨S8x1024x14, .f32⟩
  | 1 => ⟨S8x1024x1x14, .f32⟩
  | 2 => ⟨S_, .f32⟩
  | 3 => ⟨S8x1024x1x14, .f32⟩
  | 4 => ⟨S8x1024x1x14, .i1⟩
  | 5 => ⟨S_, .f32⟩
  | 6 => ⟨S_, .f32⟩
  | 7 => ⟨S8x1024x1x14, .f32⟩
  | 8 => ⟨S8x1024x1x14, .f32⟩
  | 9 => ⟨S8x1024x1x14, .f32⟩
  | 10 => ⟨S16384, .i32⟩
  | 11 => ⟨S14, .i32⟩
  | 12 => ⟨S_, .i32⟩
  | 13 => ⟨S_, .i32⟩
  | 14 => ⟨S_, .i1⟩
  | 15 => ⟨S_, .i32⟩
  | 16 => ⟨S14, .i32⟩
  | 17 => ⟨S14, .i1⟩
  | 18 => ⟨S14, .i1⟩
  | 19 => ⟨S14, .i1⟩
  | 20 => ⟨S_, .i32⟩
  | 21 => ⟨S_, .i32⟩
  | 22 => ⟨S14, .i32⟩
  | 23 => ⟨S14, .i32⟩
  | 24 => ⟨S14, .i32⟩
  | 25 => ⟨S_, .i32⟩
  | 26 => ⟨S14, .i32⟩
  | 27 => ⟨S14, .i32⟩
  | 28 => ⟨S_, .i32⟩
  | 29 => ⟨S14, .i32⟩
  | 30 => ⟨S14, .i32⟩
  | 31 => ⟨S_, .i32⟩
  | 32 => ⟨S14, .i32⟩
  | 33 => ⟨S14, .i1⟩
  | 34 => ⟨S14, .i32⟩
  | 35 => ⟨S_, .i32⟩
  | 36 => ⟨S_, .i32⟩
  | 37 => ⟨S_, .i32⟩
  | 38 => ⟨S_, .i32⟩
  | 39 => ⟨S14, .i32⟩
  | 40 => ⟨S14, .i32⟩
  | 41 => ⟨S_, .i32⟩
  | 42 => ⟨S14, .i32⟩
  | 43 => ⟨S14, .i32⟩
  | 44 => ⟨S14, .i32⟩
  | 45 => ⟨S14, .i32⟩
  | 46 => ⟨S_, .i32⟩
  | 47 => ⟨S14, .i32⟩
  | 48 => ⟨S14, .i1⟩
  | 49 => ⟨S14, .i32⟩
  | 50 => ⟨S_, .i32⟩
  | 51 => ⟨S_, .i32⟩
  | 52 => ⟨S14, .i32⟩
  | 53 => ⟨S14, .i32⟩
  | 54 => ⟨S_, .i32⟩
  | 55 => ⟨S14, .i32⟩
  | 56 => ⟨S14, .i32⟩
  | 57 => ⟨S14, .i32⟩
  | 58 => ⟨S14, .i32⟩
  | 59 => ⟨S_, .i32⟩
  | 60 => ⟨S14, .i32⟩
  | 61 => ⟨S14, .i1⟩
  | 62 => ⟨S14, .i32⟩
  | 63 => ⟨S_, .i32⟩
  | 64 => ⟨S_, .i32⟩
  | 65 => ⟨S14, .i32⟩
  | 66 => ⟨S14, .i32⟩
  | 67 => ⟨S_, .i32⟩
  | 68 => ⟨S14, .i32⟩
  | 69 => ⟨S14, .i32⟩
  | 70 => ⟨S14, .i32⟩
  | 71 => ⟨S14, .i32⟩
  | 72 => ⟨S_, .i32⟩
  | 73 => ⟨S14, .i32⟩
  | 74 => ⟨S14, .i1⟩
  | 75 => ⟨S14, .i32⟩
  | 76 => ⟨S_, .i32⟩
  | 77 => ⟨S_, .i32⟩
  | 78 => ⟨S14, .i32⟩
  | 79 => ⟨S14, .i32⟩
  | 80 => ⟨S_, .i32⟩
  | 81 => ⟨S14, .i32⟩
  | 82 => ⟨S14, .i32⟩
  | 83 => ⟨S14, .i32⟩
  | 84 => ⟨S14, .i32⟩
  | 85 => ⟨S_, .i32⟩
  | 86 => ⟨S14, .i32⟩
  | 87 => ⟨S14, .i1⟩
  | 88 => ⟨S14, .i32⟩
  | 89 => ⟨S_, .i32⟩
  | 90 => ⟨S_, .i32⟩
  | 91 => ⟨S14, .i32⟩
  | 92 => ⟨S14, .i32⟩
  | 93 => ⟨S_, .i32⟩
  | 94 => ⟨S14, .i32⟩
  | 95 => ⟨S14, .i32⟩
  | 96 => ⟨S14, .i32⟩
  | 97 => ⟨S14, .i32⟩
  | 98 => ⟨S_, .i32⟩
  | 99 => ⟨S14, .i32⟩
  | 100 => ⟨S14, .i1⟩
  | 101 => ⟨S14, .i32⟩
  | 102 => ⟨S_, .i32⟩
  | 103 => ⟨S_, .i32⟩
  | 104 => ⟨S14, .i32⟩
  | 105 => ⟨S14, .i32⟩
  | 106 => ⟨S16384x1, .i32⟩
  | 107 => ⟨S1x14, .i32⟩
  | 108 => ⟨S16384x14, .i32⟩
  | 109 => ⟨S16384x14, .i32⟩
  | 110 => ⟨S16384x14, .i32⟩
  | 111 => ⟨S_, .i32⟩
  | 112 => ⟨S16384x14, .i32⟩
  | 113 => ⟨S16384x14, .i1⟩
  | 114 => ⟨S16384x14, .f32⟩
  | 115 => ⟨S_, .f32⟩
  | 116 => ⟨S16384x14, .f32⟩
  | 117 => ⟨S16384x14, .f32⟩
  | 118 => ⟨S_, .f32⟩
  | 119 => ⟨S16384x14, .f32⟩
  | 120 => ⟨S16384x14, .f32⟩
  | 121 => ⟨S8x1024x1x16384, .f32⟩
  | 122 => ⟨S_, .f32⟩
  | 123 => ⟨S8x1024x1x16384, .f32⟩
  | 124 => ⟨S8x1024x1x16384, .f32⟩
  | 125 => ⟨S_, .f32⟩
  | 126 => ⟨S8x1024x1x16384, .f32⟩
  | 127 => ⟨S8x1024x1x16384, .f32⟩
  | _ => ⟨S8x1024x14, .f32⟩

abbrev hbmTy0_1 (i : Nat) : BufTy := match i % 128 with
  | 0 => ⟨S_, .f32⟩
  | 1 => ⟨S8x1024x1, .f32⟩
  | 2 => ⟨S_, .f32⟩
  | 3 => ⟨S8x1024x1, .f32⟩
  | 4 => ⟨S8x1024x1, .f32⟩
  | 5 => ⟨S8x1024x1x1, .f32⟩
  | 6 => ⟨S8x1024x1x16384, .f32⟩
  | 7 => ⟨S8x1024x1x16384, .f32⟩
  | 8 => ⟨S8x1024x1x16384, .f32⟩
  | 9 => ⟨S_, .f32⟩
  | 10 => ⟨S8x1024x1, .f32⟩
  | 11 => ⟨S8x1024x1x1, .f32⟩
  | 12 => ⟨S8x1024x1x16384, .f32⟩
  | 13 => ⟨S8x1024x1x16384, .f32⟩
  | 14 => ⟨S_, .f32⟩
  | 15 => ⟨S8x1024x1x16384, .f32⟩
  | 16 => ⟨S8x1024x1x16384, .f32⟩
  | 17 => ⟨S_, .f32⟩
  | 18 => ⟨S8x1024x1, .f32⟩
  | 19 => ⟨S_, .f32⟩
  | 20 => ⟨S8x1024x1, .f32⟩
  | 21 => ⟨S8x1024x1, .f32⟩
  | 22 => ⟨S8x1024x1x1, .f32⟩
  | 23 => ⟨S8x1024x1x16384, .f32⟩
  | 24 => ⟨S8x1024x1x16384, .f32⟩
  | 25 => ⟨S8x1024x1x16384, .f32⟩
  | 26 => ⟨S_, .f32⟩
  | 27 => ⟨S8x1024x1, .f32⟩
  | 28 => ⟨S8x1024x1x1, .f32⟩
  | 29 => ⟨S8x1024x1x1, .f32⟩
  | 30 => ⟨S8x1024x1x16384, .f32⟩
  | 31 => ⟨S8x1024x1x16384, .f32⟩
  | 32 => ⟨S_, .f32⟩
  | 33 => ⟨S16384, .f32⟩
  | 34 => ⟨S_, .f32⟩
  | 35 => ⟨S16384, .f32⟩
  | 36 => ⟨S16384, .f32⟩
  | 37 => ⟨S_, .f32⟩
  | 38 => ⟨S16384, .f32⟩
  | 39 => ⟨S16384, .f32⟩
  | 40 => ⟨S16384, .f32⟩
  | 41 => ⟨S16384, .f32⟩
  | 42 => ⟨S_, .f32⟩
  | 43 => ⟨S_, .f32⟩
  | 44 => ⟨S_, .f32⟩
  | 45 => ⟨S8x1024x1x16384, .f32⟩
  | 46 => ⟨S_, .f32⟩
  | 47 => ⟨S8x1024x1, .f32⟩
  | 48 => ⟨S8x1024x1, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S8x1024x1x14, .f32⟩
  | 59 => ⟨S8x1024x1x14, .f32⟩
  | 60 => ⟨S_, .f32⟩
  | 61 => ⟨S_, .f32⟩
  | 62 => ⟨S_, .f32⟩
  | 63 => ⟨S_, .f32⟩
  | 64 => ⟨S8x1024x1x14, .f32⟩
  | 65 => ⟨S8x1024x1x14, .f32⟩
  | 66 => ⟨S8x1024x14, .f32⟩
  | _ => ⟨S8x1024x14, .f32⟩

abbrev hbmTy (i : Nat) : BufTy := match i / 128 with
  | 0 => hbmTy0_0 i
  | 1 => hbmTy0_1 i
  | _ => ⟨S8x1024x14, .f32⟩

abbrev bufTy : (tb : Table) → Fin (tcTables nBuf tb) → BufTy
  | .hbm, ⟨i, _⟩ => hbmTy i
  | _, _ => ⟨S8x1024x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_c_6 : Ref sig .tc := ⟨.hbm, 25, rfl⟩
abbrev main_v12 : Ref sig .tc := ⟨.hbm, 26, rfl⟩
abbrev main_v13 : Ref sig .tc := ⟨.hbm, 27, rfl⟩
abbrev main_c_7 : Ref sig .tc := ⟨.hbm, 28, rfl⟩
abbrev main_v14 : Ref sig .tc := ⟨.hbm, 29, rfl⟩
abbrev main_v15 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_v16 : Ref sig .tc := ⟨.hbm, 34, rfl⟩
abbrev main_c_8 : Ref sig .tc := ⟨.hbm, 35, rfl⟩
abbrev main_c_9 : Ref sig .tc := ⟨.hbm, 36, rfl⟩
abbrev main_v17 : Ref sig .tc := ⟨.hbm, 37, rfl⟩
abbrev main_c_10 : Ref sig .tc := ⟨.hbm, 38, rfl⟩
abbrev main_v18 : Ref sig .tc := ⟨.hbm, 39, rfl⟩
abbrev main_v19 : Ref sig .tc := ⟨.hbm, 40, rfl⟩
abbrev main_c_11 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call3_c : Ref sig .tc := ⟨.hbm, 46, rfl⟩
abbrev main_call3_v0 : Ref sig .tc := ⟨.hbm, 47, rfl⟩
abbrev main_call3_v1 : Ref sig .tc := ⟨.hbm, 48, rfl⟩
abbrev main_v24 : Ref sig .tc := ⟨.hbm, 49, rfl⟩
abbrev main_v25 : Ref sig .tc := ⟨.hbm, 50, rfl⟩
abbrev main_c_12 : Ref sig .tc := ⟨.hbm, 51, rfl⟩
abbrev main_v26 : Ref sig .tc := ⟨.hbm, 52, rfl⟩
abbrev main_v27 : Ref sig .tc := ⟨.hbm, 53, rfl⟩
abbrev main_c_13 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call4_c : Ref sig .tc := ⟨.hbm, 59, rfl⟩
abbrev main_call4_v0 : Ref sig .tc := ⟨.hbm, 60, rfl⟩
abbrev main_call4_v1 : Ref sig .tc := ⟨.hbm, 61, rfl⟩
abbrev main_v32 : Ref sig .tc := ⟨.hbm, 62, rfl⟩
abbrev main_v33 : Ref sig .tc := ⟨.hbm, 63, rfl⟩
abbrev main_c_14 : Ref sig .tc := ⟨.hbm, 64, rfl⟩
abbrev main_v34 : Ref sig .tc := ⟨.hbm, 65, rfl⟩
abbrev main_v35 : Ref sig .tc := ⟨.hbm, 66, rfl⟩
abbrev main_c_15 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_call5_c : Ref sig .tc := ⟨.hbm, 72, rfl⟩
abbrev main_call5_v0 : Ref sig .tc := ⟨.hbm, 73, rfl⟩
abbrev main_call5_v1 : Ref sig .tc := ⟨.hbm, 74, rfl⟩
abbrev main_v40 : Ref sig .tc := ⟨.hbm, 75, rfl⟩
abbrev main_v41 : Ref sig .tc := ⟨.hbm, 76, rfl⟩
abbrev main_c_16 : Ref sig .tc := ⟨.hbm, 77, rfl⟩
abbrev main_v42 : Ref sig .tc := ⟨.hbm, 78, rfl⟩
abbrev main_v43 : Ref sig .tc := ⟨.hbm, 79, rfl⟩
abbrev main_c_17 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_call6_c : Ref sig .tc := ⟨.hbm, 85, rfl⟩
abbrev main_call6_v0 : Ref sig .tc := ⟨.hbm, 86, rfl⟩
abbrev main_call6_v1 : Ref sig .tc := ⟨.hbm, 87, rfl⟩
abbrev main_v48 : Ref sig .tc := ⟨.hbm, 88, rfl⟩
abbrev main_v49 : Ref sig .tc := ⟨.hbm, 89, rfl⟩
abbrev main_c_18 : Ref sig .tc := ⟨.hbm, 90, rfl⟩
abbrev main_v50 : Ref sig .tc := ⟨.hbm, 91, rfl⟩
abbrev main_v51 : Ref sig .tc := ⟨.hbm, 92, rfl⟩
abbrev main_c_19 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_call7_c : Ref sig .tc := ⟨.hbm, 98, rfl⟩
abbrev main_call7_v0 : Ref sig .tc := ⟨.hbm, 99, rfl⟩
abbrev main_call7_v1 : Ref sig .tc := ⟨.hbm, 100, rfl⟩
abbrev main_v56 : Ref sig .tc := ⟨.hbm, 101, rfl⟩
abbrev main_v57 : Ref sig .tc := ⟨.hbm, 102, rfl⟩
abbrev main_c_20 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_c_21 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_22 : Ref sig .tc := ⟨.hbm, 115, rfl⟩
abbrev main_v68 : Ref sig .tc := ⟨.hbm, 116, rfl⟩
abbrev main_v69 : Ref sig .tc := ⟨.hbm, 117, rfl⟩
abbrev main_cst_23 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_24 : Ref sig .tc := ⟨.hbm, 122, rfl⟩
abbrev main_v73 : Ref sig .tc := ⟨.hbm, 123, rfl⟩
abbrev main_v74 : Ref sig .tc := ⟨.hbm, 124, rfl⟩
abbrev main_cst_25 : Ref sig .tc := ⟨.hbm, 125, rfl⟩
abbrev main_v75 : Ref sig .tc := ⟨.hbm, 126, rfl⟩
abbrev main_v76 : Ref sig .tc := ⟨.hbm, 127, rfl⟩
abbrev main_cst_26 : Ref sig .tc := ⟨.hbm, 128, rfl⟩
abbrev main_v77 : Ref sig .tc := ⟨.hbm, 129, rfl⟩
abbrev main_cst_27 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_cst_28 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_cst_29 : Ref sig .tc := ⟨.hbm, 142, rfl⟩
abbrev main_v88 : Ref sig .tc := ⟨.hbm, 143, rfl⟩
abbrev main_v89 : Ref sig .tc := ⟨.hbm, 144, rfl⟩
abbrev main_call8_cst : Ref sig .tc := ⟨.hbm, 145, rfl⟩
abbrev main_call8_v0 : Ref sig .tc := ⟨.hbm, 146, rfl⟩
abbrev main_call8_cst_0 : Ref sig .tc := ⟨.hbm, 147, rfl⟩
abbrev main_call8_v1 : Ref sig .tc := ⟨.hbm, 148, rfl⟩
abbrev main_call8_v2 : Ref sig .tc := ⟨.hbm, 149, rfl⟩
abbrev main_call8_v3 : Ref sig .tc := ⟨.hbm, 150, rfl⟩
abbrev main_call8_v4 : Ref sig .tc := ⟨.hbm, 151, rfl⟩
abbrev main_call8_v5 : Ref sig .tc := ⟨.hbm, 152, rfl⟩
abbrev main_call8_v6 : Ref sig .tc := ⟨.hbm, 153, rfl⟩
abbrev main_call8_cst_1 : Ref sig .tc := ⟨.hbm, 154, rfl⟩
abbrev main_call8_v7 : Ref sig .tc := ⟨.hbm, 155, rfl⟩
abbrev main_call8_v8 : Ref sig .tc := ⟨.hbm, 156, rfl⟩
abbrev main_call8_v9 : Ref sig .tc := ⟨.hbm, 157, rfl⟩
abbrev main_call8_v10 : Ref sig .tc := ⟨.hbm, 158, rfl⟩
abbrev main_v90 : Ref sig .tc := ⟨.hbm, 159, rfl⟩
abbrev main_cst_30 : Ref sig .tc := ⟨.hbm, 160, rfl⟩
abbrev main_v91 : Ref sig .tc := ⟨.hbm, 161, rfl⟩
abbrev main_cst_31 : Ref sig .tc := ⟨.hbm, 162, rfl⟩
abbrev main_v92 : Ref sig .tc := ⟨.hbm, 163, rfl⟩
abbrev main_v93 : Ref sig .tc := ⟨.hbm, 164, rfl⟩
abbrev main_cst_32 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_cst_33 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_cst_34 : Ref sig .tc := ⟨.hbm, 174, rfl⟩
abbrev main_v101 : Ref sig .tc := ⟨.hbm, 175, rfl⟩
abbrev main_v102 : Ref sig .tc := ⟨.hbm, 176, rfl⟩
abbrev main_cst_35 : Ref sig .tc := ⟨.hbm, 177, rfl⟩
abbrev main_v103 : Ref sig .tc := ⟨.hbm, 178, rfl⟩
abbrev main_cst_36 : Ref sig .tc := ⟨.hbm, 179, rfl⟩
abbrev main_v104 : Ref sig .tc := ⟨.hbm, 180, rfl⟩
abbrev main_cst_37 : Ref sig .tc := ⟨.hbm, 181, rfl⟩
abbrev main_v105 : Ref sig .tc := ⟨.hbm, 182, rfl⟩
abbrev main_cst_38 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_cst_39 : Ref sig .tc := ⟨.hbm, 188, rfl⟩
abbrev main_v110 : Ref sig .tc := ⟨.hbm, 189, rfl⟩
abbrev main_cst_40 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩

abbrev nD : Nat := 1
abbrev τ : Topo := Topo.v7x

variable {F : FTy → Type} [FloatOps F]

class Facts₀ : Prop where
  shapeCasts_S8x1024x14_S8x1024x1x14 : S8x1024x14.ShapeCasts S8x1024x1x14
  bcast_S_S8x1024x1x14 : S_.BroadcastsInDim S8x1024x1x14 (![] : Fin 0 → Fin S8x1024x1x14.rank)
  bcast_S_S14 : S_.BroadcastsInDim S14 (![] : Fin 0 → Fin S14.rank)
  bcast_S16384_S16384x1_0 : S16384.BroadcastsInDim S16384x1 (![0] : Fin 1 → Fin S16384x1.rank)
  bcast_S14_S1x14_1 : S14.BroadcastsInDim S1x14 (![1] : Fin 1 → Fin S1x14.rank)
  bcast_S16384x1_S16384x14_0_1 : S16384x1.BroadcastsInDim S16384x14 (![0, 1] : Fin 2 → Fin S16384x14.rank)
  bcast_S1x14_S16384x14_0_1 : S1x14.BroadcastsInDim S16384x14 (![0, 1] : Fin 2 → Fin S16384x14.rank)
  bcast_S_S16384x14 : S_.BroadcastsInDim S16384x14 (![] : Fin 0 → Fin S16384x14.rank)
  bcast_S_S8x1024x1x16384 : S_.BroadcastsInDim S8x1024x1x16384 (![] : Fin 0 → Fin S8x1024x1x16384.rank)
  reducesTo_S8x1024x1x16384_S8x1024x1_d3 : S8x1024x1x16384.ReducesTo [3] S8x1024x1
  h_S_ : 0 < S_.numel
  bcast_S_S8x1024x1 : S_.BroadcastsInDim S8x1024x1 (![] : Fin 0 → Fin S8x1024x1.rank)
  bcast_S8x1024x1_S8x1024x1x1_0_1_2 : S8x1024x1.BroadcastsInDim S8x1024x1x1 (![0, 1, 2] : Fin 3 → Fin S8x1024x1x1.rank)
  bcast_S8x1024x1x1_S8x1024x1x16384_0_1_2_3 : S8x1024x1x1.BroadcastsInDim S8x1024x1x16384 (![0, 1, 2, 3] : Fin 4 → Fin S8x1024x1x16384.rank)
  reducesTo_S8x1024x1x16384_S16384_d0_1_2 : S8x1024x1x16384.ReducesTo [0, 1, 2] S16384
  bcast_S_S16384 : S_.BroadcastsInDim S16384 (![] : Fin 0 → Fin S16384.rank)
  reducesTo_S16384_S_d0 : S16384.ReducesTo [0] S_
  reducesTo_S8x1024x1_S_d0_1_2 : S8x1024x1.ReducesTo [0, 1, 2] S_
  reducesTo_S8x1024x1x14_S_d0_1_2_3 : S8x1024x1x14.ReducesTo [0, 1, 2, 3] S_
  shapeCasts_S8x1024x1x14_S8x1024x14 : S8x1024x1x14.ShapeCasts S8x1024x14
  dot_S8x1024x1x14_S16384x14_S8x1024x1x16384_3_1_012_0_n_n_wf : DotDims.WF S8x1024x1x14 S16384x14 S8x1024x1x16384 [3] [1] [0, 1, 2] [0] [] []

variable [Facts₀]

def dot_S8x1024x1x14_S16384x14_S8x1024x1x16384_3_1_012_0_n_n : DotDims S8x1024x1x14 S16384x14 S8x1024x1x16384 where
  lhsContracting := [3]
  rhsContracting := [1]
  lhsNonContracting := [0, 1, 2]
  rhsNonContracting := [0]
  lhsBatch := []
  rhsBatch := []
  wf := dot_S8x1024x1x14_S16384x14_S8x1024x1x16384_3_1_012_0_n_n_wf

class Facts : Prop extends Facts₀ where

variable [Facts]
-- ==== Proof.SignCodeSums.lean ====
/-
  Sums over the sign codes.  A code `j < 2^14` carries the sign pattern `sgn j d = +1` when bit `d` of `j`
  is set and `-1` when it is clear; the 2^14 codes enumerate every pattern in `{-1, +1}^14` exactly once.  For a
  weight row `w : Fin 14 → ℝ` the score of a code is `∑ d, w d * sgn j d`, and because the exponential of a sum is a
  product, sums of `exp (score)` over ALL codes factor over the 14 coordinates:

    ∑ j, exp (score j)            = ∏ d, (exp (w d) + exp (-(w d)))
    ∑ j, score j * exp (score j)  = (∏ d, (exp (w d) + exp (-(w d)))) * ∑ d, w d * tanh (w d)

  The first is the partition function, the second its logarithmic derivative along `w`.  Written with the stable
  per-coordinate term `lz t = |t| + log (1 + exp (-2 |t|)) = log (exp t + exp (-t))` they give the softmax
  probabilities `exp (score j - ∑ d, lz (w d))`, which sum to one, and the mean score `∑ d, w d * tanh (w d)`.
  The last section is the shift invariance of softmax and log-softmax over any finite index type.
-/
import Mathlib.Analysis.SpecialFunctions.Log.Basic
import Mathlib.Analysis.SpecialFunctions.Exp
import Mathlib.Algebra.BigOperators.Pi
import Mathlib.Algebra.BigOperators.Fin
import Mathlib.Algebra.BigOperators.Field
import Mathlib.Logic.Equiv.Fin.Basic

noncomputable section

namespace SignCodes

open Finset

/-- The sign a code carries at a coordinate: `+1` when the bit is set, `-1` when it is clear. -/
def sgn (j d : ℕ) : ℝ := if j.testBit d then 1 else -1

/-- The score of code `j` under the weight row `w`. -/
def score (w : Fin 14 → ℝ) (j : Fin 16384) : ℝ := ∑ d : Fin 14, w d * sgn j.val d.val

/-- One coordinate's share of the log-partition function, in the overflow-free form. -/
def lz (t : ℝ) : ℝ := |t| + Real.log (1 + Real.exp (-2 * |t|))

/-- The log-partition function of a weight row. -/
def logZ (w : Fin 14 → ℝ) : ℝ := ∑ d : Fin 14, lz (w d)

theorem sgn_sq (j d : ℕ) : sgn j d * sgn j d = 1 := by
  unfold sgn
  split_ifs <;> norm_num

/-- `exp (lz t) = exp t + exp (-t)`. -/
theorem exp_lz (t : ℝ) : Real.exp (lz t) = Real.exp t + Real.exp (-t) := by
  have h1 : (0 : ℝ) < 1 + Real.exp (-2 * |t|) := by positivity
  have h2 : |t| + -2 * |t| = -|t| := by ring
  unfold lz
  rw [Real.exp_add, Real.exp_log h1, mul_add, mul_one, ← Real.exp_add, h2]
  rcases abs_cases t with ⟨h, _⟩ | ⟨h, _⟩
  · rw [h]
  · rw [h, neg_neg, add_comm]

/-! ## The codes enumerate the sign patterns

  The binary digits of a code `j < 2^14` are `j / 2^d % 2`; sending a code to its digit vector is a bijection
  from the codes onto `Fin 14 → Fin 2`, so a sum over the codes of a product over the coordinates is the product
  over the coordinates of the two-term sums. -/

/-- The sign attached to a binary digit: `+1` for the digit one, `-1` for the digit zero. -/
private def sg (b : Fin 2) : ℝ := if b.val = 1 then 1 else -1

/-- Digit vectors and codes correspond one to one (`2^14 = 16384`). -/
private def codeEquiv : (Fin 14 → Fin 2) ≃ Fin 16384 := finFunctionFinEquiv (m := 2) (n := 14)

private theorem sgn_eq (j : Fin 16384) (d : Fin 14) : sgn j.val d.val = sg (codeEquiv.symm j d) := by
  have h : (codeEquiv.symm j d).val = j.val / 2 ^ d.val % 2 := rfl
  unfold sgn sg
  rw [Nat.testBit_eq_decide_div_mod_eq, h]
  simp

/-- A sum over all codes of a product over the coordinates factors. -/
private theorem sum_codes (F : Fin 14 → Fin 2 → ℝ) :
    ∑ j : Fin 16384, ∏ d, F d (codeEquiv.symm j d) = ∏ d, (F d 0 + F d 1) := by
  rw [Fintype.sum_equiv codeEquiv.symm _ (fun p => ∏ d, F d (p d)) (fun _ => rfl)]
  rw [← Fintype.prod_sum]
  simp [Fin.sum_univ_two]

private theorem exp_score (w : Fin 14 → ℝ) (j : Fin 16384) :
    Real.exp (score w j) = ∏ d, Real.exp (w d * sg (codeEquiv.symm j d)) := by
  unfold score
  rw [Real.exp_sum]
  refine Finset.prod_congr rfl (fun d _ => ?_)
  rw [sgn_eq]

private theorem prod_two_exp (w : Fin 14 → ℝ) :
    ∏ d, (Real.exp (w d) + Real.exp (-(w d))) = Real.exp (logZ w) := by
  unfold logZ
  rw [Real.exp_sum]
  refine Finset.prod_congr rfl (fun d _ => ?_)
  rw [exp_lz]

/-- The partition function over all 2^14 sign codes factors over the coordinates. -/
theorem partition (w : Fin 14 → ℝ) :
    ∑ j : Fin 16384, Real.exp (score w j) = Real.exp (logZ w) := by
  simp_rw [exp_score]
  rw [sum_codes (fun d b => Real.exp (w d * sg b)), ← prod_two_exp]
  refine Finset.prod_congr rfl (fun d _ => ?_)
  simp [sg, add_comm]

/-- The softmax probabilities `exp (score - logZ)` sum to one. -/
theorem probs_sum_one (w : Fin 14 → ℝ) :
    ∑ j : Fin 16384, Real.exp (score w j - logZ w) = 1 := by
  simp_rw [Real.exp_sub]
  rw [← Finset.sum_div, partition]
  exact div_self (Real.exp_pos _).ne'

/-- `tanh t * (exp t + exp (-t)) = exp t - exp (-t)`. -/
private theorem tanh_mul_two_exp (t : ℝ) :
    Real.tanh t * (Real.exp t + Real.exp (-t)) = Real.exp t - Real.exp (-t) := by
  have h : Real.exp t + Real.exp (-t) ≠ 0 := by positivity
  rw [Real.tanh_eq_sinh_div_cosh, Real.sinh_eq, Real.cosh_eq]
  field_simp

/-- The signed partition sum along one coordinate: the factor of that coordinate becomes
    `exp (w d') - exp (-(w d'))`, which is `tanh (w d')` times its unsigned factor. -/
private theorem sum_sgn_exp (w : Fin 14 → ℝ) (d' : Fin 14) :
    ∑ j : Fin 16384, sgn j.val d'.val * Real.exp (score w j) = Real.tanh (w d') * Real.exp (logZ w) := by
  have hterm : ∀ j : Fin 16384, sgn j.val d'.val * Real.exp (score w j)
      = ∏ d, ((if d = d' then sg (codeEquiv.symm j d) else 1) * Real.exp (w d * sg (codeEquiv.symm j d))) := by
    intro j
    rw [Finset.prod_mul_distrib, Finset.prod_ite_eq' Finset.univ d' (fun d => sg (codeEquiv.symm j d)),
      if_pos (Finset.mem_univ _), ← exp_score, sgn_eq]
  simp_rw [hterm]
  rw [sum_codes (fun d b => (if d = d' then sg b else 1) * Real.exp (w d * sg b)), ← prod_two_exp]
  have hfac : ∀ d : Fin 14,
      ((if d = d' then sg 0 else 1) * Real.exp (w d * sg 0) + (if d = d' then sg 1 else 1) * Real.exp (w d * sg 1))
        = (if d = d' then Real.tanh (w d) else 1) * (Real.exp (w d) + Real.exp (-(w d))) := by
    intro d
    by_cases h : d = d'
    · simp only [h, if_true, tanh_mul_two_exp]
      simp [sg]
      ring
    · simp only [h, if_false]
      simp [sg, add_comm]
  simp_rw [hfac]
  rw [Finset.prod_mul_distrib, Finset.prod_ite_eq' Finset.univ d' (fun d => Real.tanh (w d)),
    if_pos (Finset.mem_univ _)]

/-- The mean score under the softmax distribution is `∑ d, w d * tanh (w d)`. -/
theorem mean_score (w : Fin 14 → ℝ) :
    ∑ j : Fin 16384, Real.exp (score w j - logZ w) * score w j = ∑ d : Fin 14, w d * Real.tanh (w d) := by
  have hZ : Real.exp (logZ w) ≠ 0 := (Real.exp_pos _).ne'
  have hterm : ∀ j : Fin 16384, Real.exp (score w j - logZ w) * score w j
      = ∑ d : Fin 14, w d * (sgn j.val d.val * Real.exp (score w j)) / Real.exp (logZ w) := by
    intro j
    rw [← Finset.sum_div, Real.exp_sub, div_mul_eq_mul_div]
    congr 1
    simp_rw [← mul_assoc]
    rw [← Finset.sum_mul]
    exact mul_comm _ _
  simp_rw [hterm]
  rw [Finset.sum_comm]
  refine Finset.sum_congr rfl (fun d _ => ?_)
  rw [← Finset.sum_div, ← Finset.mul_sum, sum_sgn_exp]
  field_simp

/-! ## Shift invariance of softmax and log-softmax -/

variable {ι : Type*} [Fintype ι] [Nonempty ι]

/-- Softmax computed after subtracting any shift `M` is `exp (s j - log ∑ exp s)`. -/
theorem softmax_shift (s : ι → ℝ) (M : ℝ) (j : ι) :
    Real.exp (s j - M) / ∑ k, Real.exp (s k - M) = Real.exp (s j - Real.log (∑ k, Real.exp (s k))) := by
  have hS : 0 < ∑ k, Real.exp (s k) := Finset.sum_pos (fun k _ => Real.exp_pos _) Finset.univ_nonempty
  have hM : Real.exp M ≠ 0 := (Real.exp_pos M).ne'
  simp_rw [Real.exp_sub]
  rw [← Finset.sum_div, Real.exp_log hS]
  field_simp

/-- Log-softmax of `s + ε` computed after subtracting any shift `M` is `s j - log ∑ exp s`. -/
theorem log_softmax_shift (s : ι → ℝ) (ε M : ℝ) (j : ι) :
    (s j + ε - M) - Real.log (∑ k, Real.exp (s k + ε - M)) = s j - Real.log (∑ k, Real.exp (s k)) := by
  have hS : 0 < ∑ k, Real.exp (s k) := Finset.sum_pos (fun k _ => Real.exp_pos _) Finset.univ_nonempty
  have h : ∑ k, Real.exp (s k + ε - M) = Real.exp (ε - M) * ∑ k, Real.exp (s k) := by
    rw [Finset.mul_sum]
    refine Finset.sum_congr rfl (fun k _ => ?_)
    rw [← Real.exp_add]
    congr 1
    ring
  rw [h, Real.log_mul (Real.exp_pos _).ne' hS.ne', Real.log_exp]
  ring

/-- The entropy of the softmax distribution of a row of scores, as the reference computes it (softmax with shift
    `M`, log-softmax of the scores moved by `ε` with shift `M'`), is `logZ w - ∑ d, w d * tanh (w d)`. -/
theorem row_entropy (w : Fin 14 → ℝ) (ε M M' : ℝ) :
    -(∑ j : Fin 16384, (Real.exp (score w j - M) / ∑ k : Fin 16384, Real.exp (score w k - M))
        * ((score w j + ε - M') - Real.log (∑ k : Fin 16384, Real.exp (score w k + ε - M'))))
      = logZ w - ∑ d : Fin 14, w d * Real.tanh (w d) := by
  simp_rw [softmax_shift, log_softmax_shift, partition, Real.log_exp, mul_sub, Finset.sum_sub_distrib,
    ← Finset.sum_mul, probs_sum_one, mean_score]
  ring

/-- The softmax probability of a code, as the reference computes it, is `exp (score - logZ)`. -/
theorem row_prob (w : Fin 14 → ℝ) (M : ℝ) (j : Fin 16384) :
    Real.exp (score w j - M) / ∑ k : Fin 16384, Real.exp (score w k - M) = Real.exp (score w j - logZ w) := by
  rw [softmax_shift, partition, Real.log_exp]

end SignCodes

end
-- ==== Proof.EntropySpec.lean ====
/-
  What both programs compute, as functions of the input array alone.

  The input `X` has shape [8, 1024, 14]; flattened it is 8192 rows of 14 coordinates.  Row `r` is scaled by
  `scale = 2 / temp` (`temp` the reference's temperature word read as the rational it encodes) to the weight row
  `wrow X r`; the logits of the row against the 2^14 sign codes are the scores `SignCodes.score (wrow X r) j`.  From
  them:

    prob X r j  = exp (score - logZ)                      the softmax probability of code j in row r
    rowEnt X r  = logZ - ∑ d, w d * tanh (w d)            the entropy of that softmax distribution
    rowSq X r   = ∑ d, (x d - quant (x d))²               the commitment error of the row
    sumProb, sumEnt, sumSq                                 their sums over the 8192 rows

  and the five results: the sign quantisation of `X` itself, the auxiliary loss, the mean row entropy, the entropy of
  the mean distribution, and the mean commitment error.  The float constants stay as the words both programs print.
-/
import Idealize.ShloMosaic.PureOps.Ideal
import Idealize.ShloMosaic.Lib.ValueIdx
import proofs.«401730_j44306882625715_3_alg».proof.Proof.SignCodeSums

noncomputable section

namespace EntropySpec

open Idealize.ShloMosaic Finset SignCodes

/-- The input's shape, and a scalar's. -/
abbrev SX : Shape := ⟨3, ![8, 1024, 14]⟩
abbrev S0 : Shape := ⟨0, ![]⟩

/-- The reference's temperature: the rational its word `0x3C23D70A` encodes. -/
def temp : ℝ := 5368709 / 536870912

/-- The logit scale `2 / temp`. -/
def scale : ℝ := 1073741824 / 5368709

theorem scale_eq : scale = 2 / temp := by
  unfold scale temp; norm_num

/-- Sign quantisation: `+1` above zero, `-1` otherwise. -/
def quant (t : ℝ) : ℝ := if 0 < t then 1 else -1

/-- The index of coordinate `d` of flattened row `r` (row-major: `r = 1024 b + l`). -/
def rowIdx (r : ℕ) (d : Fin 14) : SX.Idx :=
  ValueIdx.ix3 (⟨r / 1024 % 8, Nat.mod_lt _ (by norm_num)⟩ : Fin 8) (⟨r % 1024, Nat.mod_lt _ (by norm_num)⟩ : Fin 1024) d

/-- Row `r` of the flattened input, as reals. -/
def row (X : SX.Idx → EReal) (r : ℕ) (d : Fin 14) : ℝ := (X (rowIdx r d)).toReal

/-- Every entry of the input is a real number. -/
def Finite (X : SX.Idx → EReal) : Prop := ∀ i, X i = ((X i).toReal : EReal)

/-- The weight row: row `r` times the logit scale. -/
def wrow (X : SX.Idx → EReal) (r : ℕ) : Fin 14 → ℝ := fun d => row X r d * scale

def prob (X : SX.Idx → EReal) (r : ℕ) (j : Fin 16384) : ℝ :=
  Real.exp (score (wrow X r) j - logZ (wrow X r))

def rowEnt (X : SX.Idx → EReal) (r : ℕ) : ℝ :=
  logZ (wrow X r) - ∑ d : Fin 14, wrow X r d * Real.tanh (wrow X r d)

def rowSq (X : SX.Idx → EReal) (r : ℕ) : ℝ :=
  ∑ d : Fin 14, (row X r d - quant (row X r d)) * (row X r d - quant (row X r d))

def sumProb (X : SX.Idx → EReal) (j : Fin 16384) : ℝ := ∑ r ∈ range 8192, prob X r j
def sumEnt (X : SX.Idx → EReal) : ℝ := ∑ r ∈ range 8192, rowEnt X r
def sumSq (X : SX.Idx → EReal) : ℝ := ∑ r ∈ range 8192, rowSq X r

/-! ## The five results -/

/-- The quantised input. -/
def out0 (X : SX.Idx → EReal) : SX.Idx → EReal := fun i => ((quant (X i).toReal : ℝ) : EReal)

/-- The mean row entropy: the summed row entropies over the row count 8192. -/
def sampleEnt (X : SX.Idx → EReal) : EReal :=
  Ideal.div ((sumEnt X : ℝ) : EReal) (Ideal.ofBits .f32 0x46000000#32)

/-- The mean probability of code `j`. -/
def avgProb (X : SX.Idx → EReal) (j : Fin 16384) : EReal :=
  Ideal.div ((sumProb X j : ℝ) : EReal) (Ideal.ofBits .f32 0x46000000#32)

/-- The entropy of the mean distribution, with the guard word inside the logarithm. -/
def avgEnt (X : SX.Idx → EReal) : EReal :=
  -(Ideal.ofBits .f32 0x00000000#32
      + ∑ j : Fin 16384, avgProb X j * Ideal.log (avgProb X j + Ideal.ofBits .f32 0x3727C5AC#32))

/-- The mean commitment error: the summed squares over the element count 114688. -/
def commit (X : SX.Idx → EReal) : EReal :=
  Ideal.div ((sumSq X : ℝ) : EReal) (Ideal.ofBits .f32 0x47E00000#32)

/-- The auxiliary loss: mean row entropy minus the entropy of the mean, each with its unit weight. -/
def auxLoss (X : SX.Idx → EReal) : EReal :=
  Ideal.ofBits .f32 0x3F800000#32 * sampleEnt X - Ideal.ofBits .f32 0x3F800000#32 * avgEnt X

def out1 (X : SX.Idx → EReal) : S0.Idx → EReal := fun _ => auxLoss X
def out2 (X : SX.Idx → EReal) : S0.Idx → EReal := fun _ => sampleEnt X
def out3 (X : SX.Idx → EReal) : S0.Idx → EReal := fun _ => avgEnt X
def out4 (X : SX.Idx → EReal) : S0.Idx → EReal := fun _ => commit X

end EntropySpec

end
-- ==== Proof.FiniteInputs.lean ====
/-
  From the precondition to real entries.  The precondition says that the conjunction, over every index, of
  `|x i| < +∞` is true.  A conjunction over all indices that is true is true at each index; and an extended real whose
  absolute value `max x (-x)` lies strictly below `+∞` is neither `+∞` nor `-∞`, so it is (the coercion of) a
  real number.
-/
import proofs.«401730_j44306882625715_3_alg».proof.Pre_finite_inputs
import proofs.«401730_j44306882625715_3_alg».proof.Proof.Gen.Pre_finite_inputs
import proofs.«401730_j44306882625715_3_alg».proof.Proof.EntropySpec
import Idealize.ShloMosaic.Lib.ReduceAll
import Idealize.ShloMosaic.PureOps.Ideal
import Idealize.ShloMosaic.PureOps.Ideal.Laws

noncomputable section

namespace EntropySpec

open Idealize.ShloMosaic

/-- An extended real with `max x (-x) < ⊤` is a real number. -/
theorem eq_coe_of_abs_lt_top (x : EReal) (h : max x (-x) < ⊤) : x = ((x.toReal : ℝ) : EReal) := by
  have h1 : x ≠ ⊤ := fun e => by simp [e] at h
  have h2 : x ≠ ⊥ := fun e => by simp [e] at h
  exact (EReal.coe_toReal h1 h2).symm

/-- Under the precondition every entry of the input is a real number. -/
theorem finite_of_pre (X : SX.Idx → EReal)
    (h : Cert.Pre_finite_inputs.fn (F := Ideal) X = fun _ => 1#1) : Finite X := by
  intro i
  have h0 := congrFun h ValueIdx.ix0
  dsimp only [Cert.Pre_finite_inputs.fn] at h0
  haveI : Subsingleton Cert.Pre_finite_inputs.S_.Idx := ⟨fun a b => funext fun d => d.elim0⟩
  have hi := Host.reduce_andi_all _ _ _ _ _ h0 i
  apply eq_coe_of_abs_lt_top
  have htop : Ideal.ofBits .f32 0x7F800000#32 = ⊤ := by simp [Ideal.ofBits, Ideal.ieee]
  have hi' : Ideal.cmp .olt (max (X i) (-X i)) (Ideal.ofBits .f32 0x7F800000#32) = 1#1 := hi
  rw [htop] at hi'
  simp only [Ideal.cmp] at hi'
  by_contra hlt
  simp [hlt] at hi'

end EntropySpec

end
-- ==== Proof.KernelPoint.lean ====
/-
  The values one grid point of the kernel stores, read entry by entry over the extended reals.

  A grid point holds a block `xb` of 256 rows by 14 coordinates of the input and the transposed sign codebook
  `cbT` [14, 16384], whose entry (d, j) is the sign `sgn j d` of code j at coordinate d.  When the block's entries are
  real numbers `x p d`, row p scaled by the logit scale is the weight row `wr x p`, and every stored value is a real
  number written with the functions of SignCodes and EntropySpec:

    quant_apply      the stored quantisation at (p, d) is `quant (x p d)`;
    probs_acc_apply  the probability accumulator at (a, j) gains `∑ p, exp (score (wr x p) j - logZ (wr x p))`, the same in
                     each of its 8 rows;
    stats_acc_apply  the statistics accumulator at (a, l) gains the summed row entropies
                     `∑ p, (logZ (wr x p) - ∑ d, wr x p d * tanh (wr x p d))` in column 0, the summed squared commitment errors
                     `∑ p, ∑ d, (x p d - quant (x p d))²` in column 1, and 0 in every other column;
    zero3_apply, zero4_apply   the two resets store 0.

  The way there: each pointwise operation reads through an index; each layout operation (a cast between a vector and a
  column or a row, a column or a row spread over a block, three pieces laid side by side) is read at explicit
  coordinates by one small lemma; a sum along one axis is the `Fin`-indexed sum over that axis, a sum over all axes of
  a block with a leading unit axis the double sum over its rows and columns; the matrix product at (p, j) is the sum
  over the 14 coordinates of the products.  Then the real arithmetic: the entries are rewritten as real numbers, the
  constant words as the reals they denote, and the reading of a real in the extended reals is pushed outward through
  the sums, products, differences, exponentials, logarithms (of `1 + exp (-2 |t|)`, which is positive) and hyperbolic
  tangents.
-/
import proofs.«401730_j44306882625715_3_alg».proof.Proof.Gen.KernelIdeal.Skeleton
import proofs.«401730_j44306882625715_3_alg».proof.Proof.EntropySpec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.Point

open Cert.KernelIdeal Cert.KernelIdeal.Gen Idealize.ShloMosaic Idealize.ShloMosaic.ValueIdx SignCodes

/-! ## The constant words -/

theorem word_zero : Ideal.ofBits .f32 0x00000000#32 = 0 := Ideal.ofBits_zero_f32
theorem word_one : Ideal.ofBits .f32 0x3F800000#32 = ((1 : ℝ) : EReal) := by
  simp [Ideal.ofBits, Ideal.ieee, -EReal.coe_mul]; norm_num
theorem word_neg_one : Ideal.ofBits .f32 0xBF800000#32 = ((-1 : ℝ) : EReal) := by
  simp [Ideal.ofBits, Ideal.ieee, -EReal.coe_mul]; norm_num
theorem word_neg_two : Ideal.ofBits .f32 0xC0000000#32 = ((-2 : ℝ) : EReal) := by
  simp [Ideal.ofBits, Ideal.ieee, -EReal.coe_mul]; norm_num

/-- The named logit scale is the rational the table gives it. -/
theorem named_scale :
    Named.named (F := Ideal) κ "fold_c_1073741824_5368709" (φ := .f32) 0x43480000#32 = ((EntropySpec.scale : ℝ) : EReal) :=
  IdealRules.named_const.ideal_named_scalar _ _ _ _ rfl

/-- A finite sum of real numbers read in the extended reals is the sum of the readings. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ## The resets -/

theorem zero3_apply (i : S8x16384.Idx) : k0_pay3 (F := Ideal) i = 0 := word_zero

theorem zero4_apply (i : S8x128.Idx) : k0_pay4 (F := Ideal) i = 0 := word_zero

/-! ## The input block and its quantisation -/

/-- The weight row of block row p -/
def wr (x : Fin 256 → Fin 14 → ℝ) (p : Fin 256) : Fin 14 → ℝ := fun d => x p d * EntropySpec.scale

theorem pay5_eq (xb : Vec Ideal S256x14 .f32) : k0_pay5 (F := Ideal) xb = xb := shapeCast_self _ _

theorem quant_apply (xb : Vec Ideal S256x14 .f32) (x : Fin 256 → Fin 14 → ℝ) (hx : ∀ p d, xb (ix2 p d) = ((x p d : ℝ) : EReal)) (p : Fin 256) (d : Fin 14) :
    k0_pay6 (F := Ideal) xb (ix2 p d) = ((EntropySpec.quant (x p d) : ℝ) : EReal) := by
  show Scalar.select (Ideal.cmp .ogt (k0_pay5 (F := Ideal) xb (ix2 p d)) (Ideal.ofBits .f32 0x00000000#32))
      (Ideal.ofBits .f32 0x3F800000#32) (Ideal.ofBits .f32 0xBF800000#32) = _
  rw [pay5_eq, hx, word_zero, word_one, word_neg_one]
  unfold EntropySpec.quant Ideal.cmp Scalar.select
  by_cases h : 0 < x p d
  · have h' : (0 : EReal) < ((x p d : ℝ) : EReal) := by exact_mod_cast h
    simp [h, h']
  · have h' : ¬ (0 : EReal) < ((x p d : ℝ) : EReal) := by exact_mod_cast h
    simp [h, h']

/-! ## Layout operations of the kernel read at coordinates -/

section Layout
variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1]` vector cast to `[1, 1, 1]` reads the vector's one entry. -/
theorem shapeCast_1_111_apply (x : (⟨1, ![1]⟩ : Shape).Idx → α) (h : (⟨1, ![1]⟩ : Shape).ShapeCasts ⟨3, ![1, 1, 1]⟩)
    (j : (⟨3, ![1, 1, 1]⟩ : Shape).Idx) : shapeCast ⟨3, ![1, 1, 1]⟩ x h j = x (ix1 (0 : Fin 1)) :=
  shapeCast_apply x h _ _ (by
    have h0 : (j 0).val = 0 := by have := (j 0).isLt; simp at this; omega
    have h1 : (j 1).val = 0 := by have := (j 1).isLt; simp at this; omega
    have h2 : (j 2).val = 0 := by have := (j 2).isLt; simp at this; omega
    rw [Shape.rowMajor_val_three, Shape.rowMajor_val_one]
    show 0 = ((j 0).val * 1 + (j 1).val) * 1 + (j 2).val
    rw [h0, h1, h2])

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Layout

/-- The index a sum along the columns of a `[256, 14]` block inserts is `(p, k)`. -/
theorem lift_row (p : Fin 256) (k : Fin 14) : reduces_S256x14_S256.lift (ix1 p) k = ix2 p k :=
  funext fun c => Fin.ext (match c with | ⟨0, _⟩ => rfl | ⟨1, _⟩ => rfl)

/-- The index a sum along the rows of a `[256, 16384]` block inserts is `(k, j)`. -/
theorem lift_col (j : Fin 16384) (k : Fin 256) : reduces_S256x16384_S16384.lift (ix1 j) k = ix2 k j :=
  funext fun c => Fin.ext (match c with | ⟨0, _⟩ => rfl | ⟨1, _⟩ => rfl)

/-- A sum along the columns of a `[256, 14]` block, read at row `p`. -/
theorem rowsum_apply (v : FVec Ideal S256x14 .f32) (p : Fin 256) :
    multiReduction .add [1] S256 v 0x00000000#32 reduces_S256x14_S256 (.inl rfl) rfl (ix1 p) = ∑ k : Fin 14, v (ix2 p k) := by
  refine (Ideal.multiReduction_add_single v _ reduces_S256x14_S256 _ _ (ix1 p)).trans ?_
  exact Finset.sum_congr rfl fun k _ => congrArg v (lift_row p k)

/-- A sum along the rows of a `[256, 16384]` block, read at column `j`. -/
theorem colsum_apply (v : FVec Ideal S256x16384 .f32) (j : Fin 16384) :
    multiReduction .add [0] S16384 v 0x00000000#32 reduces_S256x16384_S16384 (.inl rfl) rfl (ix1 j) = ∑ k : Fin 256, v (ix2 k j) := by
  refine (Ideal.multiReduction_add_single v _ reduces_S256x16384_S16384 _ _ (ix1 j)).trans ?_
  exact Finset.sum_congr rfl fun k _ => congrArg v (lift_col j k)

/-! ## The weights, the log-partition column and the entropy column -/

/-- One coordinate's term of the log-partition column: `|t| + log (1 + exp (-2 |t|))`. -/
theorem lz_term (t : ℝ) :
    (max ((t : ℝ) : EReal) (-((t : ℝ) : EReal)))
        + Ideal.log (Ideal.ofBits .f32 0x3F800000#32
            + Ideal.exp (Ideal.ofBits .f32 0xC0000000#32 * (max ((t : ℝ) : EReal) (-((t : ℝ) : EReal)))))
      = ((lz t : ℝ) : EReal) := by
  have habs : max ((t : ℝ) : EReal) (-((t : ℝ) : EReal)) = ((|t| : ℝ) : EReal) := by
    rw [← EReal.coe_neg, abs_eq_max_neg]
    exact (EReal.coe_strictMono.monotone.map_max).symm
  have hpos : ¬ (1 + Real.exp (-2 * |t|) ≤ 0) := not_le.2 (by positivity)
  rw [habs, word_one, word_neg_two, ← EReal.coe_mul, Ideal.exp_coe, ← EReal.coe_add, Ideal.log_coe, if_neg hpos,
    ← EReal.coe_add]
  rfl

section Rows
variable (xb : Vec Ideal S256x14 .f32) (x : Fin 256 → Fin 14 → ℝ) (hx : ∀ p d, xb (ix2 p d) = ((x p d : ℝ) : EReal))
include hx

/-- The scaled block at `(p, d)` is the weight `wr x p d`. -/
theorem w_apply (p : Fin 256) (d : Fin 14) : k0_pay8 (F := Ideal) xb (ix2 p d) = ((wr x p d : ℝ) : EReal) := by
  show k0_pay5 (F := Ideal) xb (ix2 p d) * Named.named (F := Ideal) κ "fold_c_1073741824_5368709" (φ := .f32) 0x43480000#32 = _
  rw [pay5_eq, hx, named_scale, ← EReal.coe_mul]
  rfl

/-- The log-partition column at row `p`. -/
theorem logZ_apply (p : Fin 256) : k0_pay9 (F := Ideal) xb (ix2 p (0 : Fin 1)) = ((logZ (wr x p) : ℝ) : EReal) := by
  unfold k0_pay9
  refine (shapeCast_a_a1_apply _ shapeCasts_S256_S256x1 p 0).trans ?_
  refine (rowsum_apply _ p).trans ?_
  unfold logZ
  rw [← coe_sum]
  refine Finset.sum_congr rfl fun k _ => ?_
  show (max (k0_pay8 (F := Ideal) xb (ix2 p k)) (-(k0_pay8 (F := Ideal) xb (ix2 p k))))
        + Ideal.log (Ideal.ofBits .f32 0x3F800000#32
            + Ideal.exp (Ideal.ofBits .f32 0xC0000000#32 * (max (k0_pay8 (F := Ideal) xb (ix2 p k)) (-(k0_pay8 (F := Ideal) xb (ix2 p k)))))) = _
  rw [w_apply xb x hx]
  exact lz_term _

/-- The entropy column at row `p`. -/
theorem ent_apply (p : Fin 256) :
    k0_pay10 (F := Ideal) xb (ix2 p (0 : Fin 1))
      = ((logZ (wr x p) - ∑ d : Fin 14, wr x p d * Real.tanh (wr x p d) : ℝ) : EReal) := by
  unfold k0_pay10
  show k0_pay9 (F := Ideal) xb (ix2 p (0 : Fin 1)) - shapeCast S256x1 _ shapeCasts_S256_S256x1 (ix2 p (0 : Fin 1)) = _
  rw [logZ_apply xb x hx, EReal.coe_sub]
  congr 1
  refine (shapeCast_a_a1_apply _ shapeCasts_S256_S256x1 p 0).trans ?_
  refine (rowsum_apply _ p).trans ?_
  rw [← coe_sum]
  refine Finset.sum_congr rfl fun k _ => ?_
  show k0_pay8 (F := Ideal) xb (ix2 p k) * Ideal.tanh (k0_pay8 (F := Ideal) xb (ix2 p k)) = _
  rw [w_apply xb x hx, Ideal.tanh_coe, ← EReal.coe_mul]

end Rows

/-! ## The matrix product at an entry -/

theorem lhs_dot_0 (i : S256x16384.Idx) (q : dot_S256x14_S14x16384_S256x16384_1_0_0_1_n_n.contr.Idx) : (dot_S256x14_S14x16384_S256x16384_1_0_0_1_n_n.lhsIdx i q 0).val = (i 0).val := by
  unfold DotDims.lhsIdx
  rw [dif_neg (show ¬(0 : Fin S256x14.rank) ∈ dot_S256x14_S14x16384_S256x16384_1_0_0_1_n_n.lhsBatch by decide),
    dif_pos (show (0 : Fin S256x14.rank) ∈ dot_S256x14_S14x16384_S256x16384_1_0_0_1_n_n.lhsNonContracting by decide)]
  rfl

theorem lhs_dot_1 (i : S256x16384.Idx) (q : dot_S256x14_S14x16384_S256x16384_1_0_0_1_n_n.contr.Idx) : (dot_S256x14_S14x16384_S256x16384_1_0_0_1_n_n.lhsIdx i q 1).val = (q ⟨0, by decide⟩).val :=
  dot_S256x14_S14x16384_S256x16384_1_0_0_1_n_n.lhsIdx_val_of_single rfl i q

theorem rhs_dot_0 (i : S256x16384.Idx) (q : dot_S256x14_S14x16384_S256x16384_1_0_0_1_n_n.contr.Idx) : (dot_S256x14_S14x16384_S256x16384_1_0_0_1_n_n.rhsIdx i q 0).val = (q ⟨0, by decide⟩).val :=
  dot_S256x14_S14x16384_S256x16384_1_0_0_1_n_n.rhsIdx_val_of_single rfl i q

theorem rhs_dot_1 (i : S256x16384.Idx) (q : dot_S256x14_S14x16384_S256x16384_1_0_0_1_n_n.contr.Idx) : (dot_S256x14_S14x16384_S256x16384_1_0_0_1_n_n.rhsIdx i q 1).val = (i 1).val := by
  unfold DotDims.rhsIdx
  rw [dif_neg (show ¬(1 : Fin S14x16384.rank) ∈ dot_S256x14_S14x16384_S256x16384_1_0_0_1_n_n.rhsBatch by decide),
    dif_pos (show (1 : Fin S14x16384.rank) ∈ dot_S256x14_S14x16384_S256x16384_1_0_0_1_n_n.rhsNonContracting by decide)]
  rfl

/-- The product into the zero block, at `(p, j)`: the sum over the 14 coordinates. -/
theorem dot_apply (l : FVec Ideal S256x14 .f32) (r : FVec Ideal S14x16384 .f32) (p : Fin 256) (j : Fin 16384) :
    matmul dot_S256x14_S14x16384_S256x16384_1_0_0_1_n_n (some .fp32) l r (constant S256x16384 .f32 0x00000000#32) (ix2 p j)
      = ∑ k : Fin 14, l (ix2 p k) * r (ix2 k j) := by
  simp only [matmul]
  rw [Ideal.matmul_constant_zero_apply, ← Equiv.sum_comp (contrEquiv1 dot_S256x14_S14x16384_S256x16384_1_0_0_1_n_n 14 rfl rfl).symm]
  refine Finset.sum_congr rfl fun k _ => ?_
  have hk := contrEquiv1_symm_val dot_S256x14_S14x16384_S256x16384_1_0_0_1_n_n 14 rfl rfl k
  have el : dot_S256x14_S14x16384_S256x16384_1_0_0_1_n_n.lhsIdx (ix2 p j) ((contrEquiv1 dot_S256x14_S14x16384_S256x16384_1_0_0_1_n_n 14 rfl rfl).symm k) = ix2 p k := funext fun a => Fin.ext (by
    match a with
    | ⟨0, _⟩ => exact lhs_dot_0 _ _
    | ⟨1, _⟩ => exact (lhs_dot_1 _ _).trans hk)
  have er : dot_S256x14_S14x16384_S256x16384_1_0_0_1_n_n.rhsIdx (ix2 p j) ((contrEquiv1 dot_S256x14_S14x16384_S256x16384_1_0_0_1_n_n 14 rfl rfl).symm k) = ix2 k j := funext fun a => Fin.ext (by
    match a with
    | ⟨0, _⟩ => exact (rhs_dot_0 _ _).trans hk
    | ⟨1, _⟩ => exact rhs_dot_1 _ _)
  rw [el, er]

/-- The logits block at `(p, j)` is the score of code `j` under the weight row of `p`. -/
theorem score_apply (xb : Vec Ideal S256x14 .f32) (cbT : Vec Ideal S14x16384 .f32) (x : Fin 256 → Fin 14 → ℝ)
    (hx : ∀ p d, xb (ix2 p d) = ((x p d : ℝ) : EReal))
    (hcb : ∀ (d : Fin 14) (j : Fin 16384), cbT (ix2 d j) = ((sgn j.val d.val : ℝ) : EReal)) (p : Fin 256) (j : Fin 16384) :
    k0_pay11 (F := Ideal) xb cbT (ix2 p j) = ((score (wr x p) j : ℝ) : EReal) := by
  unfold k0_pay11
  refine (dot_apply _ _ p j).trans ?_
  unfold score
  rw [← coe_sum]
  refine Finset.sum_congr rfl fun k _ => ?_
  rw [w_apply xb x hx, shapeCast_self, hcb, ← EReal.coe_mul]

/-! ## The probability accumulator -/

/-- The broadcast log-partition block at `(p, j)`. -/
theorem logZ_bcast_apply (xb : Vec Ideal S256x14 .f32) (x : Fin 256 → Fin 14 → ℝ)
    (hx : ∀ p d, xb (ix2 p d) = ((x p d : ℝ) : EReal)) (p : Fin 256) (j : Fin 16384) :
    k0_pay12 (F := Ideal) xb (ix2 p j) = ((logZ (wr x p) : ℝ) : EReal) := by
  unfold k0_pay12
  refine (broadcastTo_a1_ab_apply _ broadcasts_S256x1_S256x16384 p j).trans ?_
  exact logZ_apply xb x hx p

theorem probs_acc_apply (xb : Vec Ideal S256x14 .f32) (cbT : Vec Ideal S14x16384 .f32) (acc : Vec Ideal S8x16384 .f32) (x : Fin 256 → Fin 14 → ℝ)
    (hx : ∀ p d, xb (ix2 p d) = ((x p d : ℝ) : EReal)) (hcb : ∀ (d : Fin 14) (j : Fin 16384), cbT (ix2 d j) = ((sgn j.val d.val : ℝ) : EReal)) (a : Fin 8) (j : Fin 16384) :
    k0_pay1 (F := Ideal) (k0_pay11 xb cbT) (k0_pay12 xb) acc (ix2 a j)
      = acc (ix2 a j) + ((∑ p : Fin 256, Real.exp (score (wr x p) j - logZ (wr x p)) : ℝ) : EReal) := by
  unfold k0_pay1
  show shapeCast S8x16384 acc shapeCasts_S8x16384_S8x16384 (ix2 a j)
      + broadcastTo S8x16384 _ broadcasts_S1x16384_S8x16384 (ix2 a j) = _
  rw [shapeCast_self]
  refine congrArg (acc (ix2 a j) + ·) ?_
  refine (broadcastTo_1b_ab_apply _ broadcasts_S1x16384_S8x16384 a j).trans ?_
  rw [shapeCast_self]
  refine (shapeCast_a_1a_apply _ shapeCasts_S16384_S1x16384 0 j).trans ?_
  refine (colsum_apply _ j).trans ?_
  rw [← coe_sum]
  refine Finset.sum_congr rfl fun p _ => ?_
  show Ideal.exp (k0_pay11 (F := Ideal) xb cbT (ix2 p j) - k0_pay12 (F := Ideal) xb (ix2 p j)) = _
  rw [score_apply xb cbT x hx hcb, logZ_bcast_apply xb x hx, ← EReal.coe_sub, Ideal.exp_coe]

/-! ## The statistics accumulator -/

/-- The `[1, 1, 1]` view of the total of a `[256, 14]` block, read at its one entry. -/
theorem total14_apply (v : FVec Ideal S256x14 .f32) :
    extractAt ![0, 0, 0] (shapeCast S1x1x1 (multiReduction .add [1, 2] S1 (shapeCast S1x256x14 v shapeCasts_S256x14_S1x256x14)
        0x00000000#32 reduces_S1x256x14_S1 (.inl rfl) rfl) shapeCasts_S1_S1x1x1) inpos_S1x1x1_p0_0_0
      = ∑ p : Fin 256, ∑ d : Fin 14, v (ix2 p d) := by
  unfold extractAt
  refine (shapeCast_1_111_apply _ shapeCasts_S1_S1x1x1 _).trans ?_
  refine (Ideal.multiReduction_add_total _ _ reduces_S1x256x14_S1 (fun b => match b with | ⟨0, _⟩ => rfl) _ _ _).trans ?_
  rw [sum_idx3, Fin.sum_univ_one]
  refine Finset.sum_congr rfl fun p _ => Finset.sum_congr rfl fun d _ => ?_
  exact shapeCast_ab_1ab_apply v shapeCasts_S256x14_S1x256x14 0 p d

/-- The `[1, 1, 1]` view of the total of a `[256, 1]` column, read at its one entry. -/
theorem total1_apply (v : FVec Ideal S256x1 .f32) :
    extractAt ![0, 0, 0] (shapeCast S1x1x1 (multiReduction .add [1, 2] S1 (shapeCast S1x256x1 v shapeCasts_S256x1_S1x256x1)
        0x00000000#32 reduces_S1x256x1_S1 (.inl rfl) rfl) shapeCasts_S1_S1x1x1) inpos_S1x1x1_p0_0_0
      = ∑ p : Fin 256, v (ix2 p (0 : Fin 1)) := by
  unfold extractAt
  refine (shapeCast_1_111_apply _ shapeCasts_S1_S1x1x1 _).trans ?_
  refine (Ideal.multiReduction_add_total _ _ reduces_S1x256x1_S1 (fun b => match b with | ⟨0, _⟩ => rfl) _ _ _).trans ?_
  rw [sum_idx3, Fin.sum_univ_one]
  refine Finset.sum_congr rfl fun p _ => ?_
  rw [Fin.sum_univ_one]
  exact shapeCast_ab_1ab_apply v shapeCasts_S256x1_S1x256x1 0 p 0

/-- Two scalars and a constant tail laid side by side into a `[1, 128]` row, read at column `l`. -/
theorem concat3_apply (s0 s1 z : Ideal .f32) (l : Fin 128) :
    concatenate S1x128 1 [⟨S1x1, broadcast S1x1 s0⟩, ⟨S1x1, broadcast S1x1 s1⟩, ⟨S1x126, broadcast S1x126 z⟩]
        concatenates_S1x1_S1x1_S1x126_S1x128_d1 (ix2 (0 : Fin 1) l)
      = if l.val = 0 then s0 else if l.val = 1 then s1 else z := by
  by_cases h0 : l.val = 0
  · rw [if_pos h0]
    exact concatenate_apply_piece (1 : Fin S1x128.rank) [⟨S1x1, broadcast S1x1 s0⟩, ⟨S1x1, broadcast S1x1 s1⟩, ⟨S1x126, broadcast S1x126 z⟩] concatenates_S1x1_S1x1_S1x126_S1x128_d1 (ix2 (0 : Fin 1) l) 0 (by show 0 < 3; omega)
      S1x1 (broadcast S1x1 s0) rfl rfl 0 rfl (ix2 (0 : Fin 1) (0 : Fin 1))
      (fun b hb => match b, hb with | ⟨0, _⟩, _ => rfl | ⟨1, _⟩, hb => (hb rfl).elim) (by show 0 + 0 = l.val; omega)
  · rw [if_neg h0]
    by_cases h1 : l.val = 1
    · rw [if_pos h1]
      exact concatenate_apply_piece (1 : Fin S1x128.rank) [⟨S1x1, broadcast S1x1 s0⟩, ⟨S1x1, broadcast S1x1 s1⟩, ⟨S1x126, broadcast S1x126 z⟩] concatenates_S1x1_S1x1_S1x126_S1x128_d1 (ix2 (0 : Fin 1) l) 1 (by show 1 < 3; omega)
        S1x1 (broadcast S1x1 s1) rfl rfl 1 rfl (ix2 (0 : Fin 1) (0 : Fin 1))
        (fun b hb => match b, hb with | ⟨0, _⟩, _ => rfl | ⟨1, _⟩, hb => (hb rfl).elim) (by show 1 + 0 = l.val; omega)
    · rw [if_neg h1]
      have hl : l.val - 2 < 126 := by have := l.isLt; omega
      exact concatenate_apply_piece (1 : Fin S1x128.rank) [⟨S1x1, broadcast S1x1 s0⟩, ⟨S1x1, broadcast S1x1 s1⟩, ⟨S1x126, broadcast S1x126 z⟩] concatenates_S1x1_S1x1_S1x126_S1x128_d1 (ix2 (0 : Fin 1) l) 2 (by show 2 < 3; omega)
        S1x126 (broadcast S1x126 z) rfl rfl 2 rfl (ix2 (0 : Fin 1) (⟨l.val - 2, hl⟩ : Fin 126))
        (fun b hb => match b, hb with | ⟨0, _⟩, _ => rfl | ⟨1, _⟩, hb => (hb rfl).elim) (by show 2 + (l.val - 2) = l.val; omega)

/-- The summed squared commitment errors of the block. -/
theorem sq_apply (xb : Vec Ideal S256x14 .f32) (x : Fin 256 → Fin 14 → ℝ) (hx : ∀ p d, xb (ix2 p d) = ((x p d : ℝ) : EReal)) :
    k0_pay7 (F := Ideal) xb
      = ((∑ p : Fin 256, ∑ d : Fin 14, (x p d - EntropySpec.quant (x p d)) * (x p d - EntropySpec.quant (x p d)) : ℝ) : EReal) := by
  unfold k0_pay7
  refine (total14_apply _).trans ?_
  rw [← coe_sum]
  refine Finset.sum_congr rfl fun p _ => ?_
  rw [← coe_sum]
  refine Finset.sum_congr rfl fun d _ => ?_
  show (k0_pay5 (F := Ideal) xb (ix2 p d) - k0_pay6 (F := Ideal) xb (ix2 p d))
      * (k0_pay5 (F := Ideal) xb (ix2 p d) - k0_pay6 (F := Ideal) xb (ix2 p d)) = _
  rw [pay5_eq, hx, quant_apply xb x hx, ← EReal.coe_sub, ← EReal.coe_mul]

theorem stats_acc_apply (xb : Vec Ideal S256x14 .f32) (acc : Vec Ideal S8x128 .f32) (x : Fin 256 → Fin 14 → ℝ) (hx : ∀ p d, xb (ix2 p d) = ((x p d : ℝ) : EReal)) (a : Fin 8) (l : Fin 128) :
    k0_pay2 (F := Ideal) (k0_pay7 xb) (k0_pay10 xb) acc (ix2 a l)
      = acc (ix2 a l) + (((if l.val = 0 then ∑ p : Fin 256, (logZ (wr x p) - ∑ d : Fin 14, wr x p d * Real.tanh (wr x p d))
                           else if l.val = 1 then ∑ p : Fin 256, ∑ d : Fin 14, (x p d - EntropySpec.quant (x p d)) * (x p d - EntropySpec.quant (x p d)) else 0) : ℝ) : EReal) := by
  unfold k0_pay2
  show shapeCast S8x128 acc shapeCasts_S8x128_S8x128 (ix2 a l)
      + broadcastTo S8x128 _ broadcasts_S1x128_S8x128 (ix2 a l) = _
  rw [shapeCast_self]
  refine congrArg (acc (ix2 a l) + ·) ?_
  refine (broadcastTo_1b_ab_apply _ broadcasts_S1x128_S8x128 a l).trans ?_
  rw [shapeCast_self]
  refine (concat3_apply _ _ _ l).trans ?_
  by_cases h0 : l.val = 0
  · rw [if_pos h0, if_pos h0]
    refine (total1_apply _).trans ?_
    rw [← coe_sum]
    exact Finset.sum_congr rfl fun p _ => ent_apply xb x hx p
  · rw [if_neg h0, if_neg h0]
    by_cases h1 : l.val = 1
    · rw [if_pos h1, if_pos h1]
      exact sq_apply xb x hx
    · rw [if_neg h1, if_neg h1]
      exact word_zero.trans EReal.coe_zero.symm

end Cert.KernelIdeal.Point

end
-- ==== Proof.CodebookBits.lean ====
/-
  The sign codebook's entries, word by word.

  Both programs build the codebook from integer words: the codes `0 … 16383` along one axis, the masks `2 ^ d`,
  `d < 14`, along the other (each mask computed from its coordinate by exponentiation by squaring: the partial product
  starts at one, and round `k` multiplies it by `2 ^ 2 ^ k` when bit `k` of the coordinate is set), the bit
  `(code &&& mask) ≠ 0` converted to a float, and that float doubled less one.  Here:

    maskWord x                      the exponentiation by squaring as a function of the coordinate's word
    maskWord_ofNat                  it is `2 ^ d` at every coordinate `d < 14`
    bit_word                        `(j &&& 2 ^ d) ≠ 0` is bit `d` of `j`
    sign_of_bit                     on the extended reals, the bit doubled less one is `+1` or `-1`
    entry                           the four composed: the codebook's entry at code `j` and coordinate `d` is `sgn j d`

  and the layout operations the codes and masks pass through on the way (a scalar broadcast anywhere; the four
  broadcasts to `[16384, 14]`; the transpose to `[14, 16384]`), each read at an index.
-/
import Idealize.ShloMosaic.PureOps.Ideal
import Idealize.ShloMosaic.Lib.IdealHost
import Idealize.ShloMosaic.Lib.ValueIdx
import Idealize.ShloMosaic.Lib.Pipeline.Value
import Mathlib.Data.Nat.Bitwise
import proofs.«401730_j44306882625715_3_alg».proof.Proof.SignCodeSums

noncomputable section

namespace CodebookBits

open Idealize.ShloMosaic Idealize.ShloMosaic.ValueIdx

/-! ## The mask word -/

/-- One round of the exponentiation by squaring: the partial product `p` times the current square `q` when the
    low bit of the shifted exponent `s` is set, `p` itself otherwise. -/
def step (p q s : BitVec 32) : BitVec 32 :=
  Scalar.select (IntOp.cmpi .ne (IntOp.andi s 1#32) 0#32) (IntOp.muli p q) p

/-- The partial product before the first round: `0` if the base `2` were `0` and the exponent not, else `1`. -/
def start (x : BitVec 32) : BitVec 32 :=
  Scalar.select (IntOp.andi (IntOp.cmpi .eq 2#32 0#32) (IntOp.cmpi .ne x 0#32)) 0#32 1#32

/-- `2 ^ x` by six rounds of squaring, as both programs print it. -/
def maskWord (x : BitVec 32) : BitVec 32 :=
  let q1 := IntOp.muli 2#32 2#32
  let q2 := IntOp.muli q1 q1
  let q3 := IntOp.muli q2 q2
  let q4 := IntOp.muli q3 q3
  let q5 := IntOp.muli q4 q4
  let s1 := IntOp.shrui .host x 1#32
  let s2 := IntOp.shrui .host s1 1#32
  let s3 := IntOp.shrui .host s2 1#32
  let s4 := IntOp.shrui .host s3 1#32
  let s5 := IntOp.shrui .host s4 1#32
  step (step (step (step (step (step (start x) 2#32 x) q1 s1) q2 s2) q3 s3) q4 s4) q5 s5

/-- At a coordinate below 14 the mask word is `2 ^ d`. -/
theorem maskWord_ofNat (d : Fin 14) : maskWord (BitVec.ofNat 32 d.val) = BitVec.ofNat 32 (2 ^ d.val) := by
  fin_cases d <;> decide

/-! ## The bit -/

/-- The word `(j &&& 2 ^ d) ≠ 0` is bit `d` of `j`. -/
theorem bit_word (j : Fin 16384) (d : Fin 14) :
    IntOp.cmpi .ne (IntOp.andi (BitVec.ofNat 32 j.val) (BitVec.ofNat 32 (2 ^ d.val))) 0#32
      = if j.val.testBit d.val then 1#1 else 0#1 := by
  have hj : j.val < 2 ^ 32 := lt_trans j.isLt (by norm_num)
  have hd : 2 ^ d.val < 2 ^ 32 := Nat.pow_lt_pow_right (by norm_num) (lt_trans d.isLt (by norm_num))
  have hpos : 0 < 2 ^ d.val := Nat.two_pow_pos d.val
  have hand : (BitVec.ofNat 32 j.val &&& BitVec.ofNat 32 (2 ^ d.val)).toNat = (j.val.testBit d.val).toNat * 2 ^ d.val := by
    rw [BitVec.toNat_and, BitVec.toNat_ofNat, BitVec.toNat_ofNat, Nat.mod_eq_of_lt hj, Nat.mod_eq_of_lt hd,
      Nat.and_two_pow]
  unfold IntOp.cmpi IntOp.andi
  cases hb : j.val.testBit d.val
  · rw [hb, Bool.toNat_false, Nat.zero_mul] at hand
    have he : (BitVec.ofNat 32 j.val &&& BitVec.ofNat 32 (2 ^ d.val)) = 0#32 := BitVec.eq_of_toNat_eq hand
    rw [he]
    rfl
  · rw [hb, Bool.toNat_true, Nat.one_mul] at hand
    have hne : (BitVec.ofNat 32 j.val &&& BitVec.ofNat 32 (2 ^ d.val)) ≠ 0#32 := by
      intro h0
      rw [h0] at hand
      change (0 : ℕ) = 2 ^ d.val at hand
      omega
    have hbne : ((BitVec.ofNat 32 j.val &&& BitVec.ofNat 32 (2 ^ d.val)) != 0#32) = true := bne_iff_ne.mpr hne
    rw [hbne]
    rfl

/-! ## The float -/

/-- The f32 pattern `0x40000000` is the extended real two. -/
theorem ofBits_two_f32 : Ideal.ofBits .f32 0x40000000#32 = ((2 : ℝ) : EReal) := by
  simp [Ideal.ofBits, Ideal.ieee, -EReal.coe_mul]; norm_num

/-- A bit converted to a float, doubled, less one: `+1` for the bit one, `-1` for the bit zero. -/
theorem sign_of_bit (b : BitVec 1) :
    FloatOps.subf (FloatOps.mulf (FloatOps.uitofp (F := Ideal) .f32 b) (FloatOps.ofBits (F := Ideal) .f32 0x40000000#32))
        (FloatOps.ofBits (F := Ideal) .f32 0x3F800000#32)
      = (((if b = 1#1 then 1 else -1 : ℝ)) : EReal) := by
  rw [Ideal.subf_def, Ideal.mulf_def, Ideal.ofBits_def, Ideal.ofBits_def, ofBits_two_f32, Ideal.ofBits_one_f32]
  rw [show (1 : EReal) = ((1 : ℝ) : EReal) from rfl]
  show (((b.toNat : ℝ)) : EReal) * ((2 : ℝ) : EReal) - ((1 : ℝ) : EReal) = _
  rw [← EReal.coe_mul, ← EReal.coe_sub]
  rcases BitVec.eq_zero_or_eq_one b with rfl | rfl
  · rw [if_neg (by decide)]
    norm_num
  · rw [if_pos rfl]
    norm_num

/-- The codebook's entry at code `j`, coordinate `d`, from the code's word and the coordinate's word. -/
theorem entry (j : Fin 16384) (d : Fin 14) :
    FloatOps.subf (FloatOps.mulf (FloatOps.uitofp (F := Ideal) .f32
          (IntOp.cmpi .ne (IntOp.andi (BitVec.ofNat 32 j.val) (maskWord (BitVec.ofNat 32 d.val))) 0#32))
          (FloatOps.ofBits (F := Ideal) .f32 0x40000000#32))
        (FloatOps.ofBits (F := Ideal) .f32 0x3F800000#32)
      = ((SignCodes.sgn j.val d.val : ℝ) : EReal) := by
  rw [maskWord_ofNat, bit_word, sign_of_bit]
  unfold SignCodes.sgn
  by_cases hb : j.val.testBit d.val = true
  · rw [if_pos hb, if_pos hb, if_pos rfl]
  · rw [if_neg hb, if_neg hb, if_neg (by decide)]

end CodebookBits

end
-- ==== Proof.CodebookKernel.lean ====
/-
  The kernel program's two host-side inputs to its region, entry by entry.

  Before the region the program flattens the input `[8, 1024, 14]` to 8192 rows of 14 coordinates, and builds the
  sign codebook with integer words: the codes `0 … 16383`, the 14 masks `2 ^ d` (each from its coordinate by
  exponentiation by squaring), the bit `(code &&& mask) ≠ 0` as a float, doubled, less one — an array `[16384, 14]`
  — and transposes it to `[14, 16384]`.  Here:

    codebookV                the codebook before the transpose, as the host operations compose it
    V_codebookT, V_input     what the region finds in the two buffers: the transpose of `codebookV`, and the input
                             recast to `[8192, 14]`
    codebookV_apply          the entry of `codebookV` at code `j`, coordinate `d`, is `SignCodes.sgn j d`
    codebookT_apply          so the transposed codebook at `(d, j)` is `SignCodes.sgn j d`
    input_flat               and the flattened input at `(r, d)` is the input at row `r`'s index `EntropySpec.rowIdx r d`
-/
import proofs.«401730_j44306882625715_3_alg».proof.Proof.Gen.KernelIdeal.Frame
import proofs.«401730_j44306882625715_3_alg».proof.Proof.SignCodeSums
import proofs.«401730_j44306882625715_3_alg».proof.Proof.EntropySpec
import proofs.«401730_j44306882625715_3_alg».proof.Proof.CodebookBits
import Idealize.ShloMosaic.Lib.IdealHost
import Idealize.ShloMosaic.Lib.Pipeline.Value

noncomputable section

namespace Cert.KernelIdeal.Codebook

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The codebook as the host operations compose it -/

/-- A word at every one of the 14 coordinates. -/
def splat (b : BitVec 32) : IVec S14 32 :=
  broadcastInDim S14 ![] bcast_S_S14 (constantI S_ 32 b)

/-- One round of the exponentiation by squaring, on the 14 coordinates at once: the partial products `p` times the
    current square `q` where the low bit of the shifted exponent `s` is set, `p` elsewhere. -/
def stepV (p : IVec S14 32) (q : IVec S_ 32)
    (s : IVec S14 32) : IVec S14 32 :=
  select (cmpi .ne (andi s (splat 1#32)) (splat 0#32)) (muli p (broadcastInDim S14 ![] bcast_S_S14 q)) p

/-- The partial products before the first round. -/
def startV (x : IVec S14 32) : IVec S14 32 :=
  select (andi (broadcastInDim S14 ![] bcast_S_S14 (cmpi .eq (constantI S_ 32 2#32) (constantI S_ 32 0#32)))
    (cmpi .ne x (splat 0#32))) (splat 0#32) (splat 1#32)

/-- The 14 masks. -/
def maskV : IVec S14 32 :=
  let x : IVec S14 32 := iotaInDim S14 32 0
  let q1 : IVec S_ 32 := muli (constantI S_ 32 2#32) (constantI S_ 32 2#32)
  let q2 : IVec S_ 32 := muli q1 q1
  let q3 : IVec S_ 32 := muli q2 q2
  let q4 : IVec S_ 32 := muli q3 q3
  let q5 : IVec S_ 32 := muli q4 q4
  let s1 : IVec S14 32 := Host.shrui x (splat 1#32)
  let s2 : IVec S14 32 := Host.shrui s1 (splat 1#32)
  let s3 : IVec S14 32 := Host.shrui s2 (splat 1#32)
  let s4 : IVec S14 32 := Host.shrui s3 (splat 1#32)
  let s5 : IVec S14 32 := Host.shrui s4 (splat 1#32)
  stepV (stepV (stepV (stepV (stepV (stepV (startV x) (constantI S_ 32 2#32) x) q1 s1) q2 s2) q3 s3) q4 s4) q5 s5

/-- The codebook, codes along the rows. -/
def codebookV : FVec Ideal S16384x14 .f32 :=
  subf (mulf (uitofp .f32 (cmpi .ne
      (andi (broadcastInDim S16384x14 ![0, 1] bcast_S16384x1_S16384x14_0_1
              (broadcastInDim S16384x1 ![0] bcast_S16384_S16384x1_0 (iotaInDim S16384 32 0)))
            (broadcastInDim S16384x14 ![0, 1] bcast_S1x14_S16384x14_0_1
              (broadcastInDim S1x14 ![1] bcast_S14_S1x14_1 maskV)))
      (broadcastInDim S16384x14 ![] bcast_S_S16384x14 (constantI S_ 32 0#32))))
      (broadcastInDim S16384x14 ![] bcast_S_S16384x14 (constant S_ .f32 0x40000000#32)))
    (broadcastInDim S16384x14 ![] bcast_S_S16384x14 (constant S_ .f32 0x3F800000#32))

/-! ## The operations read at an index -/

section Pointwise
variable {s : Shape} {w : ℕ}

theorem andi_apply (x y : IVec s w) (i : s.Idx) : andi x y i = IntOp.andi (x i) (y i) := rfl
theorem muli_apply (x y : IVec s w) (i : s.Idx) : muli x y i = IntOp.muli (x i) (y i) := rfl
theorem cmpi_apply (p : CmpIPredicate) (x y : IVec s w) (i : s.Idx) : cmpi p x y i = IntOp.cmpi p (x i) (y i) := rfl
theorem shrui_apply (x y : IVec s 32) (i : s.Idx) : Host.shrui x y i = IntOp.shrui .host (x i) (y i) := rfl
theorem uitofp_apply (x : IVec s w) (i : s.Idx) :
    (uitofp .f32 x : FVec Ideal s .f32) i = FloatOps.uitofp (F := Ideal) .f32 (x i) := rfl
theorem constantI_apply (b : BitVec w) (i : s.Idx) : constantI s w b i = b := rfl

end Pointwise

theorem splat_apply (b : BitVec 32) (i : S14.Idx) : splat b i = b := by
  unfold splat
  rw [broadcastInDim_scalar_apply]
  rfl

theorem stepV_apply (p : IVec S14 32) (q : IVec S_ 32) (s : IVec S14 32) (i : S14.Idx) :
    stepV p q s i = CodebookBits.step (p i) (q ix0) (s i) := by
  unfold stepV CodebookBits.step
  rw [select_apply, cmpi_apply, andi_apply, muli_apply, splat_apply, splat_apply, broadcastInDim_scalar_apply]

theorem startV_apply (x : IVec S14 32) (i : S14.Idx) : startV x i = CodebookBits.start (x i) := by
  unfold startV CodebookBits.start
  rw [select_apply, andi_apply, cmpi_apply, splat_apply, splat_apply, broadcastInDim_scalar_apply]
  rfl

/-- The mask at a coordinate is the mask word of the coordinate's word. -/
theorem maskV_apply (i : S14.Idx) : maskV i = CodebookBits.maskWord (BitVec.ofNat 32 (i 0).val) := by
  unfold maskV CodebookBits.maskWord
  simp only [stepV_apply, startV_apply, shrui_apply, splat_apply, muli_apply, constantI_apply, iotaInDim_apply]

/-- The codes, broadcast along the coordinates, read the code's word. -/
theorem codes_apply (j : Fin 16384) (d : Fin 14) :
    broadcastInDim S16384x14 ![0, 1] bcast_S16384x1_S16384x14_0_1
        (broadcastInDim S16384x1 ![0] bcast_S16384_S16384x1_0 (iotaInDim S16384 32 0) : IVec S16384x1 32) (ix2 j d)
      = BitVec.ofNat 32 j.val := by
  refine (broadcastInDim_apply _ bcast_S16384x1_S16384x14_0_1 _ (ix2 j d) (ix2 j (0 : Fin 1)) (fun a => match a with
    | ⟨0, _⟩ => by show j.val = if (16384 : Nat) = 1 then 0 else j.val; rw [if_neg (by decide)]
    | ⟨1, _⟩ => by show 0 = if (1 : Nat) = 1 then 0 else d.val; rw [if_pos rfl])).trans ?_
  exact (broadcastInDim_apply _ bcast_S16384_S16384x1_0 _ (ix2 j (0 : Fin 1)) (ix1 j) (fun a => match a with
    | ⟨0, _⟩ => by show j.val = if (16384 : Nat) = 1 then 0 else j.val; rw [if_neg (by decide)]))

/-- The masks, broadcast along the codes, read the coordinate's mask. -/
theorem masks_apply (j : Fin 16384) (d : Fin 14) :
    broadcastInDim S16384x14 ![0, 1] bcast_S1x14_S16384x14_0_1
        (broadcastInDim S1x14 ![1] bcast_S14_S1x14_1 maskV : IVec S1x14 32) (ix2 j d)
      = CodebookBits.maskWord (BitVec.ofNat 32 d.val) := by
  refine (broadcastInDim_apply _ bcast_S1x14_S16384x14_0_1 _ (ix2 j d) (ix2 (0 : Fin 1) d) (fun a => match a with
    | ⟨0, _⟩ => by show 0 = if (1 : Nat) = 1 then 0 else j.val; rw [if_pos rfl]
    | ⟨1, _⟩ => by show d.val = if (14 : Nat) = 1 then 0 else d.val; rw [if_neg (by decide)])).trans ?_
  refine (broadcastInDim_apply _ bcast_S14_S1x14_1 _ (ix2 (0 : Fin 1) d) (ix1 d) (fun a => match a with
    | ⟨0, _⟩ => by show d.val = if (14 : Nat) = 1 then 0 else d.val; rw [if_neg (by decide)])).trans ?_
  exact maskV_apply (ix1 d)

/-- The codebook's entry at code `j` and coordinate `d`. -/
theorem codebookV_apply (j : Fin 16384) (d : Fin 14) :
    codebookV (ix2 j d) = ((SignCodes.sgn j.val d.val : ℝ) : EReal) := by
  unfold codebookV
  rw [subf_apply, mulf_apply, uitofp_apply, cmpi_apply, andi_apply, codes_apply, masks_apply,
    broadcastInDim_scalar_apply, broadcastInDim_scalar_apply, broadcastInDim_scalar_apply]
  exact CodebookBits.entry j d

/-! ## What the region finds in the two buffers -/

set_option maxRecDepth 8192 in
set_option maxHeartbeats 4000000 in
/-- The codebook's buffer holds the transpose of `codebookV`. -/
theorem V_codebookT (c : Dev nD) :
    (Gen.V m c main_v69 : S14x16384.Idx → EReal)
      = transpose S14x16384 [1, 0] codebookV transposes_S16384x14_S14x16384_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  rfl

set_option maxRecDepth 8192 in
set_option maxHeartbeats 4000000 in
/-- The flattened input's buffer holds the input recast to `[8192, 14]`. -/
theorem V_input (c : Dev nD) :
    (Gen.V m c main_v0 : S8192x14.Idx → EReal)
      = shapeCast S8192x14 (m ((c.tc : Thread nD τ).loc main_arg0)) shapeCasts_S8x1024x14_S8192x14 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  rfl

/-! ## The two inputs, entry by entry -/

/-- The transposed codebook at coordinate `d`, code `j`: `+1` if bit `d` of `j` is set, `-1` otherwise. -/
theorem codebookT_apply (c : Dev nD) (d : Fin 14) (j : Fin 16384) :
    (Gen.V m c main_v69 : S14x16384.Idx → EReal) (ix2 d j) = ((SignCodes.sgn j.val d.val : ℝ) : EReal) := by
  rw [V_codebookT]
  refine (transpose_apply [1, 0] codebookV transposes_S16384x14_S14x16384_1_0 (ix2 d j) (ix2 j d) (fun b => match b with
    | ⟨0, _⟩ => rfl
    | ⟨1, _⟩ => rfl)).trans ?_
  exact codebookV_apply j d

/-- The flattened input at row `r`, coordinate `d`: the input at batch `r / 1024`, position `r % 1024`. -/
theorem input_flat (c : Dev nD) (r : Fin 8192) (d : Fin 14) :
    (Gen.V m c main_v0 : S8192x14.Idx → EReal) (ix2 r d)
      = (m ((c.tc : Thread nD τ).loc main_arg0) : EntropySpec.SX.Idx → EReal) (EntropySpec.rowIdx r.val d) := by
  rw [V_input]
  exact shapeCast_apply _ shapeCasts_S8x1024x14_S8192x14 (ix2 r d) (EntropySpec.rowIdx r.val d) (by
    rewrite [Shape.rowMajor_val_three, Shape.rowMajor_val_two]
    have hr : r.val < 8192 := r.isLt
    show ((r.val / 1024 % 8) * 1024 + r.val % 1024) * 14 + d.val = r.val * 14 + d.val
    omega)

end Cert.KernelIdeal.Codebook

end
-- ==== Proof.KernelRegion.lean ====
/-
  What the kernel's three output arrays hold after the run, over the extended reals, for an input of real entries.

  The kernel sweeps a grid of 32 points `t = 16 core + step` (two cores, sixteen steps each).  Point `t` is handed rows
  `256 t … 256 t + 255` of the flattened input `[8192, 14]` and the whole transposed sign codebook `[14, 16384]`, and
  leaves three blocks:

    the quantised block `[256, 14]`      the sign quantisation of its rows, written back at every point;
    the probability block `[8, 16384]`   carried across the sixteen steps of a core: reset to zero at step 0, at every
                                          step increased, per code `j`, by the probabilities of `j` in the point's 256
                                          rows; written back after step 15;
    the statistics block `[8, 128]`      carried likewise: column 0 increased by the rows' entropies, column 1 by
                                          their commitment errors, the other columns by zero; written back after step 15.

  So after point `n` (core `n / 16`, step `n % 16`) the two carried blocks hold the sums over the
  `256 (n % 16 + 1)` rows the core has swept, rows `4096 (n / 16) + r` — an induction on the point, whose step is
  `4096 (n / 16) + 256 (n % 16 + 1) = 256 (n + 1)` — and after step 15 over the core's 4096 rows.  Every row `q` of the
  two `[16, …]` output arrays lies in the block core `q / 8` writes back after its last step, and every row `r` of the
  `[8192, 14]` output in the block of point `r / 256`; hence

    final_quant   entry `(r, d)` of the quantised output is `quant (row X r d)`;
    final_probs   entry `(q, j)` of the probability output is `∑ r < 4096, prob X (4096 (q / 8) + r) j`;
    final_stats   entry `(q, l)` of the statistics output is `∑ r < 4096, rowEnt X (4096 (q / 8) + r)` for `l = 0`,
                  `∑ r < 4096, rowSq X (4096 (q / 8) + r)` for `l = 1`, and `0` otherwise.
-/
import proofs.«401730_j44306882625715_3_alg».proof.Proof.Gen.KernelIdeal.Frame
import proofs.«401730_j44306882625715_3_alg».proof.Proof.SignCodeSums
import proofs.«401730_j44306882625715_3_alg».proof.Proof.EntropySpec
import proofs.«401730_j44306882625715_3_alg».proof.Proof.KernelPoint
import proofs.«401730_j44306882625715_3_alg».proof.Proof.CodebookKernel
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Region
open Cert.KernelIdeal Cert.KernelIdeal.Gen Idealize.ShloMosaic ValueIdx SignCodes Finset

section Pieces
variable {F : FTy → Type} [FloatOps F] [Named F]

theorem hz : (![0, 0] : Fin 2 → Nat) = fun _ => 0 := funext fun a => by fin_cases a <;> rfl

/-- At a point that continues a core's sweep, the quantised block is the sign quantisation of the input block. -/
theorem out_B_2 (c : Dev nD) (i : grid0.Coords) (a2 : Memref sig .tc .vmem S256x14 .f32) (h2 : a2.IsWhole) (a3 : Memref sig .tc .vmem S14x16384 .f32) (h3 : a3.IsWhole) (a4 : Memref sig .tc .vmem S256x14 .f32) (h4 : a4.IsWhole) (a5 : Memref sig .tc .vmem S8x16384 .f32) (h5 : a5.IsWhole) (a6 : Memref sig .tc .vmem S8x128 .f32) (h6 : a6.IsWhole) (hc : ¬cond0_0 i) (x0 : Vec F S256x14 .f32) (x1 : Vec F S14x16384 .f32) (xo3 : Vec F S8x16384 .f32) (xo4 : Vec F S8x128 .f32) :
    out0_B_2 c i a2 h2 a3 h3 a4 h4 a5 h5 a6 h6 hc x0 x1 xo3 xo4 = k0_pay6 x0 := by
  unfold out0_B_2
  rw [View.read_writes_eq_canon _ _ _ (cover0_B_2 c i a2 h2 a3 h3 a4 h4 a5 h5 a6 h6 hc x0 x1 xo3 xo4)]
  unfold kernelRun0_B
  dsimp only
  sl_unfold_words
  rw [View.canon_unit_zero hz]
  simp only [View.readAt_eq_ld, h2.read_unread, h3.read_unread, h5.read_unread, h6.read_unread,
    View.ld_unit_zero (S := S256x14) hz, View.ld_unit_zero (S := S14x16384) hz, View.ld_unit_zero (S := S8x16384) hz, View.ld_unit_zero (S := S8x128) hz]

/-- At such a point the probability accumulator is what the point before left plus this block's column sums. -/
theorem out_B_3 (c : Dev nD) (i : grid0.Coords) (a2 : Memref sig .tc .vmem S256x14 .f32) (h2 : a2.IsWhole) (a3 : Memref sig .tc .vmem S14x16384 .f32) (h3 : a3.IsWhole) (a4 : Memref sig .tc .vmem S256x14 .f32) (h4 : a4.IsWhole) (a5 : Memref sig .tc .vmem S8x16384 .f32) (h5 : a5.IsWhole) (a6 : Memref sig .tc .vmem S8x128 .f32) (h6 : a6.IsWhole) (hc : ¬cond0_0 i) (x0 : Vec F S256x14 .f32) (x1 : Vec F S14x16384 .f32) (xo3 : Vec F S8x16384 .f32) (xo4 : Vec F S8x128 .f32) :
    out0_B_3 c i a2 h2 a3 h3 a4 h4 a5 h5 a6 h6 hc x0 x1 xo3 xo4 = k0_pay1 (k0_pay11 x0 x1) (k0_pay12 x0) xo3 := by
  unfold out0_B_3
  rw [View.read_writes_eq_canon _ _ _ (cover0_B_3 c i a2 h2 a3 h3 a4 h4 a5 h5 a6 h6 hc x0 x1 xo3 xo4)]
  unfold kernelRun0_B
  dsimp only
  sl_unfold_words
  rw [View.canon_unit_zero hz]
  simp only [View.readAt_eq_ld, h2.read_unread, h3.read_unread, h5.read_unread, h6.read_unread,
    View.ld_unit_zero (S := S256x14) hz, View.ld_unit_zero (S := S14x16384) hz, View.ld_unit_zero (S := S8x16384) hz, View.ld_unit_zero (S := S8x128) hz]

/-- And the statistics accumulator is what the point before left plus this block's two row statistics. -/
theorem out_B_4 (c : Dev nD) (i : grid0.Coords) (a2 : Memref sig .tc .vmem S256x14 .f32) (h2 : a2.IsWhole) (a3 : Memref sig .tc .vmem S14x16384 .f32) (h3 : a3.IsWhole) (a4 : Memref sig .tc .vmem S256x14 .f32) (h4 : a4.IsWhole) (a5 : Memref sig .tc .vmem S8x16384 .f32) (h5 : a5.IsWhole) (a6 : Memref sig .tc .vmem S8x128 .f32) (h6 : a6.IsWhole) (hc : ¬cond0_0 i) (x0 : Vec F S256x14 .f32) (x1 : Vec F S14x16384 .f32) (xo3 : Vec F S8x16384 .f32) (xo4 : Vec F S8x128 .f32) :
    out0_B_4 c i a2 h2 a3 h3 a4 h4 a5 h5 a6 h6 hc x0 x1 xo3 xo4 = k0_pay2 (k0_pay7 x0) (k0_pay10 x0) xo4 := by
  unfold out0_B_4
  rw [View.read_writes_eq_canon _ _ _ (cover0_B_4 c i a2 h2 a3 h3 a4 h4 a5 h5 a6 h6 hc x0 x1 xo3 xo4)]
  unfold kernelRun0_B
  dsimp only
  sl_unfold_words
  rw [View.canon_unit_zero hz]
  simp only [View.readAt_eq_ld, h2.read_unread, h3.read_unread, h5.read_unread, h6.read_unread,
    View.ld_unit_zero (S := S256x14) hz, View.ld_unit_zero (S := S14x16384) hz, View.ld_unit_zero (S := S8x16384) hz, View.ld_unit_zero (S := S8x128) hz]

/-- At the first point of a core's sweep the quantised block is the same function of the input block. -/
theorem out_A_2 (c : Dev nD) (i : grid0.Coords) (a2 : Memref sig .tc .vmem S256x14 .f32) (h2 : a2.IsWhole) (a3 : Memref sig .tc .vmem S14x16384 .f32) (h3 : a3.IsWhole) (a4 : Memref sig .tc .vmem S256x14 .f32) (h4 : a4.IsWhole) (a5 : Memref sig .tc .vmem S8x16384 .f32) (h5 : a5.IsWhole) (a6 : Memref sig .tc .vmem S8x128 .f32) (h6 : a6.IsWhole) (hc : cond0_0 i) (x0 : Vec F S256x14 .f32) (x1 : Vec F S14x16384 .f32) :
    out0_A_2 c i a2 h2 a3 h3 a4 h4 a5 h5 a6 h6 hc x0 x1 = k0_pay6 x0 := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_unit_zero hz]
  simp only [View.readAt_eq_ld, h2.read_unread, h3.read_unread, h5.read_unread, h6.read_unread,
    View.ld_unit_zero (S := S256x14) hz, View.ld_unit_zero (S := S14x16384) hz, View.ld_unit_zero (S := S8x16384) hz, View.ld_unit_zero (S := S8x128) hz]

/-- There the probability accumulator is reset to the zero block and then takes this block's column sums. -/
theorem out_A_3 (c : Dev nD) (i : grid0.Coords) (a2 : Memref sig .tc .vmem S256x14 .f32) (h2 : a2.IsWhole) (a3 : Memref sig .tc .vmem S14x16384 .f32) (h3 : a3.IsWhole) (a4 : Memref sig .tc .vmem S256x14 .f32) (h4 : a4.IsWhole) (a5 : Memref sig .tc .vmem S8x16384 .f32) (h5 : a5.IsWhole) (a6 : Memref sig .tc .vmem S8x128 .f32) (h6 : a6.IsWhole) (hc : cond0_0 i) (x0 : Vec F S256x14 .f32) (x1 : Vec F S14x16384 .f32) :
    out0_A_3 c i a2 h2 a3 h3 a4 h4 a5 h5 a6 h6 hc x0 x1 = k0_pay1 (k0_pay11 x0 x1) (k0_pay12 x0) k0_pay3 := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S8x16384) hz, View.readCov_unit_zero (S := S8x16384) _ hz]
  simp only [View.readAt_eq_ld, h2.read_unread, h3.read_unread, h5.read_unread, h6.read_unread, View.readCov_unit_zero (S := S8x16384) _ hz,
    View.ld_unit_zero (S := S256x14) hz, View.ld_unit_zero (S := S14x16384) hz, View.ld_unit_zero (S := S8x16384) hz, View.ld_unit_zero (S := S8x128) hz]

/-- And the statistics accumulator is reset to the zero block and then takes this block's row statistics. -/
theorem out_A_4 (c : Dev nD) (i : grid0.Coords) (a2 : Memref sig .tc .vmem S256x14 .f32) (h2 : a2.IsWhole) (a3 : Memref sig .tc .vmem S14x16384 .f32) (h3 : a3.IsWhole) (a4 : Memref sig .tc .vmem S256x14 .f32) (h4 : a4.IsWhole) (a5 : Memref sig .tc .vmem S8x16384 .f32) (h5 : a5.IsWhole) (a6 : Memref sig .tc .vmem S8x128 .f32) (h6 : a6.IsWhole) (hc : cond0_0 i) (x0 : Vec F S256x14 .f32) (x1 : Vec F S14x16384 .f32) :
    out0_A_4 c i a2 h2 a3 h3 a4 h4 a5 h5 a6 h6 hc x0 x1 = k0_pay2 (k0_pay7 x0) (k0_pay10 x0) k0_pay4 := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S8x128) hz, View.readCov_unit_zero (S := S8x128) _ hz]
  simp only [View.readAt_eq_ld, h2.read_unread, h3.read_unread, h5.read_unread, h6.read_unread, View.readCov_unit_zero (S := S8x128) _ hz,
    View.ld_unit_zero (S := S256x14) hz, View.ld_unit_zero (S := S14x16384) hz, View.ld_unit_zero (S := S8x16384) hz, View.ld_unit_zero (S := S8x128) hz]

end Pieces

section Steps
variable {F : FTy → Type} [FloatOps F] [Named F]
variable (m : (ℓ : Loc nD τ sig) → Buf (Elt F) ℓ)

/-- The input block and the codebook block a point is handed, under their literal types. -/
abbrev xblk (c : Dev nD) (t : Fin cfg0.N) : Vec F S256x14 .f32 := iblk m c 0 t
abbrev cblk (c : Dev nD) (t : Fin cfg0.N) : Vec F S14x16384 .f32 := iblk m c 1 t

/-- What the three output blocks hold after the first point of a core's sweep. -/
theorem outs_A (c : Dev nD) (t : Fin cfg0.N) (h0 : t.val % 16 = 0) :
    outsAt0 m c t.val t.isLt = (k0_pay6 (xblk m c t),
      k0_pay1 (k0_pay11 (xblk m c t) (cblk m c t)) (k0_pay12 (xblk m c t)) k0_pay3,
      k0_pay2 (k0_pay7 (xblk m c t)) (k0_pay10 (xblk m c t)) k0_pay4) := by
  rw [outsAt0_A m c t h0,
    out_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
    out_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
    out_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)]

/-- What they hold after a later point of the sweep, over what the point before left in the two accumulators. -/
theorem outs_B (c : Dev nD) (t : Fin cfg0.N) (h0 : ¬t.val % 16 = 0) :
    outsAt0 m c t.val t.isLt = (k0_pay6 (xblk m c t),
      k0_pay1 (k0_pay11 (xblk m c t) (cblk m c t)) (k0_pay12 (xblk m c t)) (outsAt0 m c (t.val - 1) (Nat.lt_of_le_of_lt (Nat.sub_le _ _) t.isLt)).2.1,
      k0_pay2 (k0_pay7 (xblk m c t)) (k0_pay10 (xblk m c t)) (outsAt0 m c (t.val - 1) (Nat.lt_of_le_of_lt (Nat.sub_le _ _) t.isLt)).2.2) := by
  rw [outsAt0_B m c t h0,
    out_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2,
    out_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2,
    out_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2]

/-- The same, with the point written as a successor. -/
theorem outs_succ (c : Dev nD) (n : ℕ) (hn : n + 1 < cfg0.N) (h0 : ¬(n + 1) % 16 = 0) :
    outsAt0 m c (n + 1) hn = (k0_pay6 (xblk m c ⟨n + 1, hn⟩),
      k0_pay1 (k0_pay11 (xblk m c ⟨n + 1, hn⟩) (cblk m c ⟨n + 1, hn⟩)) (k0_pay12 (xblk m c ⟨n + 1, hn⟩)) (outsAt0 m c n (Nat.lt_of_succ_lt hn)).2.1,
      k0_pay2 (k0_pay7 (xblk m c ⟨n + 1, hn⟩)) (k0_pay10 (xblk m c ⟨n + 1, hn⟩)) (outsAt0 m c n (Nat.lt_of_succ_lt hn)).2.2) := by
  have h := outs_B m c ⟨n + 1, hn⟩ h0
  dsimp only at h
  simp only [Nat.add_sub_cancel] at h
  exact h

end Steps

section Blocks
variable (m : (ℓ : Loc nD τ sig) → Buf (Elt Ideal) ℓ)

/-- The input array on core `c`, as a function on its index set. -/
abbrev X (c : Dev nD) : EntropySpec.SX.Idx → EReal := m ((c.tc : Thread nD τ).loc main_arg0)

/-- The input window's block index at point `t` is `(t, 0)`; the codebook window's is `(0, 0)` throughout. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Entry `(p, d)` of the input block at point `t` is entry `(256 t + p, d)` of the flattened input. -/
theorem xblk_apply (c : Dev nD) (t : Fin cfg0.N) (p : Fin 256) (d : Fin 14) (h : 256 * t.val + p.val < 8192) :
    xblk m c t (ix2 p d) = (V m c main_v0 : S8192x14.Idx → EReal) (ix2 ⟨256 * t.val + p.val, h⟩ d) := by
  show V m c main_v0 (((cfg0.win 0).blk t).view.emb (ix2 p d)) = V m c main_v0 (ix2 ⟨256 * t.val + p.val, h⟩ d)
  congr 1
  funext a
  apply Fin.ext
  match a with
  | ⟨0, _⟩ => show win0_0.index t (0 : Fin 2) * 256 + 1 * p.val = 256 * t.val + p.val; rw [(idx0 t).1]; omega
  | ⟨1, _⟩ => show win0_0.index t (1 : Fin 2) * 14 + 1 * d.val = d.val; rw [(idx0 t).2]; omega

/-- For an input of real entries it is the real number `row X (256 t + p) d`. -/
theorem xblk_row (c : Dev nD) (hfin : EntropySpec.Finite (X m c)) (t : Fin cfg0.N) (p : Fin 256) (d : Fin 14) :
    xblk m c t (ix2 p d) = ((EntropySpec.row (X m c) (256 * t.val + p.val) d : ℝ) : EReal) := by
  have hN : t.val < 32 := lt_of_lt_of_eq t.isLt (show cfg0.N = 32 from N_0)
  have h : 256 * t.val + p.val < 8192 := by have := p.isLt; omega
  rw [xblk_apply m c t p d h, Codebook.input_flat m c ⟨256 * t.val + p.val, h⟩ d]
  exact hfin _

/-- Entry `(d, j)` of the codebook block, at every point, is coordinate `d` of sign code `j`. -/
theorem cblk_apply (c : Dev nD) (t : Fin cfg0.N) (d : Fin 14) (j : Fin 16384) :
    cblk m c t (ix2 d j) = ((sgn j.val d.val : ℝ) : EReal) := by
  rw [← Codebook.codebookT_apply m c d j]
  show V m c main_v69 (((cfg0.win 1).blk t).view.emb (ix2 d j)) = V m c main_v69 (ix2 d j)
  congr 1
  funext a
  apply Fin.ext
  match a with
  | ⟨0, _⟩ => show win0_1.index t (0 : Fin 2) * 14 + 1 * d.val = d.val; rw [(idx1 t).1]; omega
  | ⟨1, _⟩ => show win0_1.index t (1 : Fin 2) * 16384 + 1 * j.val = j.val; rw [(idx1 t).2]; omega

end Blocks

section Inv
variable (m : (ℓ : Loc nD τ sig) → Buf (Elt Ideal) ℓ)

/-- After the first point of a core's sweep the rows swept are that point's 256 rows. -/
theorem sum_first (f : ℕ → ℝ) (n : ℕ) (h0 : n % 16 = 0) :
    ∑ r ∈ range (256 * (n % 16 + 1)), f (4096 * (n / 16) + r) = ∑ k ∈ range 256, f (256 * n + k) := by
  have e : 256 * (n % 16 + 1) = 256 := by omega
  rw [e]
  refine Finset.sum_congr rfl fun r _ => ?_
  congr 1; omega

/-- A later point of the sweep adds its 256 rows to those swept so far: `4096 (n / 16) + 256 (n % 16 + 1) = 256 (n + 1)`. -/
theorem sum_next (f : ℕ → ℝ) (n : ℕ) (h0 : ¬(n + 1) % 16 = 0) :
    ∑ r ∈ range (256 * ((n + 1) % 16 + 1)), f (4096 * ((n + 1) / 16) + r)
      = ∑ r ∈ range (256 * (n % 16 + 1)), f (4096 * (n / 16) + r) + ∑ k ∈ range 256, f (256 * (n + 1) + k) := by
  have e1 : 256 * ((n + 1) % 16 + 1) = 256 * (n % 16 + 1) + 256 := by omega
  have e2 : (n + 1) / 16 = n / 16 := by omega
  rw [e1, e2, Finset.sum_range_add]
  congr 1
  refine Finset.sum_congr rfl fun k _ => ?_
  congr 1; omega

/-- The 256 rows point `n` is handed, as real numbers. -/
def xrow (c : Dev nD) (n : ℕ) : Fin 256 → Fin 14 → ℝ := fun p d => EntropySpec.row (X m c) (256 * n + p.val) d

theorem xblk_xrow (c : Dev nD) (hfin : EntropySpec.Finite (X m c)) (n : ℕ) (hn : n < cfg0.N) (p : Fin 256) (d : Fin 14) :
    xblk m c ⟨n, hn⟩ (ix2 p d) = ((xrow m c n p d : ℝ) : EReal) := xblk_row m c hfin ⟨n, hn⟩ p d

/-- The block's sums over its 256 rows, as sums over a range of row numbers. -/
theorem blk_prob (c : Dev nD) (n : ℕ) (j : Fin 16384) :
    ∑ p : Fin 256, Real.exp (score (Point.wr (xrow m c n) p) j - logZ (Point.wr (xrow m c n) p))
      = ∑ k ∈ range 256, EntropySpec.prob (X m c) (256 * n + k) j :=
  Fin.sum_univ_eq_sum_range (fun k => EntropySpec.prob (X m c) (256 * n + k) j) 256

theorem blk_ent (c : Dev nD) (n : ℕ) :
    ∑ p : Fin 256, (logZ (Point.wr (xrow m c n) p) - ∑ d : Fin 14, Point.wr (xrow m c n) p d * Real.tanh (Point.wr (xrow m c n) p d))
      = ∑ k ∈ range 256, EntropySpec.rowEnt (X m c) (256 * n + k) :=
  Fin.sum_univ_eq_sum_range (fun k => EntropySpec.rowEnt (X m c) (256 * n + k)) 256

theorem blk_sq (c : Dev nD) (n : ℕ) :
    ∑ p : Fin 256, ∑ d : Fin 14, (xrow m c n p d - EntropySpec.quant (xrow m c n p d)) * (xrow m c n p d - EntropySpec.quant (xrow m c n p d))
      = ∑ k ∈ range 256, EntropySpec.rowSq (X m c) (256 * n + k) :=
  Fin.sum_univ_eq_sum_range (fun k => EntropySpec.rowSq (X m c) (256 * n + k)) 256

/-- THE QUANTISED BLOCK after point `n`: the sign quantisation of rows `256 n … 256 n + 255`. -/
theorem inv2 (c : Dev nD) (hfin : EntropySpec.Finite (X m c)) (n : ℕ) (hn : n < cfg0.N) (p : Fin 256) (d : Fin 14) :
    ((outsAt0 m c n hn).1 : S256x14.Idx → EReal) (ix2 p d)
      = ((EntropySpec.quant (EntropySpec.row (X m c) (256 * n + p.val) d) : ℝ) : EReal) := by
  by_cases h0 : n % 16 = 0
  · have hA : outsAt0 m c n hn = _ := outs_A m c ⟨n, hn⟩ h0
    rw [hA]
    dsimp only
    exact Point.quant_apply (xblk m c ⟨n, hn⟩) (xrow m c n) (xblk_xrow m c hfin n hn) p d
  · have hB : outsAt0 m c n hn = _ := outs_B m c ⟨n, hn⟩ h0
    rw [hB]
    dsimp only
    exact Point.quant_apply (xblk m c ⟨n, hn⟩) (xrow m c n) (xblk_xrow m c hfin n hn) p d

/-- The probability accumulator after the first point of a sweep. -/
theorem inv3_A (c : Dev nD) (hfin : EntropySpec.Finite (X m c)) (n : ℕ) (hn : n < cfg0.N) (h0 : n % 16 = 0) (a : Fin 8) (j : Fin 16384) :
    ((outsAt0 m c n hn).2.1 : S8x16384.Idx → EReal) (ix2 a j)
      = ((∑ r ∈ range (256 * (n % 16 + 1)), EntropySpec.prob (X m c) (4096 * (n / 16) + r) j : ℝ) : EReal) := by
  have hA : outsAt0 m c n hn = _ := outs_A m c ⟨n, hn⟩ h0
  rw [hA]
  show k0_pay1 (k0_pay11 (xblk m c ⟨n, hn⟩) (cblk m c ⟨n, hn⟩)) (k0_pay12 (xblk m c ⟨n, hn⟩)) (k0_pay3 (F := Ideal)) (ix2 a j) = _
  rw [Point.probs_acc_apply (xblk m c ⟨n, hn⟩) (cblk m c ⟨n, hn⟩) (k0_pay3 (F := Ideal)) (xrow m c n) (xblk_xrow m c hfin n hn) (cblk_apply m c ⟨n, hn⟩) a j,
    Point.zero3_apply, zero_add, blk_prob]
  exact congrArg (fun x : ℝ => (x : EReal)) (sum_first (fun k => EntropySpec.prob (X m c) k j) n h0).symm

/-- THE PROBABILITY ACCUMULATOR after point `n` (core `n / 16`, step `n % 16`): each of its 8 rows holds, per code `j`,
    the probabilities of `j` summed over the rows the core has swept so far. -/
theorem inv3 (c : Dev nD) (hfin : EntropySpec.Finite (X m c)) : ∀ (n : ℕ) (hn : n < cfg0.N) (a : Fin 8) (j : Fin 16384),
    ((outsAt0 m c n hn).2.1 : S8x16384.Idx → EReal) (ix2 a j)
      = ((∑ r ∈ range (256 * (n % 16 + 1)), EntropySpec.prob (X m c) (4096 * (n / 16) + r) j : ℝ) : EReal) := by
  intro n
  induction n with
  | zero => intro hn a j; exact inv3_A m c hfin 0 hn rfl a j
  | succ n ih =>
    intro hn a j
    by_cases h0 : (n + 1) % 16 = 0
    · exact inv3_A m c hfin (n + 1) hn h0 a j
    · rw [outs_succ m c n hn h0]
      show k0_pay1 (k0_pay11 (xblk m c ⟨n + 1, hn⟩) (cblk m c ⟨n + 1, hn⟩)) (k0_pay12 (xblk m c ⟨n + 1, hn⟩))
        (outsAt0 m c n (Nat.lt_of_succ_lt hn)).2.1 (ix2 a j) = _
      rw [Point.probs_acc_apply (xblk m c ⟨n + 1, hn⟩) (cblk m c ⟨n + 1, hn⟩) (outsAt0 m c n (Nat.lt_of_succ_lt hn)).2.1 (xrow m c (n + 1))
          (xblk_xrow m c hfin (n + 1) hn) (cblk_apply m c ⟨n + 1, hn⟩) a j,
        ih (Nat.lt_of_succ_lt hn) a j, ← EReal.coe_add, blk_prob]
      exact congrArg (fun x : ℝ => (x : EReal)) (sum_next (fun k => EntropySpec.prob (X m c) k j) n h0).symm

/-- The statistics accumulator after the first point of a sweep. -/
theorem inv4_A (c : Dev nD) (hfin : EntropySpec.Finite (X m c)) (n : ℕ) (hn : n < cfg0.N) (h0 : n % 16 = 0) (a : Fin 8) (l : Fin 128) :
    ((outsAt0 m c n hn).2.2 : S8x128.Idx → EReal) (ix2 a l)
      = (((if l.val = 0 then ∑ r ∈ range (256 * (n % 16 + 1)), EntropySpec.rowEnt (X m c) (4096 * (n / 16) + r)
          else if l.val = 1 then ∑ r ∈ range (256 * (n % 16 + 1)), EntropySpec.rowSq (X m c) (4096 * (n / 16) + r)
          else 0) : ℝ) : EReal) := by
  have hA : outsAt0 m c n hn = _ := outs_A m c ⟨n, hn⟩ h0
  rw [hA]
  show k0_pay2 (k0_pay7 (xblk m c ⟨n, hn⟩)) (k0_pay10 (xblk m c ⟨n, hn⟩)) (k0_pay4 (F := Ideal)) (ix2 a l) = _
  rw [Point.stats_acc_apply (xblk m c ⟨n, hn⟩) (k0_pay4 (F := Ideal)) (xrow m c n) (xblk_xrow m c hfin n hn) a l,
    Point.zero4_apply, zero_add, blk_ent, blk_sq,
    sum_first (fun k => EntropySpec.rowEnt (X m c) k) n h0, sum_first (fun k => EntropySpec.rowSq (X m c) k) n h0]

/-- THE STATISTICS ACCUMULATOR after point `n`: column 0 of each row holds the row entropies summed over the rows the
    core has swept so far, column 1 their commitment errors, the other columns zero. -/
theorem inv4 (c : Dev nD) (hfin : EntropySpec.Finite (X m c)) : ∀ (n : ℕ) (hn : n < cfg0.N) (a : Fin 8) (l : Fin 128),
    ((outsAt0 m c n hn).2.2 : S8x128.Idx → EReal) (ix2 a l)
      = (((if l.val = 0 then ∑ r ∈ range (256 * (n % 16 + 1)), EntropySpec.rowEnt (X m c) (4096 * (n / 16) + r)
          else if l.val = 1 then ∑ r ∈ range (256 * (n % 16 + 1)), EntropySpec.rowSq (X m c) (4096 * (n / 16) + r)
          else 0) : ℝ) : EReal) := by
  intro n
  induction n with
  | zero => intro hn a l; exact inv4_A m c hfin 0 hn rfl a l
  | succ n ih =>
    intro hn a l
    by_cases h0 : (n + 1) % 16 = 0
    · exact inv4_A m c hfin (n + 1) hn h0 a l
    · rw [outs_succ m c n hn h0]
      show k0_pay2 (k0_pay7 (xblk m c ⟨n + 1, hn⟩)) (k0_pay10 (xblk m c ⟨n + 1, hn⟩))
        (outsAt0 m c n (Nat.lt_of_succ_lt hn)).2.2 (ix2 a l) = _
      rw [Point.stats_acc_apply (xblk m c ⟨n + 1, hn⟩) (outsAt0 m c n (Nat.lt_of_succ_lt hn)).2.2 (xrow m c (n + 1))
          (xblk_xrow m c hfin (n + 1) hn) a l,
        ih (Nat.lt_of_succ_lt hn) a l, ← EReal.coe_add, blk_ent, blk_sq,
        sum_next (fun k => EntropySpec.rowEnt (X m c) k) n h0, sum_next (fun k => EntropySpec.rowSq (X m c) k) n h0]
      congr 1
      by_cases hl0 : l.val = 0
      · simp only [if_pos hl0]
      · by_cases hl1 : l.val = 1
        · simp only [if_neg hl0, if_pos hl1]
        · simp only [if_neg hl0, if_neg hl1, add_zero]

end Inv

section Final
variable (m : (ℓ : Loc nD τ sig) → Buf (Elt Ideal) ℓ)

/-- The three arrays the run ends with, as functions of the input: the sign quantisation of every row; per core
    (rows `8 core … 8 core + 7`) and code, the code's probability summed over the core's 4096 rows; per core, the
    row entropies (column 0) and the commitment errors (column 1) summed over those rows. -/
def G2 (c : Dev nD) : S8192x14.Idx → EReal := fun i =>
  ((EntropySpec.quant (EntropySpec.row (X m c) (i 0).val (i 1)) : ℝ) : EReal)
def G3 (c : Dev nD) : S16x16384.Idx → EReal := fun i =>
  ((∑ r ∈ range 4096, EntropySpec.prob (X m c) (4096 * ((i 0).val / 8) + r) (i 1) : ℝ) : EReal)
def G4 (c : Dev nD) : S16x128.Idx → EReal := fun i =>
  (((if (i 1).val = 0 then ∑ r ∈ range 4096, EntropySpec.rowEnt (X m c) (4096 * ((i 0).val / 8) + r)
     else if (i 1).val = 1 then ∑ r ∈ range 4096, EntropySpec.rowSq (X m c) (4096 * ((i 0).val / 8) + r)
     else 0) : ℝ) : EReal)

theorem G2_at (c : Dev nD) (i : S8192x14.Idx) (r : ℕ) (d : Fin 14) (h0 : (i 0).val = r) (h1 : i 1 = d) :
    G2 m c i = ((EntropySpec.quant (EntropySpec.row (X m c) r d) : ℝ) : EReal) := by
  subst h0 h1; rfl
theorem G3_at (c : Dev nD) (i : S16x16384.Idx) (k : ℕ) (j : Fin 16384) (h0 : (i 0).val / 8 = k) (h1 : i 1 = j) :
    G3 m c i = ((∑ r ∈ range 4096, EntropySpec.prob (X m c) (4096 * k + r) j : ℝ) : EReal) := by
  subst h0 h1; rfl
theorem G4_at (c : Dev nD) (i : S16x128.Idx) (k : ℕ) (l : Fin 128) (h0 : (i 0).val / 8 = k) (h1 : i 1 = l) :
    G4 m c i = (((if l.val = 0 then ∑ r ∈ range 4096, EntropySpec.rowEnt (X m c) (4096 * k + r)
      else if l.val = 1 then ∑ r ∈ range 4096, EntropySpec.rowSq (X m c) (4096 * k + r) else 0) : ℝ) : EReal) := by
  subst h0 h1; rfl

/-- The output windows' block indices at point `t`: the quantised output moves with the point, the two accumulators
    with the core `t / 16`. -/
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val / 16 ∧ win0_3.index t (1 : Fin 2) = 0 :=
  (by decide +kernel : ∀ t : Fin grid0.N, win0_3.index t (0 : Fin 2) = t.val / 16 ∧ win0_3.index t (1 : Fin 2) = 0)
theorem idx4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

/-- WHAT POINT `t` WRITES BACK to the quantised output is block `t` of `G2`. -/
theorem flushed2_eq (c : Dev nD) (hfin : EntropySpec.Finite (X m c)) (t : Fin cfg0.N) :
    (dats m 0 c).flushed 2 t = ((cfg0.win 2).blk t).view.read (Elt Ideal) (G2 m c) := by
  show (cfg0.win 2).cut (grid0.coords t) ((dats m 0 c).after 2 t) = _
  rw [after0_2]
  refine funext fun (y : S256x14.Idx) => ?_
  obtain ⟨p, d, rfl⟩ : ∃ (p : Fin 256) (d : Fin 14), y = ix2 p d := ⟨y 0, y 1, eq_ix2 y⟩
  show (outsAt0 m c t.val t.isLt).1 (ix2 p d) = G2 m c (((cfg0.win 2).blk t).view.emb (ix2 p d))
  rw [inv2 m c hfin t.val t.isLt p d]
  refine (G2_at m c _ (256 * t.val + p.val) d ?_ ?_).symm
  · show win0_2.index t (0 : Fin 2) * 256 + 1 * p.val = 256 * t.val + p.val; rw [(idx2 t).1]; omega
  · apply Fin.ext; show win0_2.index t (1 : Fin 2) * 14 + 1 * d.val = d.val; rw [(idx2 t).2]; omega

/-- WHAT A CORE'S LAST POINT WRITES BACK to the probability output is the core's block of `G3`. -/
theorem flushed3_eq (c : Dev nD) (hfin : EntropySpec.Finite (X m c)) (t : Fin cfg0.N) (hf : (cfg0.win 3).flush t = true) :
    (dats m 0 c).flushed 3 t = ((cfg0.win 3).blk t).view.read (Elt Ideal) (G3 m c) := by
  have h15 : t.val % 16 = 15 := (flush0_3 t).mp hf
  show (cfg0.win 3).cut (grid0.coords t) ((dats m 0 c).after 3 t) = _
  rw [after0_3]
  refine funext fun (y : S8x16384.Idx) => ?_
  obtain ⟨a, j, rfl⟩ : ∃ (a : Fin 8) (j : Fin 16384), y = ix2 a j := ⟨y 0, y 1, eq_ix2 y⟩
  show (outsAt0 m c t.val t.isLt).2.1 (ix2 a j) = G3 m c (((cfg0.win 3).blk t).view.emb (ix2 a j))
  rw [inv3 m c hfin t.val t.isLt a j, show 256 * (t.val % 16 + 1) = 4096 from by omega]
  refine (G3_at m c _ (t.val / 16) j ?_ ?_).symm
  · show (win0_3.index t (0 : Fin 2) * 8 + 1 * a.val) / 8 = t.val / 16; rw [(idx3 t).1]; have := a.isLt; omega
  · apply Fin.ext; show win0_3.index t (1 : Fin 2) * 16384 + 1 * j.val = j.val; rw [(idx3 t).2]; omega

/-- And to the statistics output, the core's block of `G4`. -/
theorem flushed4_eq (c : Dev nD) (hfin : EntropySpec.Finite (X m c)) (t : Fin cfg0.N) (hf : (cfg0.win 4).flush t = true) :
    (dats m 0 c).flushed 4 t = ((cfg0.win 4).blk t).view.read (Elt Ideal) (G4 m c) := by
  have h15 : t.val % 16 = 15 := (flush0_4 t).mp hf
  show (cfg0.win 4).cut (grid0.coords t) ((dats m 0 c).after 4 t) = _
  rw [after0_4]
  refine funext fun (y : S8x128.Idx) => ?_
  obtain ⟨a, l, rfl⟩ : ∃ (a : Fin 8) (l : Fin 128), y = ix2 a l := ⟨y 0, y 1, eq_ix2 y⟩
  show (outsAt0 m c t.val t.isLt).2.2 (ix2 a l) = G4 m c (((cfg0.win 4).blk t).view.emb (ix2 a l))
  rw [inv4 m c hfin t.val t.isLt a l, show 256 * (t.val % 16 + 1) = 4096 from by omega]
  refine (G4_at m c _ (t.val / 16) l ?_ ?_).symm
  · show (win0_4.index t (0 : Fin 2) * 8 + 1 * a.val) / 8 = t.val / 16; rw [(idx4 t).1]; have := a.isLt; omega
  · apply Fin.ext; show win0_4.index t (1 : Fin 2) * 128 + 1 * l.val = l.val; rw [(idx4 t).2]; omega

/-- An index of output 2's array lies in point `t`'s block iff each coordinate lies in the block's range on its axis. -/
theorem mem_blk2 (t : Fin cfg0.N) (i : S8192x14.Idx) :
    i ∈ ((cfg0.win 2).blk t).view.set ↔ ∀ a : Fin 2, win0_2.index t a * S256x14.size a ≤ (i a).val ∧ (i a).val < win0_2.index t a * S256x14.size a + S256x14.size a := by
  show i ∈ ((View.whole main_v70_0).slice (win0_2.rect t)).set ↔ _
  rw [View.set_slice_whole, Rect.mem_set_unit]
  exact Iff.rfl

/-- An index of output 3's array lies in point `t`'s block iff each coordinate lies in the block's range on its axis. -/
theorem mem_blk3 (t : Fin cfg0.N) (i : S16x16384.Idx) :
    i ∈ ((cfg0.win 3).blk t).view.set ↔ ∀ a : Fin 2, win0_3.index t a * S8x16384.size a ≤ (i a).val ∧ (i a).val < win0_3.index t a * S8x16384.size a + S8x16384.size a := by
  show i ∈ ((View.whole main_v70_1).slice (win0_3.rect t)).set ↔ _
  rw [View.set_slice_whole, Rect.mem_set_unit]
  exact Iff.rfl

/-- An index of output 4's array lies in point `t`'s block iff each coordinate lies in the block's range on its axis. -/
theorem mem_blk4 (t : Fin cfg0.N) (i : S16x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v70_2).slice (win0_4.rect t)).set ↔ _
  rw [View.set_slice_whole, Rect.mem_set_unit]
  exact Iff.rfl

/-- Every row `r` of the quantised output lies in the block of point `r / 256`, which is written back. -/
theorem cover2 (i : S8192x14.Idx) : ∃ t : Fin cfg0.N, (cfg0.win 2).flush t = true ∧ i ∈ ((cfg0.win 2).blk t).view.set := by
  have hi0 : (i 0).val < 8192 := (i 0).isLt
  have hi1 : (i 1).val < 14 := (i 1).isLt
  obtain ⟨t, ht⟩ : ∃ t : Fin cfg0.N, t.val = (i 0).val / 256 :=
    ⟨⟨(i 0).val / 256, by rw [show cfg0.N = 32 from N_0]; omega⟩, rfl⟩
  refine ⟨t, flush0_2 t, ?_⟩
  rw [mem_blk2]
  intro a
  match a with
  | ⟨0, _⟩ => show win0_2.index t (0 : Fin 2) * 256 ≤ (i 0).val ∧ (i 0).val < win0_2.index t (0 : Fin 2) * 256 + 256; rw [(idx2 t).1]; omega
  | ⟨1, _⟩ => show win0_2.index t (1 : Fin 2) * 14 ≤ (i 1).val ∧ (i 1).val < win0_2.index t (1 : Fin 2) * 14 + 14; rw [(idx2 t).2]; omega

/-- Every row `q` of the probability output lies in the block of the last point `16 (q / 8) + 15` of core `q / 8`. -/
theorem cover3 (i : S16x16384.Idx) : ∃ t : Fin cfg0.N, (cfg0.win 3).flush t = true ∧ i ∈ ((cfg0.win 3).blk t).view.set := by
  have hi0 : (i 0).val < 16 := (i 0).isLt
  have hi1 : (i 1).val < 16384 := (i 1).isLt
  obtain ⟨t, ht⟩ : ∃ t : Fin cfg0.N, t.val = 16 * ((i 0).val / 8) + 15 :=
    ⟨⟨16 * ((i 0).val / 8) + 15, by rw [show cfg0.N = 32 from N_0]; omega⟩, rfl⟩
  refine ⟨t, (flush0_3 t).mpr (by omega), ?_⟩
  rw [mem_blk3]
  intro a
  match a with
  | ⟨0, _⟩ => show win0_3.index t (0 : Fin 2) * 8 ≤ (i 0).val ∧ (i 0).val < win0_3.index t (0 : Fin 2) * 8 + 8; rw [(idx3 t).1]; omega
  | ⟨1, _⟩ => show win0_3.index t (1 : Fin 2) * 16384 ≤ (i 1).val ∧ (i 1).val < win0_3.index t (1 : Fin 2) * 16384 + 16384; rw [(idx3 t).2]; omega

/-- The same for the statistics output. -/
theorem cover4 (i : S16x128.Idx) : ∃ t : Fin cfg0.N, (cfg0.win 4).flush t = true ∧ i ∈ ((cfg0.win 4).blk t).view.set := by
  have hi0 : (i 0).val < 16 := (i 0).isLt
  have hi1 : (i 1).val < 128 := (i 1).isLt
  obtain ⟨t, ht⟩ : ∃ t : Fin cfg0.N, t.val = 16 * ((i 0).val / 8) + 15 :=
    ⟨⟨16 * ((i 0).val / 8) + 15, by rw [show cfg0.N = 32 from N_0]; omega⟩, rfl⟩
  refine ⟨t, (flush0_4 t).mpr (by omega), ?_⟩
  rw [mem_blk4]
  intro a
  match a with
  | ⟨0, _⟩ => show win0_4.index t (0 : Fin 2) * 8 ≤ (i 0).val ∧ (i 0).val < win0_4.index t (0 : Fin 2) * 8 + 8; rw [(idx4 t).1]; omega
  | ⟨1, _⟩ => show win0_4.index t (1 : Fin 2) * 128 ≤ (i 1).val ∧ (i 1).val < win0_4.index t (1 : Fin 2) * 128 + 128; rw [(idx4 t).2]; omega

/-- THE THREE ARRAYS after the run. -/
theorem final2 (c : Dev nD) (hfin : EntropySpec.Finite (X m c)) : (dats m 0 c).arrAt 2 cfg0.N = G2 m c :=
  (dats m 0 c).arrAt_eq_of_cover 2 (G2 m c) (fun t _ => flushed2_eq m c hfin t) cover2
theorem final3 (c : Dev nD) (hfin : EntropySpec.Finite (X m c)) : (dats m 0 c).arrAt 3 cfg0.N = G3 m c :=
  (dats m 0 c).arrAt_eq_of_cover 3 (G3 m c) (fun t hf => flushed3_eq m c hfin t hf) cover3
theorem final4 (c : Dev nD) (hfin : EntropySpec.Finite (X m c)) : (dats m 0 c).arrAt 4 cfg0.N = G4 m c :=
  (dats m 0 c).arrAt_eq_of_cover 4 (G4 m c) (fun t hf => flushed4_eq m c hfin t hf) cover4

theorem final_quant (c : Dev nD) (hfin : EntropySpec.Finite (X m c)) (r : Fin 8192) (d : Fin 14) :
    ((dats m 0 c).arrAt 2 cfg0.N : S8192x14.Idx → EReal) (ix2 r d)
      = ((EntropySpec.quant (EntropySpec.row (X m c) r.val d) : ℝ) : EReal) :=
  (congrFun (final2 m c hfin) (ix2 r d)).trans (G2_at m c (ix2 r d) r.val d rfl rfl)

theorem final_probs (c : Dev nD) (hfin : EntropySpec.Finite (X m c)) (q : Fin 16) (j : Fin 16384) :
    ((dats m 0 c).arrAt 3 cfg0.N : S16x16384.Idx → EReal) (ix2 q j)
      = ((∑ r ∈ range 4096, EntropySpec.prob (X m c) (4096 * (q.val / 8) + r) j : ℝ) : EReal) :=
  (congrFun (final3 m c hfin) (ix2 q j)).trans (G3_at m c (ix2 q j) (q.val / 8) j rfl rfl)

theorem final_stats (c : Dev nD) (hfin : EntropySpec.Finite (X m c)) (q : Fin 16) (l : Fin 128) :
    ((dats m 0 c).arrAt 4 cfg0.N : S16x128.Idx → EReal) (ix2 q l)
      = (((if l.val = 0 then ∑ r ∈ range 4096, EntropySpec.rowEnt (X m c) (4096 * (q.val / 8) + r)
          else if l.val = 1 then ∑ r ∈ range 4096, EntropySpec.rowSq (X m c) (4096 * (q.val / 8) + r)
          else 0) : ℝ) : EReal) :=
  (congrFun (final4 m c hfin) (ix2 q l)).trans (G4_at m c (ix2 q l) (q.val / 8) l rfl rfl)

end Final
end Cert.KernelIdeal.Region

end
-- ==== Proof.KernelTail.lean ====
/-
  The kernel program's five results.  After the region the three output arrays hold, per core, the quantised rows, the
  per-core sums of the softmax probabilities (every one of a core's 8 accumulator rows the same) and the per-core sums
  of the row entropies and of the squared commitment errors (columns 0 and 1 of every accumulator row).  The lines after
  the region take row 0 of each core's accumulator block, add the two cores, and finish: the mean distribution and its
  entropy, the mean row entropy, the mean commitment error, the auxiliary loss.  Adding the two cores' sums over rows
  `0 … 4095` and `4096 … 8191` is the sum over all 8192 rows.
-/
import proofs.«401730_j44306882625715_3_alg».proof.Proof.Gen.KernelIdeal.Frame
import proofs.«401730_j44306882625715_3_alg».proof.Proof.EntropySpec
import proofs.«401730_j44306882625715_3_alg».proof.Proof.KernelRegion
import Idealize.ShloMosaic.Lib.Pipeline.Value
import Idealize.ShloMosaic.Lib.ValueIdx
import Idealize.ShloMosaic.PureOps.Ideal.Laws
import Mathlib.Algebra.BigOperators.Fin
import Mathlib.Algebra.BigOperators.Group.Finset.Basic
import Mathlib.Data.EReal.Basic

noncomputable section

namespace Cert.KernelIdeal.Tail

open Cert.KernelIdeal Cert.KernelIdeal.Gen Idealize.ShloMosaic Idealize.ShloMosaic.TcCoe Idealize.SL.Sem

section Tail

open Idealize.ShloMosaic.StableHlo Idealize.ShloMosaic.ValueIdx

/-! ## The lines after the region as functions of the three arrays -/

/-- Row 0 of each core's block of a `[16, n]` accumulator array, the two cores added (lines 71–74 at `n = 16384`). -/
def colSums (a3 : FVec Ideal S16x16384 .f32) : FVec Ideal S16384 .f32 :=
  Host.reduceAdd (shapeCast _ (extractStridedSlice S2x1x16384 ![0, 0, 0] (shapeCast _ a3 shapeCasts_S16x16384_S2x8x16384) slices_S2x8x16384_S2x1x16384_0_0_0) shapeCasts_S2x1x16384_S2x16384) (constant S_ .f32 0x00000000#32) reducesTo_S2x16384_S16384_d0 h_S_

/-- The same of the statistics array (lines 75–78). -/
def statSums (a4 : FVec Ideal S16x128 .f32) : FVec Ideal S128 .f32 :=
  Host.reduceAdd (shapeCast _ (extractStridedSlice S2x1x128 ![0, 0, 0] (shapeCast _ a4 shapeCasts_S16x128_S2x8x128) slices_S2x8x128_S2x1x128_0_0_0) shapeCasts_S2x1x128_S2x128) (constant S_ .f32 0x00000000#32) reducesTo_S2x128_S128_d0 h_S_

/-- The mean distribution (line 80). -/
def meanProb (a3 : FVec Ideal S16x16384 .f32) : FVec Ideal S16384 .f32 :=
  Host.divf (colSums a3) (broadcastInDim S16384 ![] bcast_S_S16384 (constant S_ .f32 0x46000000#32))

/-- The entropy of the mean distribution (line 86). -/
def v86 (a3 : FVec Ideal S16x16384 .f32) : FVec Ideal S_ .f32 :=
  Host.negf (Host.reduceAdd (mulf (meanProb a3) (Host.log (addf (meanProb a3) (broadcastInDim S16384 ![] bcast_S_S16384 (constant S_ .f32 0x3727C5AC#32))))) (constant S_ .f32 0x00000000#32) reducesTo_S16384_S_d0 h_S_)

/-- The mean row entropy (line 89). -/
def v89 (a4 : FVec Ideal S16x128 .f32) : FVec Ideal S_ .f32 :=
  Host.divf (shapeCast _ (extractStridedSlice S1 ![0] (statSums a4) slices_S128_S1_0) shapeCasts_S1_S_) (constant S_ .f32 0x46000000#32)

/-- The mean commitment error (line 92). -/
def v92 (a4 : FVec Ideal S16x128 .f32) : FVec Ideal S_ .f32 :=
  Host.divf (shapeCast _ (extractStridedSlice S1 ![1] (statSums a4) slices_S128_S1_1) shapeCasts_S1_S_) (constant S_ .f32 0x47E00000#32)

/-- The auxiliary loss (line 95). -/
def v95 (a3 : FVec Ideal S16x16384 .f32) (a4 : FVec Ideal S16x128 .f32) :
    FVec Ideal S_ .f32 :=
  subf (mulf (constant S_ .f32 0x3F800000#32) (v89 a4)) (mulf (constant S_ .f32 0x3F800000#32) (v86 a3))

/-- The quantised rows in the input's shape (line 96). -/
def v96 (a2 : FVec Ideal S8192x14 .f32) : FVec Ideal S8x1024x14 .f32 :=
  shapeCast _ a2 shapeCasts_S8192x14_S8x1024x14

/-! ## The run's results are those functions of the region's arrays -/

section Run

variable (W : Valuation τ sig (Elt Ideal))

theorem after_v96 : StableHlo.after hostOps1 W (Proc.devRef .tc main_v96) = v96 (W (Proc.devRef .tc main_v70_0)) := by
  after_results; rfl
set_option maxHeartbeats 1000000 in
theorem after_v95 : StableHlo.after hostOps1 W (Proc.devRef .tc main_v95)
    = v95 (W (Proc.devRef .tc main_v70_1)) (W (Proc.devRef .tc main_v70_2)) := by
  after_results_simp <;> rfl
theorem after_v89 : StableHlo.after hostOps1 W (Proc.devRef .tc main_v89) = v89 (W (Proc.devRef .tc main_v70_2)) := by
  after_results; rfl
theorem after_v86 : StableHlo.after hostOps1 W (Proc.devRef .tc main_v86) = v86 (W (Proc.devRef .tc main_v70_1)) := by
  after_results; rfl
theorem after_v92 : StableHlo.after hostOps1 W (Proc.devRef .tc main_v92) = v92 (W (Proc.devRef .tc main_v70_2)) := by
  after_results; rfl

end Run

/-! ## The results at an index -/

section Index

/-- Row 0 of each block of 8 rows of a `[16, n]` array, read as `[2, n]`: entry `(k, j)` is entry `(8 k, j)`. -/
theorem blockRow_apply {n : Nat} (a : (⟨2, ![16, n]⟩ : Shape).Idx → EReal)
    (h1 : (⟨2, ![16, n]⟩ : Shape).ShapeCasts ⟨3, ![2, 8, n]⟩)
    (h2 : (⟨3, ![2, 8, n]⟩ : Shape).Slices ![0, 0, 0] ⟨3, ![2, 1, n]⟩)
    (h3 : (⟨3, ![2, 1, n]⟩ : Shape).ShapeCasts ⟨2, ![2, n]⟩) (k : Fin 2) (q : Fin 16) (hq : q.val = k.val * 8) (j : Fin n) :
    shapeCast ⟨2, ![2, n]⟩ (extractStridedSlice ⟨3, ![2, 1, n]⟩ ![0, 0, 0] (shapeCast ⟨3, ![2, 8, n]⟩ a h1) h2) h3 (ix2 k j)
      = a (ix2 q j) := by
  refine (shapeCast_apply _ h3 (ix2 k j) (ix3 k (0 : Fin 1) j) ?_).trans ?_
  · rewrite [Shape.rowMajor_val_three, Shape.rowMajor_val_two]
    show (k.val * 1 + 0) * n + j.val = k.val * n + j.val
    rw [Nat.mul_one, Nat.add_zero]
  refine (extractStridedSlice_apply ![0, 0, 0] _ h2 (ix3 k (0 : Fin 1) j) (ix3 k (0 : Fin 8) j) ?_).trans ?_
  · intro b
    match b with
    | ⟨0, _⟩ => exact (Nat.zero_add _).symm
    | ⟨1, _⟩ => rfl
    | ⟨2, _⟩ => exact (Nat.zero_add _).symm
  refine shapeCast_apply a h1 (ix3 k (0 : Fin 8) j) (ix2 q j) ?_
  rewrite [Shape.rowMajor_val_three, Shape.rowMajor_val_two]
  show q.val * n + j.val = (k.val * 8 + 0) * n + j.val
  rw [hq, Nat.add_zero]

/-- A float sum over a leading axis of extent 2 is the initial value plus the two entries. -/
theorem sumTwo_apply {n : Nat} (x : (⟨2, ![2, n]⟩ : Shape).Idx → EReal)
    (h' : (⟨2, ![2, n]⟩ : Shape).ReducesTo [0] ⟨1, ![n]⟩) (h : (⟨2, ![2, n]⟩ : Shape).Reduces [0] ⟨1, ![n]⟩)
    (init : EReal) (j : Fin n) :
    Ideal.hostReduceAdd h' x init (ix1 j) = init + (x (ix2 0 j) + x (ix2 1 j)) := by
  rw [Ideal.hostReduceAdd_single h' h]
  show init + ∑ k : Fin 2, x (h.lift (ix1 j) k) = _
  rw [Fin.sum_univ_two]
  have e : ∀ k : Fin 2, h.lift (ix1 j) k = ix2 k j := fun k =>
    funext fun b => Fin.ext (by match b with | ⟨0, _⟩ => rfl | ⟨1, _⟩ => rfl)
  rw [e, e]

/-- The two cores' accumulator rows added: column `j` of the sum is the word `0` plus rows 0 and 8 at `j`. -/
theorem colSums_apply (a3 : FVec Ideal S16x16384 .f32) (j : Fin 16384) :
    colSums a3 (ix1 j) = Ideal.ofBits .f32 0x00000000#32 + (a3 (ix2 0 j) + a3 (ix2 8 j)) := by
  unfold colSums
  simp only [Host.reduceAdd, Ideal.hostReduceAdd_def]
  rw [sumTwo_apply _ reducesTo_S2x16384_S16384_d0 (by decide) _ j,
    blockRow_apply a3 _ _ _ 0 0 rfl j, blockRow_apply a3 _ _ _ 1 8 rfl j]
  rfl

theorem statSums_apply (a4 : FVec Ideal S16x128 .f32) (l : Fin 128) :
    statSums a4 (ix1 l) = Ideal.ofBits .f32 0x00000000#32 + (a4 (ix2 0 l) + a4 (ix2 8 l)) := by
  unfold statSums
  simp only [Host.reduceAdd, Ideal.hostReduceAdd_def]
  rw [sumTwo_apply _ reducesTo_S2x128_S128_d0 (by decide) _ l,
    blockRow_apply a4 _ _ _ 0 0 rfl l, blockRow_apply a4 _ _ _ 1 8 rfl l]
  rfl

/-- Entry `l` of a `[128]` array, sliced out and read as a scalar. -/
theorem entry_apply (x : FVec Ideal S128 .f32) (off : Nat) (l : Fin 128) (hl : l.val = off) (h : S128.Slices ![off] S1)
    (i : S_.Idx) : shapeCast S_ (extractStridedSlice S1 ![off] x h) shapeCasts_S1_S_ i = x (ix1 l) := by
  refine (shapeCast_apply _ shapeCasts_S1_S_ i (ix1 (0 : Fin 1)) ?_).trans ?_
  · have h1 : (S1.rowMajor (ix1 (0 : Fin 1))).val < 1 := (S1.rowMajor _).isLt
    have h2 : (S_.rowMajor i).val < 1 := (S_.rowMajor i).isLt
    omega
  exact extractStridedSlice_apply ![off] x h (ix1 (0 : Fin 1)) (ix1 l) fun b => by
    match b with | ⟨0, _⟩ => exact hl.trans (Nat.add_zero off).symm

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

end Index

/-! ## The results are the specification's -/

section Values

open EntropySpec

variable (X : SX.Idx → EReal)

/-- The flattened row index `1024 b + l` is row `l` of batch `b`. -/
theorem rowIdx_flat (b : Fin 8) (l : Fin 1024) (d : Fin 14) : rowIdx (1024 * b.val + l.val) d = ix3 b l d := by
  have hb := b.isLt
  have hl := l.isLt
  funext a
  match a with
  | ⟨0, _⟩ => exact Fin.ext (show (1024 * b.val + l.val) / 1024 % 8 = b.val by omega)
  | ⟨1, _⟩ => exact Fin.ext (show (1024 * b.val + l.val) % 1024 = l.val by omega)
  | ⟨2, _⟩ => rfl

/-- Result 0: the quantised rows, in the input's shape, are the quantised input. -/
theorem v96_value (a2 : FVec Ideal S8192x14 .f32)
    (H2 : ∀ (r : Fin 8192) (d : Fin 14), a2 (ix2 r d) = ((quant (row X r.val d) : ℝ) : EReal)) : v96 a2 = out0 X := by
  funext i
  obtain ⟨b, l, d, rfl⟩ : ∃ b l d, i = ix3 b l d := ⟨i 0, i 1, i 2, eq_ix3 i⟩
  have hb := b.isLt
  have hl := l.isLt
  unfold v96 out0
  rw [shapeCast_apply a2 shapeCasts_S8192x14_S8x1024x14 (ix3 b l d) (ix2 ⟨1024 * b.val + l.val, by omega⟩ d) (by
    rewrite [Shape.rowMajor_val_two, Shape.rowMajor_val_three]
    show (1024 * b.val + l.val) * 14 + d.val = (b.val * 1024 + l.val) * 14 + d.val
    omega)]
  rw [H2]
  show ((quant (X (rowIdx (1024 * b.val + l.val) d)).toReal : ℝ) : EReal) = _
  rw [rowIdx_flat]

/-- Rows `0 … 4095` and `4096 … 8191` together are all 8192 rows. -/
theorem sum_halves (f : ℕ → ℝ) :
    ((∑ r ∈ Finset.range 4096, f (4096 * ((0 : Fin 16).val / 8) + r) : ℝ) : EReal)
      + ((∑ r ∈ Finset.range 4096, f (4096 * ((8 : Fin 16).val / 8) + r) : ℝ) : EReal)
      = ((∑ r ∈ Finset.range 8192, f r : ℝ) : EReal) := by
  have e0 : 4096 * ((0 : Fin 16).val / 8) = 0 := rfl
  have e8 : 4096 * ((8 : Fin 16).val / 8) = 4096 := rfl
  rw [← EReal.coe_add, e0, e8, show (8192 : ℕ) = 4096 + 4096 from rfl, Finset.sum_range_add]
  simp only [Nat.zero_add]

/-- Column `j` of the added accumulator rows is the sum of code `j`'s probability over all rows. -/
theorem colSums_value (a3 : FVec Ideal S16x16384 .f32)
    (H3 : ∀ (q : Fin 16) (j : Fin 16384), a3 (ix2 q j)
      = ((∑ r ∈ Finset.range 4096, prob X (4096 * (q.val / 8) + r) j : ℝ) : EReal)) (j : Fin 16384) :
    colSums a3 (ix1 j) = ((sumProb X j : ℝ) : EReal) := by
  rw [colSums_apply, H3, H3, Ideal.ofBits_zero_f32, zero_add]
  exact sum_halves fun r => prob X r j

/-- Columns 0 and 1 of the added statistics rows are the summed row entropies and the summed squared errors. -/
theorem statSums_value (a4 : FVec Ideal S16x128 .f32)
    (H4 : ∀ (q : Fin 16) (l : Fin 128), a4 (ix2 q l)
      = (((if l.val = 0 then ∑ r ∈ Finset.range 4096, rowEnt X (4096 * (q.val / 8) + r)
          else if l.val = 1 then ∑ r ∈ Finset.range 4096, rowSq X (4096 * (q.val / 8) + r) else 0) : ℝ) : EReal)) :
    statSums a4 (ix1 0) = ((sumEnt X : ℝ) : EReal) ∧ statSums a4 (ix1 1) = ((sumSq X : ℝ) : EReal) := by
  have c0 : ∀ A B : ℝ, (if (0 : Fin 128).val = 0 then A else if (0 : Fin 128).val = 1 then B else 0) = A :=
    fun _ _ => if_pos rfl
  have c1 : ∀ A B : ℝ, (if (1 : Fin 128).val = 0 then A else if (1 : Fin 128).val = 1 then B else 0) = B :=
    fun _ _ => (if_neg (by decide)).trans (if_pos rfl)
  constructor
  · rw [statSums_apply, H4, H4, Ideal.ofBits_zero_f32, zero_add, c0, c0]
    exact sum_halves fun r => rowEnt X r
  · rw [statSums_apply, H4, H4, Ideal.ofBits_zero_f32, zero_add, c1, c1]
    exact sum_halves fun r => rowSq X r

/-- Result 3: the entropy of the mean distribution. -/
theorem v86_value (a3 : FVec Ideal S16x16384 .f32)
    (H3 : ∀ (q : Fin 16) (j : Fin 16384), a3 (ix2 q j)
      = ((∑ r ∈ Finset.range 4096, prob X (4096 * (q.val / 8) + r) j : ℝ) : EReal)) : v86 a3 = out3 X := by
  funext i
  show -(Ideal.hostReduceAdd reducesTo_S16384_S_d0 (mulf (meanProb a3) (Host.log (addf (meanProb a3)
      (broadcastInDim S16384 ![] bcast_S_S16384 (constant S_ .f32 0x3727C5AC#32))))) (Ideal.ofBits .f32 0x00000000#32) i) = avgEnt X
  rw [Ideal.hostReduceAdd_total reducesTo_S16384_S_d0 (fun b => b.elim0), sum_idx1]
  unfold avgEnt
  refine congrArg Neg.neg (congrArg (_ + ·) (Finset.sum_congr rfl fun j _ => ?_))
  have e : meanProb a3 (ix1 j) = avgProb X j := by
    show Ideal.div (colSums a3 (ix1 j)) (Ideal.ofBits .f32 0x46000000#32) = _
    rw [colSums_value X a3 H3 j]
    rfl
  show meanProb a3 (ix1 j) * Ideal.log (meanProb a3 (ix1 j) + Ideal.ofBits .f32 0x3727C5AC#32) = _
  rw [e]

/-- Results 2 and 4: the mean row entropy and the mean commitment error. -/
theorem v89_value (a4 : FVec Ideal S16x128 .f32)
    (H4 : ∀ (q : Fin 16) (l : Fin 128), a4 (ix2 q l)
      = (((if l.val = 0 then ∑ r ∈ Finset.range 4096, rowEnt X (4096 * (q.val / 8) + r)
          else if l.val = 1 then ∑ r ∈ Finset.range 4096, rowSq X (4096 * (q.val / 8) + r) else 0) : ℝ) : EReal)) :
    v89 a4 = out2 X := by
  funext i
  show Ideal.div (shapeCast S_ (extractStridedSlice S1 ![0] (statSums a4) slices_S128_S1_0) shapeCasts_S1_S_ i)
    (Ideal.ofBits .f32 0x46000000#32) = sampleEnt X
  rw [entry_apply (statSums a4) 0 0 rfl slices_S128_S1_0 i, (statSums_value X a4 H4).1]
  rfl

theorem v92_value (a4 : FVec Ideal S16x128 .f32)
    (H4 : ∀ (q : Fin 16) (l : Fin 128), a4 (ix2 q l)
      = (((if l.val = 0 then ∑ r ∈ Finset.range 4096, rowEnt X (4096 * (q.val / 8) + r)
          else if l.val = 1 then ∑ r ∈ Finset.range 4096, rowSq X (4096 * (q.val / 8) + r) else 0) : ℝ) : EReal)) :
    v92 a4 = out4 X := by
  funext i
  show Ideal.div (shapeCast S_ (extractStridedSlice S1 ![1] (statSums a4) slices_S128_S1_1) shapeCasts_S1_S_ i)
    (Ideal.ofBits .f32 0x47E00000#32) = commit X
  rw [entry_apply (statSums a4) 1 1 rfl slices_S128_S1_1 i, (statSums_value X a4 H4).2]
  rfl

/-- Result 1: the auxiliary loss. -/
theorem v95_value (a3 : FVec Ideal S16x16384 .f32) (a4 : FVec Ideal S16x128 .f32)
    (H3 : ∀ (q : Fin 16) (j : Fin 16384), a3 (ix2 q j)
      = ((∑ r ∈ Finset.range 4096, prob X (4096 * (q.val / 8) + r) j : ℝ) : EReal))
    (H4 : ∀ (q : Fin 16) (l : Fin 128), a4 (ix2 q l)
      = (((if l.val = 0 then ∑ r ∈ Finset.range 4096, rowEnt X (4096 * (q.val / 8) + r)
          else if l.val = 1 then ∑ r ∈ Finset.range 4096, rowSq X (4096 * (q.val / 8) + r) else 0) : ℝ) : EReal)) :
    v95 a3 a4 = out1 X := by
  funext i
  show Ideal.ofBits .f32 0x3F800000#32 * v89 a4 i - Ideal.ofBits .f32 0x3F800000#32 * v86 a3 i = auxLoss X
  rw [v89_value X a4 H4, v86_value X a3 H3]
  rfl

end Values

/-! ## The run -/

section Frame

variable (m : (ℓ : Loc nD τ sig) → Buf (Elt Ideal) ℓ)

/-- What core `c`'s buffers hold when the region is left: its arrays as the frame's post gives them, the rest as entered. -/
abbrev exitVal (c : Dev nD) : Valuation τ sig (Elt Ideal) :=
  Pipeline.withArrays (cfgs 0).spec c (V0 m c) fun w => (dats m 0 c).arrAt w (cfgs 0).N

/-- The region's three output arrays at its exit. -/
abbrev arr2 (c : Dev nD) : FVec Ideal S8192x14 .f32 := (dats m 0 c).arrAt 2 cfg0.N
abbrev arr3 (c : Dev nD) : FVec Ideal S16x16384 .f32 := (dats m 0 c).arrAt 3 cfg0.N
abbrev arr4 (c : Dev nD) : FVec Ideal S16x128 .f32 := (dats m 0 c).arrAt 4 cfg0.N

theorem exitVal_2 (c : Dev nD) : exitVal m c (Proc.devRef .tc main_v70_0) = arr2 m c :=
  Pipeline.withArrays_arr spec0 launch0.win.arr_inj c _ _ 2
theorem exitVal_3 (c : Dev nD) : exitVal m c (Proc.devRef .tc main_v70_1) = arr3 m c :=
  Pipeline.withArrays_arr spec0 launch0.win.arr_inj c _ _ 3
theorem exitVal_4 (c : Dev nD) : exitVal m c (Proc.devRef .tc main_v70_2) = arr4 m c :=
  Pipeline.withArrays_arr spec0 launch0.win.arr_inj c _ _ 4

/-- The run's five results as the tail's functions of the region's arrays, and the input kept. -/
theorem run_tail (ρ : Dev nD → PrngReg) :
    θ_run (defs (F := Ideal)) (onTc (τ := τ) (main (F := Ideal))) ⟨m, fun _ => 0, ρ⟩ (fun r => ∀ c : Dev nD,
      r.2.mem ((c.tc : Thread nD τ).loc main_v96) = v96 (arr2 m c)
      ∧ r.2.mem ((c.tc : Thread nD τ).loc main_v95) = v95 (arr3 m c) (arr4 m c)
      ∧ r.2.mem ((c.tc : Thread nD τ).loc main_v89) = v89 (arr4 m c)
      ∧ r.2.mem ((c.tc : Thread nD τ).loc main_v86) = v86 (arr3 m c)
      ∧ r.2.mem ((c.tc : Thread nD τ).loc main_v92) = v92 (arr4 m c)
      ∧ r.2.mem ((c.tc : Thread nD τ).loc main_arg0) = m ((c.tc : Thread nD τ).loc main_arg0)) := by
  refine (θ_run defs _ _).mono (fun r h c => ?_) (run_main m ρ)
  have hr : ∀ b : Ref sig .tc, b.isScoped = false → (∀ w, ((cfgs 0).spec w).arr.view.ref ≠ b) →
      r.2.mem ((c.tc : Thread nD τ).loc b) = StableHlo.after hostOps1 (exitVal m c) (Proc.devRef .tc b) :=
    fun b hs ha => (h c).2 b (Pipeline.mem_restRefs_of b hs ha)
  refine ⟨?_, ?_, ?_, ?_, ?_, ?_⟩
  · exact (hr main_v96 (by decide) (by decide)).trans ((after_v96 _).trans (congrArg v96 (exitVal_2 m c)))
  · exact (hr main_v95 (by decide) (by decide)).trans
      ((after_v95 _).trans (congrArg₂ v95 (exitVal_3 m c) (exitVal_4 m c)))
  · exact (hr main_v89 (by decide) (by decide)).trans ((after_v89 _).trans (congrArg v89 (exitVal_4 m c)))
  · exact (hr main_v86 (by decide) (by decide)).trans ((after_v86 _).trans (congrArg v86 (exitVal_3 m c)))
  · exact (hr main_v92 (by decide) (by decide)).trans ((after_v92 _).trans (congrArg v92 (exitVal_4 m c)))
  · exact ((h c).2 main_arg0 (Pipeline.mem_restRefs_of main_arg0 (by decide) (by decide))).trans
      (W_main_arg0 m (dats m) c)

end Frame

end Tail

/-- Run from a memory whose input entries are real numbers, the idealized kernel program ends with its five results at
    the specification's functions of the input, and the input unchanged. -/
theorem kernel_value (m : (ℓ : Loc nD τ sig) → Buf (Elt Ideal) ℓ) (ρ : Dev nD → PrngReg)
    (hfin : ∀ c : Dev nD, EntropySpec.Finite (m ((c.tc : Thread nD τ).loc main_arg0))) :
    θ_run (defs (F := Ideal)) (onTc (τ := τ) (main (F := Ideal))) ⟨m, fun _ => 0, ρ⟩ (fun r => ∀ c : Dev nD,
      r.2.mem ((c.tc : Thread nD τ).loc main_v96) = EntropySpec.out0 (m ((c.tc : Thread nD τ).loc main_arg0))
      ∧ r.2.mem ((c.tc : Thread nD τ).loc main_v95) = EntropySpec.out1 (m ((c.tc : Thread nD τ).loc main_arg0))
      ∧ r.2.mem ((c.tc : Thread nD τ).loc main_v89) = EntropySpec.out2 (m ((c.tc : Thread nD τ).loc main_arg0))
      ∧ r.2.mem ((c.tc : Thread nD τ).loc main_v86) = EntropySpec.out3 (m ((c.tc : Thread nD τ).loc main_arg0))
      ∧ r.2.mem ((c.tc : Thread nD τ).loc main_v92) = EntropySpec.out4 (m ((c.tc : Thread nD τ).loc main_arg0))
      ∧ r.2.mem ((c.tc : Thread nD τ).loc main_arg0) = m ((c.tc : Thread nD τ).loc main_arg0)) := by
  refine (θ_run defs _ _).mono (fun r h c => ?_) (run_tail m ρ)
  obtain ⟨h0, h1, h2, h3, h4, h5⟩ := h c
  have H2 := Region.final_quant m c (hfin c)
  have H3 := Region.final_probs m c (hfin c)
  have H4 := Region.final_stats m c (hfin c)
  exact ⟨h0.trans (v96_value _ (arr2 m c) H2), h1.trans (v95_value _ (arr3 m c) (arr4 m c) H3 H4),
    h2.trans (v89_value _ (arr4 m c) H4), h3.trans (v86_value _ (arr3 m c) H3), h4.trans (v92_value _ (arr4 m c) H4), h5⟩

end Cert.KernelIdeal.Tail

end
-- ==== Proof.RefRunStages.lean ====
/-
  The reference program's run, stated over its stages.

  @main is a straight line of 194 operations; each writes one buffer of its own from buffers written earlier in the
  line, and none writes the argument.  So, run from any contents, the line leaves in each of its five result buffers
  that buffer's stage (`val_main_vN`: the operation applied to the stages of its operands, down to the argument) at
  the argument's contents, and leaves the argument as it was.  With `run_seq` this is the whole statement: every
  weakly fair execution terminates, and each result buffer ends at its stage's value of the input.

  The line is read in four stretches.  What a stretch leaves in a buffer depends only on what the stretch before it
  left in the few buffers that are read later, so each stretch is read from ARBITRARY contents that hold the stages in
  those buffers: through the logits (operations 0-126), through the guarded logits and the softmax (127-144), through
  the log-softmax the program calls as a function (145-158), and the rest (159-193).

  A called function's operations store a tensor value at a buffer, and read it back, across the identification of the
  buffer's type with the value's type.  Read back from where it was stored a value is itself; a stored value IS the
  value, the two types being the same type; so the call's result is the composite of its operations with no
  identification left in it, over the stages of what the call reads.  The third stretch starts at the call's maximum
  over the codes, so that the maximum is taken of its operand's stage by name.
-/
import proofs.«401730_j44306882625715_3_alg».proof.Proof.RefStages
import Idealize.ShloMosaic.Lib.StableHlo.Run

noncomputable section

namespace Cert.ReferenceIdeal.Stages

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-! ## A line read in two parts -/

/-- Running a line is running its first part, then the rest from where the first part ends. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

theorem after_split (k : Nat) (l : List (HloOp τ sig (Elt F))) (V : Valuation τ sig (Elt F)) :
    after l V = after (l.drop k) (after (l.take k) V) := by
  rw [← after_append, List.take_append_drop]

/-! ## Values stored at, and read from, a buffer of their own type -/

/-- Reading a tensor value back from the buffer it was stored in gives the value. -/
theorem ofBuf_toBuf {T : BufTy} (x : TRef sig T) (v : T.Contents (Elt F)) : x.ofBuf (x.toBuf v) = v := by
  obtain ⟨r, h, hd, hu⟩ := x
  subst h
  rfl

/-- A value stored at a buffer whose type is the value's is the value. -/
theorem toBuf_eq {T : BufTy} (x : TRef sig T) (v : T.Contents (Elt F)) (w : x.ref.ty.Contents (Elt F)) (h : HEq v w) :
    x.toBuf v = w :=
  eq_of_heq ((cast_heq _ v).trans h)

/-- A buffer's contents read at the value's type are the contents. -/
theorem ofBuf_eq {T : BufTy} (x : TRef sig T) (w : x.ref.ty.Contents (Elt F)) (v : T.Contents (Elt F)) (h : HEq w v) :
    x.ofBuf w = v :=
  eq_of_heq ((cast_heq _ w).trans h)

/-! ## The four stretches -/

set_option maxRecDepth 65536 in
set_option maxHeartbeats 20000000 in
/-- Operations 0-126, from any contents: the logits, the reshaped input and its sign quantisation are their stages at
    the argument, and the argument is as it was. -/
theorem stretch_logits (V : Valuation τ sig (Elt F)) :
    (after ((ops (F := F)).take 127) V (Proc.devRef .tc main_v76),
      after ((ops (F := F)).take 127) V (Proc.devRef .tc main_v0),
      after ((ops (F := F)).take 127) V (Proc.devRef .tc main_v3),
      after ((ops (F := F)).take 127) V (Proc.devRef .tc main_arg0))
      = (val_main_v76 (F := F) (V (Proc.devRef .tc main_arg0)), val_main_v0 (F := F) (V (Proc.devRef .tc main_arg0)), val_main_v3 (F := F) (V (Proc.devRef .tc main_arg0)), (V (Proc.devRef .tc main_arg0))) := by
  simp only [List.drop_succ_cons, List.drop_zero, List.take_succ_cons, List.take_zero]
  after_results_simp <;> rfl

set_option maxRecDepth 65536 in
set_option maxHeartbeats 20000000 in
/-- Operations 127-144, from contents that hold the stages of the logits, the reshaped input, its quantisation and the
    argument: the guarded logits, the `-∞` the call starts its maximum from and the softmax are their stages. -/
theorem stretch_softmax (x0 : (⟨S8x1024x14, .f32⟩ : BufTy).Contents (Elt F)) (W : Valuation τ sig (Elt F))
    (h_v76 : W (Proc.devRef .tc main_v76) = val_main_v76 (F := F) x0)
    (h_v0 : W (Proc.devRef .tc main_v0) = val_main_v0 (F := F) x0)
    (h_v3 : W (Proc.devRef .tc main_v3) = val_main_v3 (F := F) x0)
    (h_arg0 : W (Proc.devRef .tc main_arg0) = x0) :
    after (((ops (F := F)).drop 127).take 18) W (Proc.devRef .tc main_v89) = val_main_v89 (F := F) x0
      ∧ after (((ops (F := F)).drop 127).take 18) W (Proc.devRef .tc main_call8_cst) = val_main_call8_cst (F := F)
      ∧ after (((ops (F := F)).drop 127).take 18) W (Proc.devRef .tc main_v87) = val_main_v87 (F := F) x0
      ∧ after (((ops (F := F)).drop 127).take 18) W (Proc.devRef .tc main_v0) = val_main_v0 (F := F) x0
      ∧ after (((ops (F := F)).drop 127).take 18) W (Proc.devRef .tc main_v3) = val_main_v3 (F := F) x0
      ∧ after (((ops (F := F)).drop 127).take 18) W (Proc.devRef .tc main_arg0) = x0 := by
  refine ⟨?_, ?_, ?_, ?_, ?_, ?_⟩
  · simp only [List.drop_succ_cons, List.drop_zero, List.take_succ_cons, List.take_zero]
    after_results_simp
    rw [h_v76]
    rfl
  · simp only [List.drop_succ_cons, List.drop_zero, List.take_succ_cons, List.take_zero]
    after_results_simp
    exact toBuf_eq _ _ _ (heq_of_eq rfl)
  · simp only [List.drop_succ_cons, List.drop_zero, List.take_succ_cons, List.take_zero]
    after_results_simp
    rw [h_v76]
    rfl
  · simp only [List.drop_succ_cons, List.drop_zero, List.take_succ_cons, List.take_zero]
    after_results_simp
    exact h_v0
  · simp only [List.drop_succ_cons, List.drop_zero, List.take_succ_cons, List.take_zero]
    after_results_simp
    exact h_v3
  · simp only [List.drop_succ_cons, List.drop_zero, List.take_succ_cons, List.take_zero]
    after_results_simp
    exact h_arg0

set_option maxRecDepth 65536 in
set_option maxHeartbeats 20000000 in
/-- Operations 145-158, the called log-softmax, from contents that hold the stages of its operand, of its initial
    value and of what is read later: its result is its stage. -/
theorem stretch_logSoftmax (x0 : (⟨S8x1024x14, .f32⟩ : BufTy).Contents (Elt F)) (W : Valuation τ sig (Elt F))
    (h_v89 : W (Proc.devRef .tc main_v89) = val_main_v89 (F := F) x0)
    (h_call8_cst : W (Proc.devRef .tc main_call8_cst) = val_main_call8_cst (F := F))
    (h_v87 : W (Proc.devRef .tc main_v87) = val_main_v87 (F := F) x0)
    (h_v0 : W (Proc.devRef .tc main_v0) = val_main_v0 (F := F) x0)
    (h_v3 : W (Proc.devRef .tc main_v3) = val_main_v3 (F := F) x0)
    (h_arg0 : W (Proc.devRef .tc main_arg0) = x0) :
    after ((((ops (F := F)).drop 127).drop 18).take 14) W (Proc.devRef .tc main_v90) = val_main_v90 (F := F) x0
      ∧ after ((((ops (F := F)).drop 127).drop 18).take 14) W (Proc.devRef .tc main_v87) = val_main_v87 (F := F) x0
      ∧ after ((((ops (F := F)).drop 127).drop 18).take 14) W (Proc.devRef .tc main_v0) = val_main_v0 (F := F) x0
      ∧ after ((((ops (F := F)).drop 127).drop 18).take 14) W (Proc.devRef .tc main_v3) = val_main_v3 (F := F) x0
      ∧ after ((((ops (F := F)).drop 127).drop 18).take 14) W (Proc.devRef .tc main_arg0) = x0 := by
  have k89 : (TRef.of (T := ⟨S8x1024x1x16384, .f32⟩) main_v89).ofBuf (W (Proc.devRef .tc main_v89)) = val_main_v89 (F := F) x0 :=
    ofBuf_eq _ _ _ (heq_of_eq h_v89)
  have kcst : (TRef.of (T := ⟨S_, .f32⟩) main_call8_cst).ofBuf (W (Proc.devRef .tc main_call8_cst)) = val_main_call8_cst (F := F) :=
    ofBuf_eq _ _ _ (heq_of_eq h_call8_cst)
  refine ⟨?_, ?_, ?_, ?_, ?_⟩
  · simp only [List.drop_succ_cons, List.drop_zero, List.take_succ_cons, List.take_zero]
    after_results_simp
    simp only [ofBuf_toBuf]
    rw [k89, kcst]
    refine toBuf_eq _ _ _ (heq_of_eq ?_)
    rfl
  · simp only [List.drop_succ_cons, List.drop_zero, List.take_succ_cons, List.take_zero]
    after_results_simp
    exact h_v87
  · simp only [List.drop_succ_cons, List.drop_zero, List.take_succ_cons, List.take_zero]
    after_results_simp
    exact h_v0
  · simp only [List.drop_succ_cons, List.drop_zero, List.take_succ_cons, List.take_zero]
    after_results_simp
    exact h_v3
  · simp only [List.drop_succ_cons, List.drop_zero, List.take_succ_cons, List.take_zero]
    after_results_simp
    exact h_arg0

set_option maxRecDepth 65536 in
set_option maxHeartbeats 20000000 in
/-- Operations 159-193, from contents that hold the stages of the softmax, the log-softmax, the reshaped input, its
    quantisation and the argument: the five results are their stages, and the argument is as it was. -/
theorem stretch_results (x0 : (⟨S8x1024x14, .f32⟩ : BufTy).Contents (Elt F)) (W : Valuation τ sig (Elt F))
    (h_v90 : W (Proc.devRef .tc main_v90) = val_main_v90 (F := F) x0)
    (h_v87 : W (Proc.devRef .tc main_v87) = val_main_v87 (F := F) x0)
    (h_v0 : W (Proc.devRef .tc main_v0) = val_main_v0 (F := F) x0)
    (h_v3 : W (Proc.devRef .tc main_v3) = val_main_v3 (F := F) x0)
    (h_arg0 : W (Proc.devRef .tc main_arg0) = x0) :
    (after ((((ops (F := F)).drop 127).drop 18).drop 14) W (Proc.devRef .tc main_v114),
      after ((((ops (F := F)).drop 127).drop 18).drop 14) W (Proc.devRef .tc main_v107),
      after ((((ops (F := F)).drop 127).drop 18).drop 14) W (Proc.devRef .tc main_v104),
      after ((((ops (F := F)).drop 127).drop 18).drop 14) W (Proc.devRef .tc main_v99),
      after ((((ops (F := F)).drop 127).drop 18).drop 14) W (Proc.devRef .tc main_v111),
      after ((((ops (F := F)).drop 127).drop 18).drop 14) W (Proc.devRef .tc main_arg0))
      = (val_main_v114 (F := F) x0, val_main_v107 (F := F) x0, val_main_v104 (F := F) x0, val_main_v99 (F := F) x0, val_main_v111 (F := F) x0, x0) := by
  simp only [List.drop_succ_cons, List.drop_zero, List.take_succ_cons, List.take_zero]
  after_results_simp
  rw [h_v90, h_v87, h_v0, h_v3, h_arg0]
  rfl

/-! ## The whole line -/

/-- From any contents the line leaves each result buffer at its stage of the argument, and the argument as it was. -/
theorem after_ops (V : Valuation τ sig (Elt F)) :
    after ops V (Proc.devRef .tc main_v114) = val_main_v114 (F := F) (V (Proc.devRef .tc main_arg0))
      ∧ after ops V (Proc.devRef .tc main_v107) = val_main_v107 (F := F) (V (Proc.devRef .tc main_arg0))
      ∧ after ops V (Proc.devRef .tc main_v104) = val_main_v104 (F := F) (V (Proc.devRef .tc main_arg0))
      ∧ after ops V (Proc.devRef .tc main_v99) = val_main_v99 (F := F) (V (Proc.devRef .tc main_arg0))
      ∧ after ops V (Proc.devRef .tc main_v111) = val_main_v111 (F := F) (V (Proc.devRef .tc main_arg0))
      ∧ after ops V (Proc.devRef .tc main_arg0) = V (Proc.devRef .tc main_arg0) := by
  have hA := stretch_logits (F := F) V
  simp only [Prod.mk.injEq] at hA
  obtain ⟨a76, a0, a3, aa⟩ := hA
  obtain ⟨b89, bc, b87, b0, b3, ba⟩ :=
    stretch_softmax (F := F) (V (Proc.devRef .tc main_arg0)) (after ((ops (F := F)).take 127) V) a76 a0 a3 aa
  obtain ⟨c90, c87, c0, c3, ca⟩ :=
    stretch_logSoftmax (F := F) (V (Proc.devRef .tc main_arg0)) (after (((ops (F := F)).drop 127).take 18) (after ((ops (F := F)).take 127) V)) b89 bc b87 b0 b3 ba
  have hD := stretch_results (F := F) (V (Proc.devRef .tc main_arg0)) (after ((((ops (F := F)).drop 127).drop 18).take 14) (after (((ops (F := F)).drop 127).take 18) (after ((ops (F := F)).take 127) V))) c90 c87 c0 c3 ca
  simp only [Prod.mk.injEq] at hD
  have e : after ops V = after ((((ops (F := F)).drop 127).drop 18).drop 14) (after ((((ops (F := F)).drop 127).drop 18).take 14) (after (((ops (F := F)).drop 127).take 18) (after ((ops (F := F)).take 127) V))) := by
    rw [after_split 127 ops V, after_split 18 ((ops (F := F)).drop 127), after_split 14 (((ops (F := F)).drop 127).drop 18)]
  rw [e]
  exact hD

/-! ## The run -/

/-- On every device, for any float values, from any memory with zero counters: every weakly fair execution of @main
    terminates with each result buffer at its stage's value of the input, and the input unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v114) = val_main_v114 (F := F) (m ((c.tc : Thread nD τ).loc main_arg0))
      ∧ r.2.mem ((c.tc : Thread nD τ).loc main_v107) = val_main_v107 (F := F) (m ((c.tc : Thread nD τ).loc main_arg0))
      ∧ r.2.mem ((c.tc : Thread nD τ).loc main_v104) = val_main_v104 (F := F) (m ((c.tc : Thread nD τ).loc main_arg0))
      ∧ r.2.mem ((c.tc : Thread nD τ).loc main_v99) = val_main_v99 (F := F) (m ((c.tc : Thread nD τ).loc main_arg0))
      ∧ r.2.mem ((c.tc : Thread nD τ).loc main_v111) = val_main_v111 (F := F) (m ((c.tc : Thread nD τ).loc main_arg0))
      ∧ r.2.mem ((c.tc : Thread nD τ).loc main_arg0) = m ((c.tc : Thread nD τ).loc main_arg0) :=
  (θ_run defs _ _).mono (fun _ h c =>
      have a := after_ops (F := F) (launchContents m c)
      ⟨(h c main_v114).trans a.1, (h c main_v107).trans a.2.1, (h c main_v104).trans a.2.2.1,
        (h c main_v99).trans a.2.2.2.1, (h c main_v111).trans a.2.2.2.2.1, (h c main_arg0).trans a.2.2.2.2.2⟩)
    (run_seq scopedRefs_eq scopedSems_eq defs main (fun _ => ops) main_eq (fun _ => ops_sub) m ρ)

end Cert.ReferenceIdeal.Stages

end
-- ==== Proof.RefRow.lean ====
/-
  The reference program read one row at a time.

  Row `(b, l)` of the input, flattened, is row `r = 1024 b + l`.  For an input whose entries are real numbers the
  reference's logits against the sign codes are the scores of the weight row, its softmax is `exp (score - logZ)`,
  the entropy of that distribution is `logZ - ∑ d, w d * tanh (w d)`, the commitment error of a coordinate is
  `(x - quant x)²` and the straight-through output is the quantised input itself.  The two row maxima the reference
  subtracts before exponentiating are real numbers and cancel: the softmax and the log-softmax do not depend on the
  shift.
-/
import proofs.«401730_j44306882625715_3_alg».proof.Proof.RefStages
import proofs.«401730_j44306882625715_3_alg».proof.Proof.EntropySpec
import Idealize.ShloMosaic.PureOps.Ideal.Laws
import Idealize.ShloMosaic.PureOps.Reduce
import Idealize.ShloMosaic.Lib.ValueIdx
import Mathlib.Data.EReal.Basic
import Mathlib.Data.EReal.Operations

noncomputable section

namespace Cert.ReferenceIdeal.Row

open Cert.ReferenceIdeal Cert.ReferenceIdeal.Read Idealize.ShloMosaic Idealize.ShloMosaic.ValueIdx SignCodes

/-! ## Extended reals that are real numbers -/

/-- A finite sum of real numbers, each read as an extended real, is the real sum read as an extended real. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum, from `-∞`, of a nonempty finite family of real numbers is a real number: it is one of them. -/
theorem fold_max_coe {ι : Type*} (s : Finset ι) (hs : s.Nonempty) (g : ι → EReal) (hg : ∀ k, ∃ r : ℝ, g k = (r : EReal)) :
    ∃ M : ℝ, s.fold max ⊥ g = (M : EReal) := by
  obtain ⟨k, _, hk⟩ := Finset.exists_mem_eq_sup s hs g
  obtain ⟨r, hr⟩ := hg k
  exact ⟨r, by rw [← hr, ← hk]; rfl⟩

theorem max_bot_coe (M : ℝ) : max (⊥ : EReal) (M : EReal) = (M : EReal) := max_eq_right bot_le

/-- The reference's maximum over one axis, from `-∞`, of an array of real numbers is a real number at every index. -/
theorem hostReduce_max_coe {s t u : Shape} {a : Fin s.rank} (x : s.Idx → Ideal .f32) (init : u.Idx → Ideal .f32)
    (h' : s.ReducesTo [a] t) (h : s.Reduces [a] t) (hu : 0 < u.numel) (hpos : 0 < s.size a)
    (hinit : init (Shape.Idx.first hu) = (⊥ : EReal)) (hx : ∀ i, ∃ r : ℝ, x i = (r : EReal)) (j : t.Idx) :
    ∃ M : ℝ, Host.reduce FloatOps.maximumf x init h' hu j = (M : EReal) := by
  rw [Host.reduce_eq_fold_single FloatOps.maximumf x init h' h hu j, hinit]
  haveI : Nonempty (Fin (s.size a)) := ⟨⟨0, hpos⟩⟩
  exact fold_max_coe Finset.univ Finset.univ_nonempty _ (fun k => hx _)

/-- A quotient of real numbers by a nonzero real. -/
theorem div_coe_coe (a : ℝ) {z : ℝ} (hz : z ≠ 0) : Ideal.div (a : EReal) (z : EReal) = ((a / z : ℝ) : EReal) := by
  rw [Ideal.div_coe hz, ← EReal.coe_mul, mul_one_div]

/-- The logarithm of a positive real. -/
theorem log_coe_pos {z : ℝ} (hz : 0 < z) : Ideal.log (z : EReal) = ((Real.log z : ℝ) : EReal) := by
  rw [Ideal.log_coe, if_neg (not_le.mpr hz)]

theorem sum_exp_pos (s : Fin 16384 → ℝ) : 0 < ∑ k : Fin 16384, Real.exp (s k) :=
  Finset.sum_pos (fun _ _ => Real.exp_pos _) Finset.univ_nonempty

/-! ## The float words -/

/-- The guard the reference adds to the logits before the log-softmax: the rational its word `0x3727C5AC` encodes. -/
def eps : ℝ := 10995116 / 1099511627776

theorem word_two : Ideal.ofBits .f32 0x40000000#32 = ((2 : ℝ) : EReal) := by
  simp [Ideal.ofBits, Ideal.ieee]
  rw [← EReal.coe_mul, EReal.coe_eq_coe_iff]; norm_num
theorem word_one : Ideal.ofBits .f32 0x3F800000#32 = ((1 : ℝ) : EReal) := by
  simp [Ideal.ofBits, Ideal.ieee]
  rw [← EReal.coe_mul, ← EReal.coe_one, EReal.coe_eq_coe_iff]; norm_num
theorem word_negone : Ideal.ofBits .f32 0xBF800000#32 = ((-1 : ℝ) : EReal) := by
  simp [Ideal.ofBits, Ideal.ieee]
  rw [← EReal.coe_mul, ← EReal.coe_one, EReal.coe_eq_coe_iff]; norm_num
theorem word_neginf : Ideal.ofBits .f32 0xFF800000#32 = (⊥ : EReal) := by
  simp [Ideal.ofBits, Ideal.ieee]
theorem word_temp : Ideal.ofBits .f32 0x3C23D70A#32 = ((EntropySpec.temp : ℝ) : EReal) := by
  unfold EntropySpec.temp
  simp [Ideal.ofBits, Ideal.ieee]
  rw [← EReal.coe_mul, EReal.coe_eq_coe_iff]; norm_num
theorem word_eps : Ideal.ofBits .f32 0x3727C5AC#32 = ((eps : ℝ) : EReal) := by
  unfold eps
  simp [Ideal.ofBits, Ideal.ieee]
  rw [← EReal.coe_mul, EReal.coe_eq_coe_iff]; norm_num

theorem temp_ne_zero : EntropySpec.temp ≠ 0 := by unfold EntropySpec.temp; norm_num

/-- Twice the dot product of a row with a sign code, over the temperature, is the code's score under the scaled row. -/
theorem score_of_dot (t : Fin 14 → ℝ) (j : Fin 16384) :
    2 * (∑ k : Fin 14, t k * sgn j.val k.val) * (1 / EntropySpec.temp) = score (fun d => t d * EntropySpec.scale) j := by
  unfold score
  rw [EntropySpec.scale_eq, Finset.mul_sum, Finset.sum_mul]
  refine Finset.sum_congr rfl (fun d _ => ?_)
  ring

/-- `select (t > 0) 1 (-1)` on a real number is its sign quantisation. -/
theorem select_gt_zero (t : ℝ) :
    Scalar.select (FloatOps.cmpf (F := Ideal) (φ := .f32) .ogt (t : EReal) (Ideal.ofBits .f32 0x00000000#32))
        (Ideal.ofBits .f32 0x3F800000#32) (Ideal.ofBits .f32 0xBF800000#32)
      = ((EntropySpec.quant t : ℝ) : EReal) := by
  rw [Ideal.cmpf_def, Ideal.ofBits_zero_f32, word_one, word_negone]
  unfold EntropySpec.quant Scalar.select Ideal.cmp
  by_cases h : 0 < t
  · have h' : (0 : EReal) < (t : EReal) := EReal.coe_pos.mpr h
    simp [h, h']
  · have h' : ¬ (0 : EReal) < (t : EReal) := fun hh => h (EReal.coe_pos.mp hh)
    simp [h, h']

/-! ## Index bookkeeping: row `1024 b + l` is `(b, l)` -/

theorem rowIdx_eq (b : Fin 8) (l : Fin 1024) (d : Fin 14) :
    EntropySpec.rowIdx (1024 * b.val + l.val) d = ix3 b l d := by
  have hb := b.isLt; have hl := l.isLt
  unfold EntropySpec.rowIdx
  have e0 : (1024 * b.val + l.val) / 1024 % 8 = b.val := by omega
  have e1 : (1024 * b.val + l.val) % 1024 = l.val := by omega
  funext a
  match a with
  | ⟨0, _⟩ => exact Fin.ext e0
  | ⟨1, _⟩ => exact Fin.ext e1
  | ⟨2, _⟩ => rfl

theorem idx_v0_ix4 (b : Fin 8) (l : Fin 1024) (d : Fin 14) :
    idx_main_v0 (ix4 b l (0 : Fin 1) d) = ix3 b l d := by
  have hb := b.isLt; have hl := l.isLt; have hd := d.isLt
  funext a
  match a with
  | ⟨0, _⟩ => exact Fin.ext (by show (((b.val * 1024 + l.val) * 1 + 0) * 14 + d.val) / 14336 = b.val; omega)
  | ⟨1, _⟩ => exact Fin.ext (by show (((b.val * 1024 + l.val) * 1 + 0) * 14 + d.val) / 14 % 1024 = l.val; omega)
  | ⟨2, _⟩ => exact Fin.ext (by show (((b.val * 1024 + l.val) * 1 + 0) * 14 + d.val) % 14 = d.val; omega)

theorem idx_v114_ix3 (b : Fin 8) (l : Fin 1024) (d : Fin 14) :
    idx_main_v114 (ix3 b l d) = ix4 b l (0 : Fin 1) d := by
  have hb := b.isLt; have hl := l.isLt; have hd := d.isLt
  funext a
  match a with
  | ⟨0, _⟩ => exact Fin.ext (by show ((b.val * 1024 + l.val) * 14 + d.val) / 14336 = b.val; omega)
  | ⟨1, _⟩ => exact Fin.ext (by show ((b.val * 1024 + l.val) * 14 + d.val) / 14 % 1024 = l.val; omega)
  | ⟨2, _⟩ => rfl
  | ⟨3, _⟩ => exact Fin.ext (by show ((b.val * 1024 + l.val) * 14 + d.val) % 14 = d.val; omega)

theorem lidx_v72_ix4 (b : Fin 8) (l : Fin 1024) (j : Fin 16384) (k : Fin 14) :
    lidx_main_v72 (ix4 b l (0 : Fin 1) j) k = ix4 b l (0 : Fin 1) k := by
  funext a
  match a with
  | ⟨0, _⟩ => rfl
  | ⟨1, _⟩ => rfl
  | ⟨2, _⟩ => rfl
  | ⟨3, _⟩ => rfl

theorem ridx_v72_ix4 (b : Fin 8) (l : Fin 1024) (j : Fin 16384) (k : Fin 14) :
    ridx_main_v72 (ix4 b l (0 : Fin 1) j) k = ix2 j k := by
  funext a
  match a with
  | ⟨0, _⟩ => rfl
  | ⟨1, _⟩ => rfl

theorem idx_v80_v81_ix4 (b : Fin 8) (l : Fin 1024) (j : Fin 16384) :
    idx_main_v80 (idx_main_v81 (ix4 b l (0 : Fin 1) j)) = ix3 b l (0 : Fin 1) := by
  funext a
  match a with
  | ⟨0, _⟩ => rfl
  | ⟨1, _⟩ => rfl
  | ⟨2, _⟩ => rfl

theorem idx_v85_v86_ix4 (b : Fin 8) (l : Fin 1024) (j : Fin 16384) :
    idx_main_v85 (idx_main_v86 (ix4 b l (0 : Fin 1) j)) = ix3 b l (0 : Fin 1) := by
  funext a
  match a with
  | ⟨0, _⟩ => rfl
  | ⟨1, _⟩ => rfl
  | ⟨2, _⟩ => rfl

theorem idx_c8v3_c8v4_ix4 (b : Fin 8) (l : Fin 1024) (j : Fin 16384) :
    idx_main_call8_v3 (idx_main_call8_v4 (ix4 b l (0 : Fin 1) j)) = ix3 b l (0 : Fin 1) := by
  funext a
  match a with
  | ⟨0, _⟩ => rfl
  | ⟨1, _⟩ => rfl
  | ⟨2, _⟩ => rfl

theorem idx_c8v8_c8v10_ix4 (b : Fin 8) (l : Fin 1024) (j : Fin 16384) :
    idx_main_call8_v8 (idx_main_call8_v10 (ix4 b l (0 : Fin 1) j)) = ix3 b l (0 : Fin 1) := by
  funext a
  match a with
  | ⟨0, _⟩ => rfl
  | ⟨1, _⟩ => rfl
  | ⟨2, _⟩ => rfl

theorem idx_v84_ix3 (b : Fin 8) (l : Fin 1024) (k : Fin 16384) :
    idx_main_v84 (ix3 b l (0 : Fin 1)) k = ix4 b l (0 : Fin 1) k := by
  funext a
  match a with
  | ⟨0, _⟩ => rfl
  | ⟨1, _⟩ => rfl
  | ⟨2, _⟩ => rfl
  | ⟨3, _⟩ => rfl

theorem idx_c8v7_ix3 (b : Fin 8) (l : Fin 1024) (k : Fin 16384) :
    idx_main_call8_v7 (ix3 b l (0 : Fin 1)) k = ix4 b l (0 : Fin 1) k := by
  funext a
  match a with
  | ⟨0, _⟩ => rfl
  | ⟨1, _⟩ => rfl
  | ⟨2, _⟩ => rfl
  | ⟨3, _⟩ => rfl

theorem idx_v101_ix3 (b : Fin 8) (l : Fin 1024) (k : Fin 16384) :
    idx_main_v101 (ix3 b l (0 : Fin 1)) k = ix4 b l (0 : Fin 1) k := by
  funext a
  match a with
  | ⟨0, _⟩ => rfl
  | ⟨1, _⟩ => rfl
  | ⟨2, _⟩ => rfl
  | ⟨3, _⟩ => rfl

/-- The third axis of the logits has extent one. -/
theorem eq_ix4_zero (i : S8x1024x1x16384.Idx) : i = ix4 (i 0) (i 1) (0 : Fin 1) (i 3) := by
  have h := eq_ix4 i
  have h2 : i 2 = (0 : Fin 1) := Fin.ext (by have h1 : (i 2).val < 1 := (i 2).isLt; show (i 2).val = 0; omega)
  rw [h2] at h
  exact h

/-! ## The input row and the logits -/

/-- The reshaped input at `(b, l, 0, d)` is coordinate `d` of row `1024 b + l`. -/
theorem v0_row (x0 : (⟨S8x1024x14, .f32⟩ : BufTy).Contents (Elt Ideal)) (hfin : EntropySpec.Finite x0) (b : Fin 8) (l : Fin 1024) (d : Fin 14) :
    val_main_v0 (F := Ideal) x0 (ix4 b l (0 : Fin 1) d) = ((EntropySpec.row x0 (1024 * b.val + l.val) d : ℝ) : EReal) := by
  rw [val_main_v0_apply, idx_v0_ix4]
  unfold EntropySpec.row
  rw [rowIdx_eq]
  exact hfin _

/-- The logits of row `(b, l)` are the scores of its weight row. -/
theorem logits_apply (x0 : (⟨S8x1024x14, .f32⟩ : BufTy).Contents (Elt Ideal)) (hfin : EntropySpec.Finite x0)
    (hcb : ∀ (j : Fin 16384) (d : Fin 14), val_main_v71 (F := Ideal) (ix2 j d) = ((sgn j.val d.val : ℝ) : EReal))
    (b : Fin 8) (l : Fin 1024) (j : Fin 16384) :
    val_main_v76 (F := Ideal) x0 (ix4 b l (0 : Fin 1) j) = ((score (EntropySpec.wrow x0 (1024 * b.val + l.val)) j : ℝ) : EReal) := by
  have hdot : ∀ k : Fin 14, val_main_v0 (F := Ideal) x0 (lidx_main_v72 (ix4 b l (0 : Fin 1) j) k)
        * val_main_v71 (F := Ideal) (ridx_main_v72 (ix4 b l (0 : Fin 1) j) k)
      = ((EntropySpec.row x0 (1024 * b.val + l.val) k * sgn j.val k.val : ℝ) : EReal) := fun k => by
    rw [lidx_v72_ix4, ridx_v72_ix4, v0_row x0 hfin, hcb, ← EReal.coe_mul]
  rw [val_main_v76_apply, val_main_v74_apply, val_main_v73_apply, val_main_cst_24_apply, val_main_v75_apply,
    val_main_cst_25_apply, val_main_v72_apply, Finset.sum_congr rfl (fun k _ => hdot k), coe_sum]
  simp only [Ideal.hostDivf_def, Ideal.mulf_def, Ideal.ofBits_def, word_two, word_temp]
  rw [← EReal.coe_mul, Ideal.div_coe temp_ne_zero, ← EReal.coe_mul, score_of_dot]
  rfl

/-- Every logit is a real number. -/
theorem logits_real (x0 : (⟨S8x1024x14, .f32⟩ : BufTy).Contents (Elt Ideal)) (hfin : EntropySpec.Finite x0)
    (hcb : ∀ (j : Fin 16384) (d : Fin 14), val_main_v71 (F := Ideal) (ix2 j d) = ((sgn j.val d.val : ℝ) : EReal))
    (i : S8x1024x1x16384.Idx) : ∃ r : ℝ, val_main_v76 (F := Ideal) x0 i = (r : EReal) :=
  ⟨_, (congrArg (val_main_v76 (F := Ideal) x0) (eq_ix4_zero i)).trans (logits_apply x0 hfin hcb (i 0) (i 1) (i 3))⟩

/-! ## The softmax -/

/-- The row maximum the softmax subtracts is a real number. -/
theorem rowMax_real (x0 : (⟨S8x1024x14, .f32⟩ : BufTy).Contents (Elt Ideal)) (hfin : EntropySpec.Finite x0)
    (hcb : ∀ (j : Fin 16384) (d : Fin 14), val_main_v71 (F := Ideal) (ix2 j d) = ((sgn j.val d.val : ℝ) : EReal))
    (b : Fin 8) (l : Fin 1024) : ∃ M : ℝ, val_main_v79 (F := Ideal) x0 (ix3 b l (0 : Fin 1)) = (M : EReal) := by
  obtain ⟨M, hM⟩ := hostReduce_max_coe (val_main_v76 (F := Ideal) x0) (val_main_cst_26 (F := Ideal))
    Gen.reducesTo_S8x1024x1x16384_S8x1024x1_d3 (by decide) Gen.h_S_ (by show 0 < 16384; norm_num)
    (by rw [val_main_cst_26_apply, Ideal.ofBits_def, word_neginf]) (logits_real x0 hfin hcb) (ix3 b l (0 : Fin 1))
  refine ⟨M, ?_⟩
  rw [val_main_v79_apply, val_main_v78_apply, val_main_cst_27_apply, Ideal.ofBits_def, word_neginf, Ideal.maximumf_def]
  unfold val_main_v77
  rw [hM]
  exact max_bot_coe M

section Softmax

variable (x0 : (⟨S8x1024x14, .f32⟩ : BufTy).Contents (Elt Ideal)) (hfin : EntropySpec.Finite x0)
  (hcb : ∀ (j : Fin 16384) (d : Fin 14), val_main_v71 (F := Ideal) (ix2 j d) = ((sgn j.val d.val : ℝ) : EReal))
  (b : Fin 8) (l : Fin 1024) (M : ℝ) (hM : val_main_v79 (F := Ideal) x0 (ix3 b l (0 : Fin 1)) = (M : EReal))
include hfin hcb hM

theorem v83_row (j : Fin 16384) :
    val_main_v83 (F := Ideal) x0 (ix4 b l (0 : Fin 1) j) = ((Real.exp (score (EntropySpec.wrow x0 (1024 * b.val + l.val)) j - M) : ℝ) : EReal) := by
  rw [val_main_v83_apply, val_main_v82_apply, val_main_v81_apply, val_main_v80_apply, idx_v80_v81_ix4, hM,
    logits_apply x0 hfin hcb, Ideal.hostUnary_exp_def, Ideal.subf_def, ← EReal.coe_sub, Ideal.exp_coe]

theorem v84_row :
    val_main_v84 (F := Ideal) x0 (ix3 b l (0 : Fin 1))
      = ((∑ k : Fin 16384, Real.exp (score (EntropySpec.wrow x0 (1024 * b.val + l.val)) k - M) : ℝ) : EReal) := by
  rw [val_main_v84_apply, val_main_cst_28_apply, Ideal.ofBits_def, Ideal.ofBits_zero_f32, zero_add]
  refine Eq.trans (Finset.sum_congr rfl (fun k _ => ?_)) (coe_sum _ _)
  rw [idx_v84_ix3]
  exact v83_row x0 hfin hcb b l M hM k

/-- The softmax of row `(b, l)`, as the reference computes it with the shift `M`. -/
theorem v87_row (j : Fin 16384) :
    val_main_v87 (F := Ideal) x0 (ix4 b l (0 : Fin 1) j)
      = ((Real.exp (score (EntropySpec.wrow x0 (1024 * b.val + l.val)) j - M) / ∑ k : Fin 16384, Real.exp (score (EntropySpec.wrow x0 (1024 * b.val + l.val)) k - M) : ℝ) : EReal) := by
  rw [val_main_v87_apply, val_main_v86_apply, val_main_v85_apply, idx_v85_v86_ix4, v84_row x0 hfin hcb b l M hM,
    v83_row x0 hfin hcb b l M hM, Ideal.hostDivf_def, div_coe_coe _ (sum_exp_pos _).ne']

end Softmax

/-- The softmax probabilities of row `(b, l)`. -/
theorem prob_apply (x0 : (⟨S8x1024x14, .f32⟩ : BufTy).Contents (Elt Ideal)) (hfin : EntropySpec.Finite x0)
    (hcb : ∀ (j : Fin 16384) (d : Fin 14), val_main_v71 (F := Ideal) (ix2 j d) = ((sgn j.val d.val : ℝ) : EReal))
    (b : Fin 8) (l : Fin 1024) (j : Fin 16384) :
    val_main_v87 (F := Ideal) x0 (ix4 b l (0 : Fin 1) j) = ((EntropySpec.prob x0 (1024 * b.val + l.val) j : ℝ) : EReal) := by
  obtain ⟨M, hM⟩ := rowMax_real x0 hfin hcb b l
  rw [v87_row x0 hfin hcb b l M hM, row_prob]
  rfl

/-! ## The log-softmax of the guarded logits -/

theorem v89_row (x0 : (⟨S8x1024x14, .f32⟩ : BufTy).Contents (Elt Ideal)) (hfin : EntropySpec.Finite x0)
    (hcb : ∀ (j : Fin 16384) (d : Fin 14), val_main_v71 (F := Ideal) (ix2 j d) = ((sgn j.val d.val : ℝ) : EReal))
    (b : Fin 8) (l : Fin 1024) (j : Fin 16384) :
    val_main_v89 (F := Ideal) x0 (ix4 b l (0 : Fin 1) j) = ((score (EntropySpec.wrow x0 (1024 * b.val + l.val)) j + eps : ℝ) : EReal) := by
  rw [val_main_v89_apply, val_main_v88_apply, val_main_cst_29_apply, Ideal.ofBits_def, word_eps,
    logits_apply x0 hfin hcb, Ideal.addf_def, ← EReal.coe_add]

theorem v89_real (x0 : (⟨S8x1024x14, .f32⟩ : BufTy).Contents (Elt Ideal)) (hfin : EntropySpec.Finite x0)
    (hcb : ∀ (j : Fin 16384) (d : Fin 14), val_main_v71 (F := Ideal) (ix2 j d) = ((sgn j.val d.val : ℝ) : EReal))
    (i : S8x1024x1x16384.Idx) : ∃ r : ℝ, val_main_v89 (F := Ideal) x0 i = (r : EReal) :=
  ⟨_, (congrArg (val_main_v89 (F := Ideal) x0) (eq_ix4_zero i)).trans (v89_row x0 hfin hcb (i 0) (i 1) (i 3))⟩

/-- The row maximum the log-softmax subtracts is a real number. -/
theorem rowMax'_real (x0 : (⟨S8x1024x14, .f32⟩ : BufTy).Contents (Elt Ideal)) (hfin : EntropySpec.Finite x0)
    (hcb : ∀ (j : Fin 16384) (d : Fin 14), val_main_v71 (F := Ideal) (ix2 j d) = ((sgn j.val d.val : ℝ) : EReal))
    (b : Fin 8) (l : Fin 1024) : ∃ M : ℝ, val_main_call8_v2 (F := Ideal) x0 (ix3 b l (0 : Fin 1)) = (M : EReal) := by
  obtain ⟨M, hM⟩ := hostReduce_max_coe (val_main_v89 (F := Ideal) x0) (val_main_call8_cst (F := Ideal))
    Gen.reducesTo_S8x1024x1x16384_S8x1024x1_d3 (by decide) Gen.h_S_ (by show 0 < 16384; norm_num)
    (by rw [val_main_call8_cst_apply, Ideal.ofBits_def, word_neginf]) (v89_real x0 hfin hcb) (ix3 b l (0 : Fin 1))
  refine ⟨M, ?_⟩
  rw [val_main_call8_v2_apply, val_main_call8_v1_apply, val_main_call8_cst_0_apply, Ideal.ofBits_def, word_neginf,
    Ideal.maximumf_def]
  unfold val_main_call8_v0
  rw [hM]
  exact max_bot_coe M

section LogSoftmax

variable (x0 : (⟨S8x1024x14, .f32⟩ : BufTy).Contents (Elt Ideal)) (hfin : EntropySpec.Finite x0)
  (hcb : ∀ (j : Fin 16384) (d : Fin 14), val_main_v71 (F := Ideal) (ix2 j d) = ((sgn j.val d.val : ℝ) : EReal))
  (b : Fin 8) (l : Fin 1024) (M' : ℝ) (hM' : val_main_call8_v2 (F := Ideal) x0 (ix3 b l (0 : Fin 1)) = (M' : EReal))
include hfin hcb hM'

theorem c8v5_row (j : Fin 16384) :
    val_main_call8_v5 (F := Ideal) x0 (ix4 b l (0 : Fin 1) j) = ((score (EntropySpec.wrow x0 (1024 * b.val + l.val)) j + eps - M' : ℝ) : EReal) := by
  rw [val_main_call8_v5_apply, val_main_call8_v4_apply, val_main_call8_v3_apply, idx_c8v3_c8v4_ix4, hM',
    v89_row x0 hfin hcb, Ideal.subf_def, ← EReal.coe_sub]

theorem c8v6_row (j : Fin 16384) :
    val_main_call8_v6 (F := Ideal) x0 (ix4 b l (0 : Fin 1) j)
      = ((Real.exp (score (EntropySpec.wrow x0 (1024 * b.val + l.val)) j + eps - M') : ℝ) : EReal) := by
  rw [val_main_call8_v6_apply, c8v5_row x0 hfin hcb b l M' hM', Ideal.hostUnary_exp_def, Ideal.exp_coe]

theorem c8v7_row :
    val_main_call8_v7 (F := Ideal) x0 (ix3 b l (0 : Fin 1))
      = ((∑ k : Fin 16384, Real.exp (score (EntropySpec.wrow x0 (1024 * b.val + l.val)) k + eps - M') : ℝ) : EReal) := by
  rw [val_main_call8_v7_apply, val_main_call8_cst_1_apply, Ideal.ofBits_def, Ideal.ofBits_zero_f32, zero_add]
  refine Eq.trans (Finset.sum_congr rfl (fun k _ => ?_)) (coe_sum _ _)
  rw [idx_c8v7_ix3]
  exact c8v6_row x0 hfin hcb b l M' hM' k

/-- The log-softmax of the guarded logits of row `(b, l)`, as the reference computes it with the shift `M'`. -/
theorem v90_row (j : Fin 16384) :
    val_main_v90 (F := Ideal) x0 (ix4 b l (0 : Fin 1) j)
      = (((score (EntropySpec.wrow x0 (1024 * b.val + l.val)) j + eps - M')
          - Real.log (∑ k : Fin 16384, Real.exp (score (EntropySpec.wrow x0 (1024 * b.val + l.val)) k + eps - M')) : ℝ) : EReal) := by
  rw [val_main_v90_apply, val_main_call8_v10_apply, val_main_call8_v9_apply, val_main_call8_v8_apply, idx_c8v8_c8v10_ix4,
    c8v7_row x0 hfin hcb b l M' hM', c8v5_row x0 hfin hcb b l M' hM', Ideal.hostUnary_log_def,
    log_coe_pos (sum_exp_pos _), Ideal.subf_def, ← EReal.coe_sub]

end LogSoftmax

/-! ## The row entropy -/

/-- The entropy of the softmax distribution of row `(b, l)`. -/
theorem rowEnt_apply (x0 : (⟨S8x1024x14, .f32⟩ : BufTy).Contents (Elt Ideal)) (hfin : EntropySpec.Finite x0)
    (hcb : ∀ (j : Fin 16384) (d : Fin 14), val_main_v71 (F := Ideal) (ix2 j d) = ((sgn j.val d.val : ℝ) : EReal))
    (b : Fin 8) (l : Fin 1024) :
    val_main_v102 (F := Ideal) x0 (ix3 b l (0 : Fin 1)) = ((EntropySpec.rowEnt x0 (1024 * b.val + l.val) : ℝ) : EReal) := by
  obtain ⟨M, hM⟩ := rowMax_real x0 hfin hcb b l
  obtain ⟨M', hM'⟩ := rowMax'_real x0 hfin hcb b l
  have hterm : ∀ k : Fin 16384, val_main_v100 (F := Ideal) x0 (idx_main_v101 (ix3 b l (0 : Fin 1)) k)
      = (((Real.exp (score (EntropySpec.wrow x0 (1024 * b.val + l.val)) k - M) / ∑ k' : Fin 16384, Real.exp (score (EntropySpec.wrow x0 (1024 * b.val + l.val)) k' - M))
          * ((score (EntropySpec.wrow x0 (1024 * b.val + l.val)) k + eps - M')
            - Real.log (∑ k' : Fin 16384, Real.exp (score (EntropySpec.wrow x0 (1024 * b.val + l.val)) k' + eps - M'))) : ℝ) : EReal) := fun k => by
    rw [idx_v101_ix3, val_main_v100_apply, v87_row x0 hfin hcb b l M hM, v90_row x0 hfin hcb b l M' hM', Ideal.mulf_def,
      ← EReal.coe_mul]
  rw [val_main_v102_apply, val_main_v101_apply, val_main_cst_34_apply, Ideal.ofBits_def, Ideal.ofBits_zero_f32, zero_add,
    Finset.sum_congr rfl (fun k _ => hterm k), coe_sum, Ideal.hostNegf_def, Ideal.negf_def, ← EReal.coe_neg, row_entropy]
  rfl

/-! ## The commitment error and the quantised output -/

/-- The sign quantisation the reference selects, at any index of the reshaped input. -/
theorem v3_at (x0 : (⟨S8x1024x14, .f32⟩ : BufTy).Contents (Elt Ideal)) (hfin : EntropySpec.Finite x0) (i : S8x1024x1x14.Idx) :
    val_main_v3 (F := Ideal) x0 i = ((EntropySpec.quant (x0 (idx_main_v0 i)).toReal : ℝ) : EReal) := by
  obtain ⟨t, ht⟩ : ∃ t : ℝ, x0 (idx_main_v0 i) = (t : EReal) := ⟨_, hfin _⟩
  rw [val_main_v3_apply, val_main_v2_apply, val_main_v1_apply, val_main_cst_apply, val_main_call0_v0_apply,
    val_main_cst_0_apply, val_main_call0_v1_apply, val_main_cst_1_apply, val_main_v0_apply, ht, EReal.toReal_coe]
  exact select_gt_zero t

/-- The squared commitment error of coordinate `d` of row `(b, l)`. -/
theorem sq_apply (x0 : (⟨S8x1024x14, .f32⟩ : BufTy).Contents (Elt Ideal)) (hfin : EntropySpec.Finite x0) (b : Fin 8) (l : Fin 1024) (d : Fin 14) :
    val_main_v109 (F := Ideal) x0 (ix4 b l (0 : Fin 1) d)
      = (((EntropySpec.row x0 (1024 * b.val + l.val) d - EntropySpec.quant (EntropySpec.row x0 (1024 * b.val + l.val) d))
          * (EntropySpec.row x0 (1024 * b.val + l.val) d - EntropySpec.quant (EntropySpec.row x0 (1024 * b.val + l.val) d)) : ℝ) : EReal) := by
  have h3 : val_main_v3 (F := Ideal) x0 (ix4 b l (0 : Fin 1) d)
      = ((EntropySpec.quant (EntropySpec.row x0 (1024 * b.val + l.val) d) : ℝ) : EReal) := by
    rw [v3_at x0 hfin, idx_v0_ix4]
    unfold EntropySpec.row
    rw [rowIdx_eq]
  rw [val_main_v109_apply, val_main_v108_apply, v0_row x0 hfin, h3, Ideal.subf_def, Ideal.mulf_def, ← EReal.coe_sub,
    ← EReal.coe_mul]

/-- Reshaping to rank four and back is the identity on indices. -/
theorem idx_v0_v114 (i : S8x1024x14.Idx) : idx_main_v0 (idx_main_v114 i) = i := by
  have h0 : (i 0).val < 8 := (i 0).isLt
  have h1 : (i 1).val < 1024 := (i 1).isLt
  have h2 : (i 2).val < 14 := (i 2).isLt
  funext a
  match a with
  | ⟨0, _⟩ => exact Fin.ext (by show (((((((i 0).val * 1024 + (i 1).val) * 14 + (i 2).val) / 14336) * 1024 + (((i 0).val * 1024 + (i 1).val) * 14 + (i 2).val) / 14 % 1024) * 1 + 0) * 14 + (((i 0).val * 1024 + (i 1).val) * 14 + (i 2).val) % 14) / 14336 = (i 0).val; omega)
  | ⟨1, _⟩ => exact Fin.ext (by show (((((((i 0).val * 1024 + (i 1).val) * 14 + (i 2).val) / 14336) * 1024 + (((i 0).val * 1024 + (i 1).val) * 14 + (i 2).val) / 14 % 1024) * 1 + 0) * 14 + (((i 0).val * 1024 + (i 1).val) * 14 + (i 2).val) % 14) / 14 % 1024 = (i 1).val; omega)
  | ⟨2, _⟩ => exact Fin.ext (by show (((((((i 0).val * 1024 + (i 1).val) * 14 + (i 2).val) / 14336) * 1024 + (((i 0).val * 1024 + (i 1).val) * 14 + (i 2).val) / 14 % 1024) * 1 + 0) * 14 + (((i 0).val * 1024 + (i 1).val) * 14 + (i 2).val) % 14) % 14 = (i 2).val; omega)

/-- The straight-through output is the quantised input. -/
theorem quant_out (x0 : (⟨S8x1024x14, .f32⟩ : BufTy).Contents (Elt Ideal)) (hfin : EntropySpec.Finite x0) :
    val_main_v114 (F := Ideal) x0 = EntropySpec.out0 x0 := by
  funext i
  obtain ⟨t, ht⟩ : ∃ t : ℝ, x0 i = (t : EReal) := ⟨_, hfin i⟩
  rw [val_main_v114_apply, val_main_v113_apply, val_main_v112_apply, v3_at x0 hfin, val_main_v0_apply, idx_v0_v114]
  unfold EntropySpec.out0
  rw [ht, EReal.toReal_coe, Ideal.addf_def, Ideal.subf_def, ← EReal.coe_sub, ← EReal.coe_add]
  congr 1
  ring

end Cert.ReferenceIdeal.Row

end
-- ==== Proof.CodebookRef.lean ====
/-
  The reference program's sign codebook, entry by entry.

  The reference builds the codebook `[16384, 14]` with integer words: the codes `0 … 16383`, the 14 masks `2 ^ d`
  (each from its coordinate by exponentiation by squaring), the bit `(code &&& mask) ≠ 0` as a float, doubled, less
  one.  Read at an index, operation by operation, the mask at coordinate `d` is the mask word of `d`
  (`mask_apply`), and the codebook's entry at code `j`, coordinate `d` is `+1` if bit `d` of `j` is set and `-1`
  otherwise, `SignCodes.sgn j d` (`codebook_apply`).
-/
import proofs.«401730_j44306882625715_3_alg».proof.Proof.RefStages
import proofs.«401730_j44306882625715_3_alg».proof.Proof.SignCodeSums
import proofs.«401730_j44306882625715_3_alg».proof.Proof.CodebookBits

noncomputable section

namespace Cert.ReferenceIdeal.Codebook

open Cert.ReferenceIdeal Cert.ReferenceIdeal.Read Idealize.ShloMosaic Idealize.ShloMosaic.ValueIdx

set_option maxRecDepth 8192 in
set_option maxHeartbeats 4000000 in
/-- The mask at a coordinate is the mask word of the coordinate's word. -/
theorem mask_apply (i : S14.Idx) :
    val_main_v56 (F := Ideal) i = CodebookBits.maskWord (BitVec.ofNat 32 (i 0).val) := by
  simp only [
    val_main_v56_apply, val_main_call7_v1_apply, val_main_call7_v0_apply, val_main_call7_c_apply,
    val_main_v55_apply, val_main_v54_apply, val_main_v53_apply, val_main_v52_apply, val_main_c_19_apply,
    val_main_v51_apply, val_main_v50_apply, val_main_c_18_apply, val_main_v49_apply, val_main_v48_apply,
    val_main_call6_v1_apply, val_main_call6_v0_apply, val_main_call6_c_apply, val_main_v47_apply,
    val_main_v46_apply, val_main_v45_apply, val_main_v44_apply, val_main_c_17_apply, val_main_v43_apply,
    val_main_v42_apply, val_main_c_16_apply, val_main_v41_apply, val_main_v40_apply, val_main_call5_v1_apply,
    val_main_call5_v0_apply, val_main_call5_c_apply, val_main_v39_apply, val_main_v38_apply,
    val_main_v37_apply, val_main_v36_apply, val_main_c_15_apply, val_main_v35_apply, val_main_v34_apply,
    val_main_c_14_apply, val_main_v33_apply, val_main_v32_apply, val_main_call4_v1_apply,
    val_main_call4_v0_apply, val_main_call4_c_apply, val_main_v31_apply, val_main_v30_apply,
    val_main_v29_apply, val_main_v28_apply, val_main_c_13_apply, val_main_v27_apply, val_main_v26_apply,
    val_main_c_12_apply, val_main_v25_apply, val_main_v24_apply, val_main_call3_v1_apply,
    val_main_call3_v0_apply, val_main_call3_c_apply, val_main_v23_apply, val_main_v22_apply,
    val_main_v21_apply, val_main_v20_apply, val_main_c_11_apply, val_main_v19_apply, val_main_v18_apply,
    val_main_c_10_apply, val_main_v17_apply, val_main_c_9_apply, val_main_c_8_apply, val_main_v16_apply,
    val_main_call2_v1_apply, val_main_call2_v0_apply, val_main_call2_c_apply, val_main_v15_apply,
    val_main_v14_apply, val_main_c_7_apply, val_main_v13_apply, val_main_v12_apply, val_main_c_6_apply,
    val_main_v11_apply, val_main_call1_v1_apply, val_main_call1_v0_apply, val_main_c_5_apply,
    val_main_c_4_apply, val_main_v10_apply, val_main_v9_apply, val_main_v8_apply, val_main_v7_apply,
    val_main_c_3_apply, val_main_v6_apply, val_main_c_2_apply, val_main_c_apply, val_main_v5_apply]
  rfl

/-- The codebook's entry at code `j`, coordinate `d`: `+1` if bit `d` of `j` is set, `-1` otherwise. -/
theorem codebook_apply (j : Fin 16384) (d : Fin 14) :
    val_main_v71 (F := Ideal) (ix2 j d) = ((SignCodes.sgn j.val d.val : ℝ) : EReal) := by
  simp only [
    val_main_v71_apply, val_main_v69_apply, val_main_v67_apply, val_main_v66_apply, val_main_v64_apply,
    val_main_v62_apply, val_main_v60_apply, val_main_v4_apply, val_main_v63_apply, val_main_v61_apply,
    mask_apply, val_main_v65_apply, val_main_c_21_apply, val_main_v68_apply, val_main_cst_22_apply,
    val_main_v70_apply, val_main_cst_23_apply]
  exact CodebookBits.entry j d

end Cert.ReferenceIdeal.Codebook

end
-- ==== Proof.RefValue.lean ====
/-
  The reference program's five results.  Row by row the reference forms the logits against the sign codebook, their
  softmax and log-softmax, and from them the row's entropy; it sums the probabilities and the entropies over the 8192
  rows (a row-major enumeration of the index pairs (b, l) is the enumeration of the flattened rows r = 1024 b + l), and
  finishes: the mean distribution and its entropy, the mean row entropy, the mean commitment error, the auxiliary loss.

  The sums.  Three of the reference's sums run over the rows:

    over the three leading axes of the probabilities [8, 1024, 1, 16384], into [16384]: at code j the indices that
      reduce to j are exactly the (b, l, 0, j), so the sum there is ∑ b, ∑ l of the probability of j in row (b, l);
    over every index of the row entropies [8, 1024, 1]: ∑ b, ∑ l of the entropy of row (b, l);
    over every index of the squared errors [8, 1024, 1, 14]: ∑ b, ∑ l, ∑ d of the squared error of coordinate d of
      row (b, l), and the inner sum over d is the row's commitment error.

  Each starts from the zero word, which is 0.  Every summand is a real number, so each sum is the real sum read as an
  extended real, and (b, l) ↦ 1024 b + l is a bijection from the pairs onto the naturals below 8192: the three sums are
  the specification's sumProb j, sumEnt and sumSq.  What follows them is elementwise and is the specification's own
  expression, constant word for constant word: the mean probability of j is sumProb j over the word of 8192; the
  entropy of the mean is minus (the zero word plus ∑ j of mean j times the logarithm of mean j plus the guard word);
  the mean row entropy is sumEnt over the word of 8192; the mean commitment error is sumSq over the word of 114688;
  the auxiliary loss is the unit word times the mean row entropy minus the unit word times the entropy of the mean.
-/
import proofs.«401730_j44306882625715_3_alg».proof.Proof.RefStages
import proofs.«401730_j44306882625715_3_alg».proof.Proof.RefRunStages
import proofs.«401730_j44306882625715_3_alg».proof.Proof.RefRow
import proofs.«401730_j44306882625715_3_alg».proof.Proof.CodebookRef
import proofs.«401730_j44306882625715_3_alg».proof.Proof.EntropySpec
import Idealize.ShloMosaic.PureOps.Ideal.Laws
import Idealize.ShloMosaic.PureOps.Reduce
import Idealize.ShloMosaic.Lib.ValueIdx
import Idealize.ShloMosaic.Lib.IdealHost
import Mathlib.Data.EReal.Basic
import Mathlib.Data.EReal.Operations
import Mathlib.Logic.Equiv.Fin.Basic
import Mathlib.Algebra.BigOperators.Fin

noncomputable section

namespace Cert.ReferenceIdeal.Result

section Stages

open Cert.ReferenceIdeal Cert.ReferenceIdeal.Gen Cert.ReferenceIdeal.Read Idealize.ShloMosaic Idealize.ShloMosaic.ValueIdx

/-! ## Sums of real numbers read as extended reals -/

/-- A finite sum of real numbers, each read as an extended real, is the real sum read as an extended real. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The index pairs (b, l) enumerate the flattened rows r = 1024 b + l -/

/-- A double sum over the pairs `(b, l)`, `b < 8`, `l < 1024`, of a function of `1024 b + l` is the sum over the
    rows `r < 8192`. -/
theorem sum_pairs_eq_sum_range {M : Type*} [AddCommMonoid M] (f : ℕ → M) :
    ∑ b : Fin 8, ∑ l : Fin 1024, f (1024 * b.val + l.val) = ∑ r ∈ Finset.range 8192, f r := by
  rw [Finset.sum_range, ← Fintype.sum_prod_type' (f := fun (b : Fin 8) (l : Fin 1024) => f (1024 * b.val + l.val)),
    ← Equiv.sum_comp (finProdFinEquiv (m := 8) (n := 1024)) (fun r : Fin (8 * 1024) => f r.val)]
  refine Finset.sum_congr rfl (fun p _ => ?_)
  rw [finProdFinEquiv_apply_val, Nat.add_comm]

/-- The indices of shape [8, 1024, 1] are the pairs `(b, l)`. -/
def idxEquivRows : S8x1024x1.Idx ≃ Fin 8 × Fin 1024 where
  toFun i := (i 0, i 1)
  invFun p := ix3 p.1 p.2 (0 : Fin 1)
  left_inv i := by
    have h := eq_ix3 i
    have h2 : i 2 = (0 : Fin 1) := Fin.ext (by have h1 : (i 2).val < 1 := (i 2).isLt; show (i 2).val = 0; omega)
    rw [h2] at h
    exact h.symm
  right_inv _ := rfl

/-- A sum over the indices of shape [8, 1024, 1] is the double sum over `(b, l)`. -/
theorem sum_idx_rows {M : Type*} [AddCommMonoid M] (f : S8x1024x1.Idx → M) :
    ∑ i, f i = ∑ b : Fin 8, ∑ l : Fin 1024, f (ix3 b l (0 : Fin 1)) := by
  rw [← Equiv.sum_comp idxEquivRows.symm f, Fintype.sum_prod_type]
  rfl

/-- The indices of shape [8, 1024, 1, 14] are the triples `(b, l, d)`. -/
def idxEquivCoords : S8x1024x1x14.Idx ≃ (Fin 8 × Fin 1024) × Fin 14 where
  toFun i := ((i 0, i 1), i 3)
  invFun p := ix4 p.1.1 p.1.2 (0 : Fin 1) p.2
  left_inv i := by
    have h := eq_ix4 i
    have h2 : i 2 = (0 : Fin 1) := Fin.ext (by have h1 : (i 2).val < 1 := (i 2).isLt; show (i 2).val = 0; omega)
    rw [h2] at h
    exact h.symm
  right_inv _ := rfl

/-- A sum over the indices of shape [8, 1024, 1, 14] is the triple sum over `(b, l, d)`. -/
theorem sum_idx_coords {M : Type*} [AddCommMonoid M] (f : S8x1024x1x14.Idx → M) :
    ∑ i, f i = ∑ b : Fin 8, ∑ l : Fin 1024, ∑ d : Fin 14, f (ix4 b l (0 : Fin 1) d) := by
  rw [← Equiv.sum_comp idxEquivCoords.symm f, Fintype.sum_prod_type, Fintype.sum_prod_type]
  rfl

/-! ## The sum over the three leading axes of shape [8, 1024, 1, 16384], read at a code -/

/-- Dropping the three leading axes of `(b, l, 0, j)` leaves `j`. -/
theorem drop_ix4 (b : Fin 8) (l : Fin 1024) (j : Fin 16384) :
    reducesTo_S8x1024x1x16384_S16384_d0_1_2.drop (ix4 b l (0 : Fin 1) j) = ix1 j := by
  funext a
  match a with
  | ⟨0, _⟩ => exact Fin.ext (Shape.ReducesTo.drop_apply_val_of_eq reducesTo_S8x1024x1x16384_S16384_d0_1_2 _ 0 3)

/-- An index that drops to `j` is `(b, l, 0, j)` at its own two leading coordinates. -/
theorem eq_ix4_of_drop (i : S8x1024x1x16384.Idx) (j : Fin 16384)
    (h : reducesTo_S8x1024x1x16384_S16384_d0_1_2.drop i = ix1 j) : i = ix4 (i 0) (i 1) (0 : Fin 1) j := by
  have hv := Shape.ReducesTo.drop_apply_val_of_eq reducesTo_S8x1024x1x16384_S16384_d0_1_2 i 0 3
  rw [h] at hv
  have h3 : i 3 = j := Fin.ext hv.symm
  have h2 : i 2 = (0 : Fin 1) := Fin.ext (by have h1 : (i 2).val < 1 := (i 2).isLt; show (i 2).val = 0; omega)
  have e := eq_ix4 i
  rw [h2, h3] at e
  exact e

/-- The indices that drop to `j`, as the image of the pairs `(b, l)`. -/
def pairsEmb (j : Fin 16384) : Fin 8 × Fin 1024 ↪ S8x1024x1x16384.Idx :=
  ⟨fun p => ix4 p.1 p.2 (0 : Fin 1) j, fun _ _ h => Prod.ext (congrFun h 0) (congrFun h 1)⟩

/-- The indices that reduce to code `j` are exactly the `(b, l, 0, j)`. -/
theorem filter_drop_eq (j : Fin 16384) :
    Finset.univ.filter (fun i : S8x1024x1x16384.Idx => reducesTo_S8x1024x1x16384_S16384_d0_1_2.drop i = ix1 j)
      = Finset.univ.map (pairsEmb j) := by
  ext i
  simp only [Finset.mem_filter, Finset.mem_univ, true_and, Finset.mem_map, pairsEmb, Function.Embedding.coeFn_mk]
  exact ⟨fun h => ⟨(i 0, i 1), (eq_ix4_of_drop i j h).symm⟩, fun ⟨p, hp⟩ => hp ▸ drop_ix4 p.1 p.2 j⟩

/-- The host's sum over the three leading axes, at code `j`: the initial value plus the double sum over `(b, l)` of
    the operand at `(b, l, 0, j)`. -/
theorem hostReduceAdd_codes (x : S8x1024x1x16384.Idx → EReal) (init : EReal) (j : Fin 16384) :
    Ideal.hostReduceAdd reducesTo_S8x1024x1x16384_S16384_d0_1_2 x init (ix1 j)
      = init + ∑ b : Fin 8, ∑ l : Fin 1024, x (ix4 b l (0 : Fin 1) j) := by
  unfold Ideal.hostReduceAdd
  rw [filter_drop_eq, Finset.sum_map, Fintype.sum_prod_type]
  rfl

/-! ## A sum over the indices of a one-axis shape -/

/-- The indices of a one-axis shape are its coordinates. -/
def idxEquiv1 {n : Nat} : (⟨1, ![n]⟩ : Shape).Idx ≃ Fin n where
  toFun i := i 0
  invFun j := ix1 j
  left_inv i := (eq_ix1 i).symm
  right_inv _ := rfl

/-- A sum over the indices of a one-axis shape is the sum over its coordinates. -/
theorem sum_idx1 {M : Type*} [AddCommMonoid M] {n : Nat} (f : (⟨1, ![n]⟩ : Shape).Idx → M) :
    ∑ i, f i = ∑ j : Fin n, f (ix1 j) :=
  (Equiv.sum_comp (idxEquiv1 (n := n)).symm f).symm

/-! ## The three sums over the rows -/

section Sums

variable (x0 : (⟨S8x1024x14, .f32⟩ : BufTy).Contents (Elt Ideal)) (hfin : EntropySpec.Finite x0)
include hfin

/-- The summed probabilities of code `j`: the reference's sum over the three leading axes is the sum over the rows. -/
theorem v91_apply (j : Fin 16384) :
    val_main_v91 (F := Ideal) x0 (ix1 j) = ((EntropySpec.sumProb x0 j : ℝ) : EReal) :=
  calc val_main_v91 (F := Ideal) x0 (ix1 j)
      = Ideal.ofBits .f32 0x00000000#32
          + ∑ b : Fin 8, ∑ l : Fin 1024, val_main_v87 (F := Ideal) x0 (ix4 b l (0 : Fin 1) j) := by
        unfold val_main_v91
        rw [hostReduceAdd_apply, hostReduceAdd_codes, val_main_cst_30_apply]
        rfl
    _ = ∑ b : Fin 8, ∑ l : Fin 1024, ((EntropySpec.prob x0 (1024 * b.val + l.val) j : ℝ) : EReal) := by
        rw [Ideal.ofBits_zero_f32, zero_add]
        exact Finset.sum_congr rfl fun b _ => Finset.sum_congr rfl fun l _ =>
          Row.prob_apply x0 hfin Codebook.codebook_apply b l j
    _ = ∑ r ∈ Finset.range 8192, ((EntropySpec.prob x0 r j : ℝ) : EReal) :=
        sum_pairs_eq_sum_range fun r => ((EntropySpec.prob x0 r j : ℝ) : EReal)
    _ = ((EntropySpec.sumProb x0 j : ℝ) : EReal) := coe_finset_sum _ _

/-- The summed row entropies. -/
theorem v103_apply (i : S_.Idx) :
    val_main_v103 (F := Ideal) x0 i = ((EntropySpec.sumEnt x0 : ℝ) : EReal) :=
  calc val_main_v103 (F := Ideal) x0 i
      = ∑ b : Fin 8, ∑ l : Fin 1024, val_main_v102 (F := Ideal) x0 (ix3 b l (0 : Fin 1)) := by
        rw [val_main_v103_apply, val_main_cst_35_apply, Ideal.ofBits_def, Ideal.ofBits_zero_f32, zero_add, sum_idx_rows]
    _ = ∑ b : Fin 8, ∑ l : Fin 1024, ((EntropySpec.rowEnt x0 (1024 * b.val + l.val) : ℝ) : EReal) :=
        Finset.sum_congr rfl fun b _ => Finset.sum_congr rfl fun l _ =>
          Row.rowEnt_apply x0 hfin Codebook.codebook_apply b l
    _ = ∑ r ∈ Finset.range 8192, ((EntropySpec.rowEnt x0 r : ℝ) : EReal) :=
        sum_pairs_eq_sum_range fun r => ((EntropySpec.rowEnt x0 r : ℝ) : EReal)
    _ = ((EntropySpec.sumEnt x0 : ℝ) : EReal) := coe_finset_sum _ _

/-- The summed commitment errors. -/
theorem v110_apply (i : S_.Idx) :
    val_main_v110 (F := Ideal) x0 i = ((EntropySpec.sumSq x0 : ℝ) : EReal) :=
  calc val_main_v110 (F := Ideal) x0 i
      = ∑ b : Fin 8, ∑ l : Fin 1024, ∑ d : Fin 14, val_main_v109 (F := Ideal) x0 (ix4 b l (0 : Fin 1) d) := by
        rw [val_main_v110_apply, val_main_cst_39_apply, Ideal.ofBits_def, Ideal.ofBits_zero_f32, zero_add, sum_idx_coords]
    _ = ∑ b : Fin 8, ∑ l : Fin 1024, ((EntropySpec.rowSq x0 (1024 * b.val + l.val) : ℝ) : EReal) :=
        Finset.sum_congr rfl fun b _ => Finset.sum_congr rfl fun l _ =>
          (Finset.sum_congr rfl fun d _ => Row.sq_apply x0 hfin b l d).trans (coe_finset_sum _ _)
    _ = ∑ r ∈ Finset.range 8192, ((EntropySpec.rowSq x0 r : ℝ) : EReal) :=
        sum_pairs_eq_sum_range fun r => ((EntropySpec.rowSq x0 r : ℝ) : EReal)
    _ = ((EntropySpec.sumSq x0 : ℝ) : EReal) := coe_finset_sum _ _

/-! ## The five results -/

/-- The mean probability of code `j`. -/
theorem v93_apply (j : Fin 16384) : val_main_v93 (F := Ideal) x0 (ix1 j) = EntropySpec.avgProb x0 j := by
  rw [val_main_v93_apply, v91_apply x0 hfin, val_main_v92_apply, val_main_cst_31_apply]
  rfl

/-- The mean row entropy. -/
theorem v104_eq : val_main_v104 (F := Ideal) x0 = EntropySpec.out2 x0 := by
  funext i
  rw [val_main_v104_apply, v103_apply x0 hfin, val_main_cst_36_apply]
  rfl

/-- The entropy of the mean distribution. -/
theorem v99_eq : val_main_v99 (F := Ideal) x0 = EntropySpec.out3 x0 := by
  funext i
  have hterm : ∀ j : Fin 16384, val_main_v97 (F := Ideal) x0 (ix1 j)
      = EntropySpec.avgProb x0 j * Ideal.log (EntropySpec.avgProb x0 j + Ideal.ofBits .f32 0x3727C5AC#32) := fun j => by
    rw [val_main_v97_apply, val_main_v96_apply, val_main_v95_apply, v93_apply x0 hfin, val_main_v94_apply,
      val_main_cst_32_apply]
    rfl
  rw [val_main_v99_apply, val_main_v98_apply, val_main_cst_33_apply, sum_idx1, Finset.sum_congr rfl fun j _ => hterm j]
  rfl

/-- The auxiliary loss. -/
theorem v107_eq : val_main_v107 (F := Ideal) x0 = EntropySpec.out1 x0 := by
  funext i
  rw [val_main_v107_apply, val_main_v105_apply, val_main_v106_apply, v104_eq x0 hfin, v99_eq x0 hfin,
    val_main_cst_37_apply, val_main_cst_38_apply]
  rfl

/-- The mean commitment error. -/
theorem v111_eq : val_main_v111 (F := Ideal) x0 = EntropySpec.out4 x0 := by
  funext i
  rw [val_main_v111_apply, v110_apply x0 hfin, val_main_cst_40_apply]
  rfl

end Sums

end Stages

/-! ## The run -/

open Cert.ReferenceIdeal Idealize.ShloMosaic Idealize.ShloMosaic.TcCoe Idealize.SL.Sem

/-- Run from a memory whose input entries are real numbers, the idealized reference program ends with its five results
    at the specification's functions of the input, and the input unchanged. -/
theorem reference_value (m : (ℓ : Loc nD τ sig) → Buf (Elt Ideal) ℓ) (ρ : Dev nD → PrngReg)
    (hfin : ∀ c : Dev nD, EntropySpec.Finite (m ((c.tc : Thread nD τ).loc main_arg0))) :
    θ_run (defs (F := Ideal)) (onTc (τ := τ) (main (F := Ideal))) ⟨m, fun _ => 0, ρ⟩ (fun r => ∀ c : Dev nD,
      r.2.mem ((c.tc : Thread nD τ).loc main_v114) = EntropySpec.out0 (m ((c.tc : Thread nD τ).loc main_arg0))
      ∧ r.2.mem ((c.tc : Thread nD τ).loc main_v107) = EntropySpec.out1 (m ((c.tc : Thread nD τ).loc main_arg0))
      ∧ r.2.mem ((c.tc : Thread nD τ).loc main_v104) = EntropySpec.out2 (m ((c.tc : Thread nD τ).loc main_arg0))
      ∧ r.2.mem ((c.tc : Thread nD τ).loc main_v99) = EntropySpec.out3 (m ((c.tc : Thread nD τ).loc main_arg0))
      ∧ r.2.mem ((c.tc : Thread nD τ).loc main_v111) = EntropySpec.out4 (m ((c.tc : Thread nD τ).loc main_arg0))
      ∧ r.2.mem ((c.tc : Thread nD τ).loc main_arg0) = m ((c.tc : Thread nD τ).loc main_arg0)) :=
  (θ_run (defs (F := Ideal)) _ _).mono (fun _ h c =>
    ⟨(h c).1.trans (Cert.ReferenceIdeal.Row.quant_out _ (hfin c)),
      (h c).2.1.trans (v107_eq _ (hfin c)),
      (h c).2.2.1.trans (v104_eq _ (hfin c)),
      (h c).2.2.2.1.trans (v99_eq _ (hfin c)),
      (h c).2.2.2.2.1.trans (v111_eq _ (hfin c)),
      (h c).2.2.2.2.2⟩)
    (Cert.ReferenceIdeal.Stages.run_stages (F := Ideal) m ρ)

end Cert.ReferenceIdeal.Result

end
-- ==== Proof.lean ====
/-
  The certificate.  The kernel program scales each input row by the folded constant 200, which is named here as the
  closed form `2 / temp` of the reference's own temperature word; with that reading both idealized programs compute,
  from real inputs, the same five functions of the input array (`EntropySpec.out0 … out4`): the sign quantisation, the
  auxiliary loss, the mean row entropy, the entropy of the mean code distribution and the mean commitment error.

  The kernel never forms the 2^14-wide softmax normaliser: it uses that the sign codebook enumerates every pattern in
  `{-1, +1}^14`, so the partition function of a row factors over the 14 coordinates and the mean score is
  `∑ d, w d * tanh (w d)` (`SignCodes.partition`, `SignCodes.mean_score`).  The reference forms the softmax and the
  log-softmax explicitly; their shifts cancel over the reals (`SignCodes.row_prob`, `SignCodes.row_entropy`).  The
  precondition makes every input entry a real number, which is what those laws need.

  The frames of the two kernel programs are the generated frame certificates; the reference's frame is its value run
  with the results dropped.  The one entry of the idealization ledger is the named constant's statement.
-/
import proofs.«401730_j44306882625715_3_alg».proof.Defs
import proofs.«401730_j44306882625715_3_alg».proof.Proof.Gen.Kernel
import proofs.«401730_j44306882625715_3_alg».proof.Proof.Gen.Kernel.Skeleton
import proofs.«401730_j44306882625715_3_alg».proof.Proof.Gen.Kernel.Launch
import proofs.«401730_j44306882625715_3_alg».proof.Proof.Gen.Kernel.Points
import proofs.«401730_j44306882625715_3_alg».proof.Proof.Gen.Kernel.Frame
import proofs.«401730_j44306882625715_3_alg».proof.Proof.Gen.KernelIdeal
import proofs.«401730_j44306882625715_3_alg».proof.Proof.Gen.KernelIdeal.Skeleton
import proofs.«401730_j44306882625715_3_alg».proof.Proof.Gen.KernelIdeal.Launch
import proofs.«401730_j44306882625715_3_alg».proof.Proof.Gen.KernelIdeal.Points
import proofs.«401730_j44306882625715_3_alg».proof.Proof.Gen.KernelIdeal.Frame
import proofs.«401730_j44306882625715_3_alg».proof.Proof.Gen.ReferenceIdeal
import proofs.«401730_j44306882625715_3_alg».proof.Proof.Gen.Pre_finite_inputs
import proofs.«401730_j44306882625715_3_alg».proof.Proof.FiniteInputs
import proofs.«401730_j44306882625715_3_alg».proof.Proof.KernelTail
import proofs.«401730_j44306882625715_3_alg».proof.Proof.RefValue
import Idealize.ShloMosaic.PureOps.IdealRules
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and keeps its input: its value run, the results dropped. -/
theorem frame_ri : Cert.frame_ReferenceIdeal := fun m ρ hpre =>
  (θ_run Cert.ReferenceIdeal.defs _ _).mono (fun _ h c => (h c).2.2.2.2.2)
    (Cert.ReferenceIdeal.Result.reference_value m ρ fun c => EntropySpec.finite_of_pre _ (hpre c))

/-- The ledger's one entry: the table gives the scale's name the value `2 / temp`, and the printed constant is that
    value at the ideal instance. -/
theorem preserves : Cert.preserves_Kernel_KernelIdeal :=
  IdealRules.named_const.statement Cert.KernelIdeal.κ "fold_c_1073741824_5368709" .f32 0x43480000#32
    ((1073741824 / 5368709 : ℝ) : EReal) rfl

/-- From memories that agree on the input, both idealized programs end at the specification's five functions of it. -/
theorem algebraic : Cert.algebraic_KernelIdeal_ReferenceIdeal := by
  intro m ρ m' ρ' hpre hagree
  have hfin : ∀ c : Dev Cert.KernelIdeal.nD,
      EntropySpec.Finite (m ((c.tc : Thread Cert.KernelIdeal.nD Cert.KernelIdeal.τ).loc Cert.KernelIdeal.main_arg0)) :=
    fun c => EntropySpec.finite_of_pre _ (hpre c)
  refine ⟨_, _, _, _, _, Cert.KernelIdeal.Tail.kernel_value m ρ hfin, ?_⟩
  refine (θ_run Cert.ReferenceIdeal.defs _ _).mono (fun r h c => ?_)
    (Cert.ReferenceIdeal.Result.reference_value m' ρ' fun c => by rw [hagree c]; exact hfin c)
  obtain ⟨h0, h1, h2, h3, h4, h5⟩ := h c
  rw [hagree c] at h0 h1 h2 h3 h4
  exact ⟨h0, h1, h2, h3, h4, h5⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
